-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S10000x128 : Shape := ⟨2, ![10000, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_v33

def fn {F : FTy → Type} [FloatOps F] (main_arg0 : FVec F S10000x512 .f32) (main_arg1 : IVec S320000 32) (main_arg2 : IVec S320000 32) (main_arg3 : FVec F S10000x128 .f32) (main_arg4 : FVec F S512x256 .f32) (main_arg5 : FVec F S256 .f32) (main_arg6 : FVec F S256x128 .f32) (main_arg7 : FVec F S128 .f32) (main_arg8 : FVec F S256x128 .f32) (main_arg9 : FVec F S128 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x128 .f32 := Host.absf main_arg3
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S10000x512 : Shape := ⟨2, ![10000, 512]⟩
abbrev S320000 : Shape := ⟨1, ![320000]⟩
abbrev S10000x128 : Shape := ⟨2, ![10000, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x512 : Shape := ⟨2, ![320000, 512]⟩
abbrev S10000x256 : Shape := ⟨2, ![10000, 256]⟩
abbrev S1000x512 : Shape := ⟨2, ![1000, 512]⟩
abbrev S1000x256 : Shape := ⟨2, ![1000, 256]⟩
abbrev S1x256 : Shape := ⟨2, ![1, 256]⟩
abbrev S320000x256 : Shape := ⟨2, ![320000, 256]⟩
abbrev S256x256 : Shape := ⟨2, ![256, 256]⟩
abbrev S10000x10000 : Shape := ⟨2, ![10000, 10000]⟩
abbrev S128x128 : Shape := ⟨2, ![128, 128]⟩
abbrev S128x10000 : Shape := ⟨2, ![128, 10000]⟩

abbrev nBuf : Space → Nat
  | .hbm => 76
  | .vmem => 17
  | .smem => 0
  | _ => 0

abbrev bufTy : (tb : Table) → Fin (tcTables nBuf tb) → BufTy
  | .hbm, ⟨0, _⟩ => ⟨S10000x512, .f32⟩
  | .hbm, ⟨1, _⟩ => ⟨S320000, .i32⟩
  | .hbm, ⟨2, _⟩ => ⟨S320000, .i32⟩
  | .hbm, ⟨3, _⟩ => ⟨S10000x128, .f32⟩
  | .hbm, ⟨4, _⟩ => ⟨S512x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S_, .f32⟩
  | .hbm, ⟨11, _⟩ => ⟨S320000, .f32⟩
  | .hbm, ⟨12, _⟩ => ⟨S_, .f32⟩
  | .hbm, ⟨13, _⟩ => ⟨S10000, .f32⟩
  | .hbm, ⟨14, _⟩ => ⟨S320000x1, .i32⟩
  | .hbm, ⟨15, _⟩ => ⟨S10000, .f32⟩
  | .hbm, ⟨16, _⟩ => ⟨S_, .f32⟩
  | .hbm, ⟨17, _⟩ => ⟨S_, .f32⟩
  | .hbm, ⟨18, _⟩ => ⟨S10000, .f32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S320000x1, .i32⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000, .f32⟩
  | .hbm, ⟨31, _⟩ => ⟨S10000x1, .f32⟩
  | .hbm, ⟨32, _⟩ => ⟨S10000x512, .f32⟩
  | .hbm, ⟨33, _⟩ => ⟨S10000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S_, .f32⟩
  | .hbm, ⟨44, _⟩ => ⟨S10000x512, .f32⟩
  | .hbm, ⟨45, _⟩ => ⟨S320000x1, .i32⟩
  | .hbm, ⟨46, _⟩ => ⟨S10000x512, .f32⟩
  | .hbm, ⟨47, _⟩ => ⟨S10000x512, .f32⟩
  | .hbm, ⟨48, _⟩ => ⟨S10000x512, .f32⟩
  | .hbm, ⟨49, _⟩ => ⟨S10000x256, .f32⟩
  | .hbm, ⟨50, _⟩ => ⟨S10000x256, .f32⟩
  | .hbm, ⟨51, _⟩ => ⟨S10000x256, .f32⟩
  | .hbm, ⟨52, _⟩ => ⟨S_, .i32⟩
  | .hbm, ⟨53, _⟩ => ⟨S320000, .i32⟩
  | .hbm, ⟨54, _⟩ => ⟨S320000, .i1⟩
  | .hbm, ⟨55, _⟩ => ⟨S_, .i32⟩
  | .hbm, ⟨56, _⟩ => ⟨S320000, .i32⟩
  | .hbm, ⟨57, _⟩ => ⟨S320000, .i32⟩
  | .hbm, ⟨58, _⟩ => ⟨S320000, .i32⟩
  | .hbm, ⟨59, _⟩ => ⟨S320000x1, .i32⟩
  | .hbm, ⟨60, _⟩ => ⟨S320000x256, .f32⟩
  | .hbm, ⟨61, _⟩ => ⟨S_, .f32⟩
  | .hbm, ⟨62, _⟩ => ⟨S10000x256, .f32⟩
  | .hbm, ⟨63, _⟩ => ⟨S320000x1, .i32⟩
  | .hbm, ⟨64, _⟩ => ⟨S10000x256, .f32⟩
  | .hbm, ⟨65, _⟩ => ⟨S10000x256, .f32⟩
  | .hbm, ⟨66, _⟩ => ⟨S10000x256, .f32⟩
  | .hbm, ⟨67, _⟩ => ⟨S256x256, .f32⟩
  | .hbm, ⟨68, _⟩ => ⟨S256, .f32⟩
  | .hbm, ⟨69, _⟩ => ⟨S10000x256, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S10000x128, .f32⟩
  | .hbm, ⟨75, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x256, .f32⟩
  | .local _ .vmem, ⟨3, _⟩ => ⟨S256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x256, .f32⟩
  | .local _ .vmem, ⟨9, _⟩ => ⟨S256, .f32⟩
  | .local _ .vmem, ⟨10, _⟩ => ⟨S1000x256, .f32⟩
  | .local _ .vmem, ⟨11, _⟩ => ⟨S1000x256, .f32⟩
  | .local _ .vmem, ⟨12, _⟩ => ⟨S128x128, .f32⟩
  | .local _ .vmem, ⟨13, _⟩ => ⟨S128x128, .f32⟩
  | .local _ .vmem, ⟨14, _⟩ => ⟨S10000x128, .f32⟩
  | .local _ .vmem, ⟨15, _⟩ => ⟨S128x10000, .f32⟩
  | .local _ .vmem, ⟨16, _⟩ => ⟨S128x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![79], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x10000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  concatenates_S256x128_S256x128_S256x256_d1 : Shape.Concatenates [S256x128, S256x128] S256x256 1
  concatenates_S128_S128_S256_d0 : Shape.Concatenates [S128, S128] S256 0
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S256 : S256.ShapeCasts S256
  slices_S10000x256_S10000x128_0_0 : S10000x256.Slices ![0, 0] S10000x128
  slices_S10000x256_S10000x128_0_128 : S10000x256.Slices ![0, 128] S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x10000_S128x10000_0_0 : ∀ a, (![0, 0] : Fin 2 → Nat) a + S128x10000.size a ≤ S128x10000.size a
  h_S128x10000 : 0 < S128x10000.numel
  scatter_S10000_S320000x1_S320000_n_0_0_1_wf : ScatterDims.WF S10000 S320000x1 S320000 [] [0] [0] 1
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S1000x512_S512x256_S1000x256_1_0_0_1_n_n_wf : DotDims.WF S1000x512 S512x256 S1000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  dot_S128x128_S10000x128_S128x10000_1_1_0_0_n_n_wf : DotDims.WF S128x128 S10000x128 S128x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .f32 = 32 ∨ (Rect.block (s := S10000x256) S1000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S128x128.size a < S10000x128.size a
  hwx2_0 : ∀ i : grid2.Coords, EltTy.bits .f32 = 32 ∨ (Rect.unit (s := S10000x128) (fun a => cc2_transform_0 i a * S128x128.size a) (fun a => (Pipeline.Clip.of (cc2_transform_0 i a) (S128x128.size a) (S10000x128.size a)).extent (S128x128.size a)) fun a => Pipeline.Clip.inb (Pipeline.Clip.ok_of (hstart2_0 i a))).WholeWords (EltTy.packing .f32)
  hwxs2_0 : ∀ i : grid2.Coords, EltTy.bits .f32 = 32 ∨ (Rect.unit (s := S128x128) (fun _ => 0) (fun a => (Pipeline.Clip.of (cc2_transform_0 i a) (S128x128.size a) (S10000x128.size a)).extent (S128x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S128x10000.size a < S10000x10000.size a
  hwx2_2 : ∀ i : grid2.Coords, EltTy.bits .f32 = 32 ∨ (Rect.unit (s := S10000x10000) (fun a => cc2_transform_2 i a * S128x10000.size a) (fun a => (Pipeline.Clip.of (cc2_transform_2 i a) (S128x10000.size a) (S10000x10000.size a)).extent (S128x10000.size a)) fun a => Pipeline.Clip.inb (Pipeline.Clip.ok_of (hstart2_2 i a))).WholeWords (EltTy.packing .f32)
  hwxs2_2 : ∀ i : grid2.Coords, EltTy.bits .f32 = 32 ∨ (Rect.unit (s := S128x10000) (fun _ => 0) (fun a => (Pipeline.Clip.of (cc2_transform_2 i a) (S128x10000.size a) (S10000x10000.size a)).extent (S128x10000.size a)) fun a => (Nat.zero_add _).trans_le (Pipeline.Clip.extent_le (Pipeline.Clip.ok_of (hstart2_2 i a)))).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S128x128_S10000x128_S128x10000_1_1_0_0_n_n : DotDims S128x128 S10000x128 S128x10000 where
  lhsContracting := [1]
  rhsContracting := [1]
  lhsNonContracting := [0]
  rhsNonContracting := [0]
  lhsBatch := []
  rhsBatch := []
  wf := dot_S128x128_S10000x128_S128x10000_1_1_0_0_n_n_wf

abbrev win0_0 : Pipeline.Window sig grid0 :=
  Pipeline.Window.ofSpec (Memref.whole main_v26) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpecClip (Memref.whole main_v49) S128x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v49) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v50) S128x10000.size cc2_transform_2 reads2_2 true false 2 stage2_2 sem2_2
    hrank2 hreads2_2 hstart2_2 nbuf2_2 (Memref.isWhole_whole _) hwx2_2 hwxs2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x512 : Shape := ⟨2, ![10000, 512]⟩
abbrev S320000 : Shape := ⟨1, ![320000]⟩
abbrev S10000x128 : Shape := ⟨2, ![10000, 128]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S320000x512 : Shape := ⟨2, ![320000, 512]⟩
abbrev S10000x256 : Shape := ⟨2, ![10000, 256]⟩
abbrev S1x256 : Shape := ⟨2, ![1, 256]⟩
abbrev S320000x256 : Shape := ⟨2, ![320000, 256]⟩
abbrev S1x128 : Shape := ⟨2, ![1, 128]⟩
abbrev S128x10000 : Shape := ⟨2, ![128, 10000]⟩
abbrev S10000x10000 : Shape := ⟨2, ![10000, 10000]⟩

abbrev nBuf : Space → Nat
  | .hbm => 155
  | .vmem => 0
  | .smem => 0
  | _ => 0

abbrev hbmTy0_0 (i : Nat) : BufTy := match i % 128 with
  | 0 => ⟨S10000x512, .f32⟩
  | 1 => ⟨S320000, .i32⟩
  | 2 => ⟨S320000, .i32⟩
  | 3 => ⟨S10000x128, .f32⟩
  | 4 => ⟨S512x256, .f32⟩
  | 5 => ⟨S256, .f32⟩
  | 6 => ⟨S256x128, .f32⟩
  | 7 => ⟨S128, .f32⟩
  | 8 => ⟨S256x128, .f32⟩
  | 9 => ⟨S128, .f32⟩
  | 10 => ⟨S_, .f32⟩
  | 11 => ⟨S320000, .f32⟩
  | 12 => ⟨S_, .f32⟩
  | 13 => ⟨S10000, .f32⟩
  | 14 => ⟨S320000x1, .i32⟩
  | 15 => ⟨S10000, .f32⟩
  | 16 => ⟨S_, .f32⟩
  | 17 => ⟨S_, .f32⟩
  | 18 => ⟨S10000, .f32⟩
  | 19 => ⟨S10000, .f32⟩
  | 20 => ⟨S_, .f32⟩
  | 21 => ⟨S10000, .f32⟩
  | 22 => ⟨S320000x1, .i32⟩
  | 23 => ⟨S10000, .f32⟩
  | 24 => ⟨S_, .f32⟩
  | 25 => ⟨S_, .f32⟩
  | 26 => ⟨S10000, .f32⟩
  | 27 => ⟨S10000, .f32⟩
  | 28 => ⟨S10000, .f32⟩
  | 29 => ⟨S10000x1, .f32⟩
  | 30 => ⟨S10000x512, .f32⟩
  | 31 => ⟨S10000x512, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x512, .f32⟩
  | 41 => ⟨S_, .f32⟩
  | 42 => ⟨S10000x512, .f32⟩
  | 43 => ⟨S320000x1, .i32⟩
  | 44 => ⟨S10000x512, .f32⟩
  | 45 => ⟨S10000, .f32⟩
  | 46 => ⟨S10000x1, .f32⟩
  | 47 => ⟨S10000x512, .f32⟩
  | 48 => ⟨S10000x512, .f32⟩
  | 49 => ⟨S10000x256, .f32⟩
  | 50 => ⟨S1x256, .f32⟩
  | 51 => ⟨S10000x256, .f32⟩
  | 52 => ⟨S10000x256, .f32⟩
  | 53 => ⟨S_, .f32⟩
  | 54 => ⟨S10000x256, .f32⟩
  | 55 => ⟨S10000x256, .f32⟩
  | 56 => ⟨S_, .f32⟩
  | 57 => ⟨S320000, .f32⟩
  | 58 => ⟨S_, .f32⟩
  | 59 => ⟨S10000, .f32⟩
  | 60 => ⟨S320000x1, .i32⟩
  | 61 => ⟨S10000, .f32⟩
  | 62 => ⟨S_, .f32⟩
  | 63 => ⟨S_, .f32⟩
  | 64 => ⟨S10000, .f32⟩
  | 65 => ⟨S10000, .f32⟩
  | 66 => ⟨S_, .f32⟩
  | 67 => ⟨S10000, .f32⟩
  | 68 => ⟨S320000x1, .i32⟩
  | 69 => ⟨S10000, .f32⟩
  | 70 => ⟨S_, .f32⟩
  | 71 => ⟨S_, .f32⟩
  | 72 => ⟨S10000, .f32⟩
  | 73 => ⟨S10000, .f32⟩
  | 74 => ⟨S10000, .f32⟩
  | 75 => ⟨S10000x1, .f32⟩
  | 76 => ⟨S10000x256, .f32⟩
  | 77 => ⟨S10000x256, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x256, .f32⟩
  | 87 => ⟨S_, .f32⟩
  | 88 => ⟨S10000x256, .f32⟩
  | 89 => ⟨S320000x1, .i32⟩
  | 90 => ⟨S10000x256, .f32⟩
  | 91 => ⟨S10000, .f32⟩
  | 92 => ⟨S10000x1, .f32⟩
  | 93 => ⟨S10000x256, .f32⟩
  | 94 => ⟨S10000x256, .f32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S320000, .f32⟩
  | 101 => ⟨S_, .f32⟩
  | 102 => ⟨S10000, .f32⟩
  | 103 => ⟨S320000x1, .i32⟩
  | 104 => ⟨S10000, .f32⟩
  | 105 => ⟨S_, .f32⟩
  | 106 => ⟨S_, .f32⟩
  | 107 => ⟨S10000, .f32⟩
  | 108 => ⟨S10000, .f32⟩
  | 109 => ⟨S_, .f32⟩
  | 110 => ⟨S10000, .f32⟩
  | 111 => ⟨S320000x1, .i32⟩
  | 112 => ⟨S10000, .f32⟩
  | 113 => ⟨S_, .f32⟩
  | 114 => ⟨S_, .f32⟩
  | 115 => ⟨S10000, .f32⟩
  | 116 => ⟨S10000, .f32⟩
  | 117 => ⟨S10000, .f32⟩
  | 118 => ⟨S10000x1, .f32⟩
  | 119 => ⟨S10000x256, .f32⟩
  | 120 => ⟨S10000x256, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S10000x512, .f32⟩

abbrev hbmTy0_1 (i : Nat) : BufTy := match i % 128 with
  | 0 => ⟨S320000x1, .i32⟩
  | 1 => ⟨S320000x256, .f32⟩
  | 2 => ⟨S_, .f32⟩
  | 3 => ⟨S10000x256, .f32⟩
  | 4 => ⟨S320000x1, .i32⟩
  | 5 => ⟨S10000x256, .f32⟩
  | 6 => ⟨S10000, .f32⟩
  | 7 => ⟨S10000x1, .f32⟩
  | 8 => ⟨S10000x256, .f32⟩
  | 9 => ⟨S10000x256, .f32⟩
  | 10 => ⟨S10000x128, .f32⟩
  | 11 => ⟨S1x128, .f32⟩
  | 12 => ⟨S10000x128, .f32⟩
  | 13 => ⟨S10000x128, .f32⟩
  | 14 => ⟨S10000x128, .f32⟩
  | 15 => ⟨S10000x128, .f32⟩
  | 16 => ⟨S10000x128, .f32⟩
  | 17 => ⟨S128x10000, .f32⟩
  | 18 => ⟨S10000x10000, .f32⟩
  | 19 => ⟨S10000x10000, .f32⟩
  | 20 => ⟨S10000x10000, .f32⟩
  | 21 => ⟨S_, .f32⟩
  | 22 => ⟨S10000x10000, .f32⟩
  | 23 => ⟨S10000x10000, .f32⟩
  | 24 => ⟨S_, .f32⟩
  | 25 => ⟨S10000x10000, .f32⟩
  | 26 => ⟨S10000x10000, .f32⟩
  | _ => ⟨S10000x512, .f32⟩

abbrev hbmTy (i : Nat) : BufTy := match i / 128 with
  | 0 => hbmTy0_0 i
  | 1 => hbmTy0_1 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_4 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_5 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_call3_v0 : Ref sig .tc := ⟨.hbm, 63, rfl⟩
abbrev main_call3_v1 : Ref sig .tc := ⟨.hbm, 64, rfl⟩
abbrev main_v36 : Ref sig .tc := ⟨.hbm, 65, rfl⟩
abbrev main_cst_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_call4_v0 : Ref sig .tc := ⟨.hbm, 71, rfl⟩
abbrev main_call4_v1 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_call5_v0 : Ref sig .tc := ⟨.hbm, 106, rfl⟩
abbrev main_call5_v1 : Ref sig .tc := ⟨.hbm, 107, rfl⟩
abbrev main_v67 : Ref sig .tc := ⟨.hbm, 108, rfl⟩
abbrev main_cst_17 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_18 : Ref sig .tc := ⟨.hbm, 113, rfl⟩
abbrev main_call6_v0 : Ref sig .tc := ⟨.hbm, 114, rfl⟩
abbrev main_call6_v1 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_c_19 : Ref sig .tc := ⟨.hbm, 121, rfl⟩
abbrev main_v76 : Ref sig .tc := ⟨.hbm, 122, rfl⟩
abbrev main_v77 : Ref sig .tc := ⟨.hbm, 123, rfl⟩
abbrev main_c_20 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_21 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_cst_22 : Ref sig .tc := ⟨.hbm, 149, rfl⟩
abbrev main_v101 : Ref sig .tc := ⟨.hbm, 150, rfl⟩
abbrev main_v102 : Ref sig .tc := ⟨.hbm, 151, rfl⟩
abbrev main_cst_23 : Ref sig .tc := ⟨.hbm, 152, rfl⟩
abbrev main_v103 : Ref sig .tc := ⟨.hbm, 153, rfl⟩
abbrev main_v104 : Ref sig .tc := ⟨.hbm, 154, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S10000x128_S128x10000_1_0 : S10000x128.Transposes [1, 0] S128x10000
  bcast_S_S10000x10000 : S_.BroadcastsInDim S10000x10000 (![] : Fin 0 → Fin S10000x10000.rank)
  scatter_S10000_S320000x1_S320000_n_0_0_1_wf : ScatterDims.WF S10000 S320000x1 S320000 [] [0] [0] 1
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x128_S10000x128_1_0_0_1_n_n_wf : DotDims.WF S10000x256 S256x128 S10000x128 [1] [0] [0] [1] [] []
  dot_S10000x128_S128x10000_S10000x10000_1_0_0_1_n_n_wf : DotDims.WF S10000x128 S128x10000 S10000x10000 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.K.DenseFirst.lean ====
/-
  The first dense layer's kernel region (pallas_call 0): over the row-scaled aggregate `a` (10000 x 512), the
  weight `w` (512 x 256) and the bias `b` (256), on a grid of ten points, point `t` stages rows
  1000 t .. 1000 t + 999 of `a`, the whole of `w` and `b` (fetched once), and its body stores
  max (a_blk · w + b, 0) into the result's 1000 x 256 staging block, which the pipeline writes back as rows
  1000 t .. of the result. Stated here, at any float instance and at the contents `V` the region is entered
  with: what each window's block is, what the body leaves (`denseRelu`), the region's proof data and the body's
  obligation at every point.
-/
import proofs.«140900_j10024453669132_1_alg».proof.Proof.Gen.Kernel.Launch
import proofs.«140900_j10024453669132_1_alg».proof.Proof.Gen.Kernel.Skeleton
import proofs.«140900_j10024453669132_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first dense region, read off its array as the region finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rA0 : Rect S1000x512 := Rect.unit (s := S1000x512) ![0, 0] S1000x512.size inb_S1000x512_S1000x512_0_0
abbrev rW0 : Rect S512x256 := Rect.unit (s := S512x256) ![0, 0] S512x256.size inb_S512x256_S512x256_0_0
abbrev rB0 : Rect S256 := Rect.unit (s := S256) ![0] S256.size inb_S256_S256_0
abbrev rO0 : Rect S1000x256 := Rect.unit (s := S1000x256) ![0, 0] S1000x256.size inb_S1000x256_S1000x256_0_0

/-- What the body leaves in the result's staging block, from the three input blocks: its one whole store of
    max (a · w + b, 0). -/
def denseRelu (a : Vec F S1000x512 .f32) (w : Vec F S512x256 .f32) (b : Vec F S256 .f32) : Vec F S1000x256 .f32 :=
  View.canon [⟨rO0, k0_pay1 (View.ld a rA0) (View.ld w rW0) (View.ld b rB0)⟩]

/-- The one store covers the block. -/
theorem cover0 (p0 : Vec F S1000x256 .f32) (y : S1000x256.Idx) :
    ∃ pc ∈ ([⟨rO0, p0⟩] : List (View.Piece (Elt F) S1000x256 .f32)), y ∈ pc.1.set :=
  View.cover_of_tiled [⟨rO0, p0⟩] S1000x256.size (by rfl) y

/-- The body's triple on whole staging memrefs: inputs read at `a`, `w`, `b` and left so; the result's memref,
    at anything, left at `denseRelu a w b`. -/
theorem run_dense0 (c : Dev nD) (E : Set ℕ) (i : grid0.Coords)
    (arg1 : Memref sig .tc .vmem S1000x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S1000x256 .f32) (harg4 : arg4.IsWhole)
    (a : Vec F S1000x512 .f32) (w : Vec F S512x256 .f32) (b : Vec F S256 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (denseRelu a w b)) -∗ K ⟨⟩))
      ⊢ wp frame (wpE (defs₀ (F := F)) Variants.none c none) E (cc0__dense_kernel i arg1 harg1 arg2 harg2 arg3 harg3 arg4 harg4) K := by
  -- the printed body is its skeleton: four whole loads (the last one dead) and one whole store
  simp only [cc0__dense_kernel_eq_skeleton]; unfold cc0__dense_kernel_skel
  unfold owns
  iintro ⟨⟨%ga, %ea, Pa⟩, ⟨%gw, %ew, Pw⟩, ⟨%gb, %eb, Pb⟩, ⟨%d, %go, -, Po⟩, Hret⟩
  subst ea; subst ew; subst eb
  sl_exec
  sl_step
  iapply Hret
  isplitl [Pa]
  · iexists ga; isplitr
    · ipureintro; rfl
    · iexact Pa
  isplitl [Pw]
  · iexists gw; isplitr
    · ipureintro; rfl
    · iexact Pw
  isplitl [Pb]
  · iexists gb; isplitr
    · ipureintro; rfl
    · iexact Pb
  -- the result's buffer after its one covering store reads as the canon of that piece
  iexists _; isplitr
  rotate_left
  · iexact Po
  ipureintro
  exact View.read_writes_eq_canon _ _ _ (cover0 _)

/-- The region's proof data on core `c`: arrays as entered (`V`); after the body each input's staging block is its
    block, the result's is `denseRelu` of the three; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => denseRelu (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = denseRelu (blk0 V c 0 t) (blk0 V c 1 t) (blk0 V c 2 t) := by dsimp only [dat0]

/-- Window 0's staging buffer holds rows 1000 t .. of `a` at every point: it is fetched at each. -/
private theorem staged0_0 (c : Dev nD) (t : Fin cfg0.N) (d) : (dat0 V c).before 0 t d = blk0 V c 0 t := by
  refine ((dat0 V c).before_in_eq_fetched 0 rfl (fun _ => rfl) (fun _ _ _ => rfl) (fun s => ?_) t d).trans ?_
  · rw [dat0_after0]; unfold Dat.blockOf blk0; rw [dat0_A]; try rfl
  · unfold Dat.fetched Dat.blockOf blk0; rw [dat0_A]; try rfl

/-- Window 1's staging buffer holds the whole of `w` at every point: fetched at the first, and its block index
    never moves after. -/
private theorem staged0_1 (c : Dev nD) (t : Fin cfg0.N) (d) : (dat0 V c).before 1 t d = blk0 V c 1 t := by
  refine ((dat0 V c).before_in_eq_fetched 1 rfl (fun _ => rfl) (fun _ _ _ => rfl) (fun s => ?_) t d).trans ?_
  · rw [dat0_after1]; unfold Dat.blockOf blk0; rw [dat0_A]; try rfl
  · unfold Dat.fetched Dat.blockOf blk0; rw [dat0_A]; try rfl

/-- Window 2's staging buffer holds the whole of `b` at every point, likewise. -/
private theorem staged0_2 (c : Dev nD) (t : Fin cfg0.N) (d) : (dat0 V c).before 2 t d = blk0 V c 2 t := by
  refine ((dat0 V c).before_in_eq_fetched 2 rfl (fun _ => rfl) (fun _ _ _ => rfl) (fun s => ?_) t d).trans ?_
  · rw [dat0_after2]; unfold Dat.blockOf blk0; rw [dat0_A]; try rfl
  · unfold Dat.fetched Dat.blockOf blk0; rw [dat0_A]; try rfl

/-- The body at point `t`, the four windows written out: the three inputs' staging buffers hold their blocks, the
    result's holds anything; the body leaves the inputs as they are and `denseRelu` of them in the result's; the
    invariant and what the core owes are not touched. -/
private theorem body0_at (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t))) := by
  unfold bodyAt0
  simp only [staged0_0, staged0_1, staged0_2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨Inv, Owe, ⟨%d0, Ba⟩, ⟨%d1, Bw⟩, ⟨%d2, Bb⟩, ⟨%d3, Bo⟩⟩
  iapply (run_dense0 c Set.univ _ _ _ _ _ _ _ _ _ (blk0 V c 0 t) (blk0 V c 1 t) (blk0 V c 2 t) _)
  isplitl [Ba]; · iexact Ba
  isplitl [Bw]; · iexact Bw
  isplitl [Bb]; · iexact Bb
  isplitl [Bo]; · iexists _; iexact Bo
  iintro ⟨Ba, Bw, Bb, Bo⟩
  isplitl [Inv]; · iexact Inv
  isplitl [Owe]; · iexact Owe
  isplitl [Ba]; · iexact Ba
  isplitl [Bw]; · iexact Bw
  isplitl [Bb]; · iexact Bb
  iexact Bo

/-- The body's obligation to the pipeline at every point of the region. -/
theorem obligation0 (c : Dev nD) : BodyObligation (dat0 (F := F) V c) (defs₀ (F := F)) Variants.none () Set.univ := by
  intro t
  rw [bigSep_W0, bigSep_W0]
  exact body0_at V c t

end Cert.Kernel.Hand

end
-- ==== Proof.K.DenseSecond.lean ====
/-
  The second dense layer's kernel region (pallas_call 1): over the row-scaled aggregate `a` (10000 x 256), the
  weight `w` (256 x 256, the two heads' weights side by side) and the bias `b` (256), on a grid of ten points,
  point `t` stages rows 1000 t .. 1000 t + 999 of `a`, the whole of `w` and `b` (fetched once), and its body
  stores a_blk · w + b into the result's 1000 x 256 staging block, which the pipeline writes back as rows 1000 t ..
  of the result. Stated here, at any float instance and at the contents `V` the region is entered with: what each
  window's block is, what the body leaves (`denseBias`), the region's proof data and the body's obligation at
  every point.
-/
import proofs.«140900_j10024453669132_1_alg».proof.Proof.Gen.Kernel.Launch
import proofs.«140900_j10024453669132_1_alg».proof.Proof.Gen.Kernel.Skeleton
import proofs.«140900_j10024453669132_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second dense region, read off its array as the region finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole-buffer rectangles the body reads and writes through. -/
abbrev rA1 : Rect S1000x256 := Rect.unit (s := S1000x256) ![0, 0] S1000x256.size inb_S1000x256_S1000x256_0_0
abbrev rW1 : Rect S256x256 := Rect.unit (s := S256x256) ![0, 0] S256x256.size inb_S256x256_S256x256_0_0
abbrev rB1 : Rect S256 := Rect.unit (s := S256) ![0] S256.size inb_S256_S256_0
abbrev rO1 : Rect S1000x256 := Rect.unit (s := S1000x256) ![0, 0] S1000x256.size inb_S1000x256_S1000x256_0_0

/-- What the body leaves in the result's staging block, from the three input blocks: its one whole store of
    a · w + b. -/
def denseBias (a : Vec F S1000x256 .f32) (w : Vec F S256x256 .f32) (b : Vec F S256 .f32) : Vec F S1000x256 .f32 :=
  View.canon [⟨rO1, k1_pay1 (View.ld a rA1) (View.ld w rW1) (View.ld b rB1)⟩]

/-- The one store covers the block. -/
theorem cover1 (p0 : Vec F S1000x256 .f32) (y : S1000x256.Idx) :
    ∃ pc ∈ ([⟨rO1, p0⟩] : List (View.Piece (Elt F) S1000x256 .f32)), y ∈ pc.1.set :=
  View.cover_of_tiled [⟨rO1, p0⟩] S1000x256.size (by rfl) y

/-- The body's triple on whole staging memrefs: inputs read at `a`, `w`, `b` and left so; the result's memref,
    at anything, left at `denseBias a w b`. -/
theorem run_dense1 (c : Dev nD) (E : Set ℕ) (i : grid1.Coords)
    (arg1 : Memref sig .tc .vmem S1000x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S1000x256 .f32) (harg4 : arg4.IsWhole)
    (a : Vec F S1000x256 .f32) (w : Vec F S256x256 .f32) (b : Vec F S256 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (denseBias a w b)) -∗ K ⟨⟩))
      ⊢ wp frame (wpE (defs₀ (F := F)) Variants.none c none) E (cc1__dense_kernel i arg1 harg1 arg2 harg2 arg3 harg3 arg4 harg4) K := by
  -- the printed body is its skeleton: four whole loads (the last one dead) and one whole store
  simp only [cc1__dense_kernel_eq_skeleton]; unfold cc1__dense_kernel_skel
  unfold owns
  iintro ⟨⟨%ga, %ea, Pa⟩, ⟨%gw, %ew, Pw⟩, ⟨%gb, %eb, Pb⟩, ⟨%d, %go, -, Po⟩, Hret⟩
  subst ea; subst ew; subst eb
  sl_exec
  sl_step
  iapply Hret
  isplitl [Pa]
  · iexists ga; isplitr
    · ipureintro; rfl
    · iexact Pa
  isplitl [Pw]
  · iexists gw; isplitr
    · ipureintro; rfl
    · iexact Pw
  isplitl [Pb]
  · iexists gb; isplitr
    · ipureintro; rfl
    · iexact Pb
  -- the result's buffer after its one covering store reads as the canon of that piece
  iexists _; isplitr
  rotate_left
  · iexact Po
  ipureintro
  exact View.read_writes_eq_canon _ _ _ (cover1 _)

/-- The region's proof data on core `c`: arrays as entered (`V`); after the body each input's staging block is its
    block, the result's is `denseBias` of the three; the invariant is the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => denseBias (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = denseBias (blk1 V c 0 t) (blk1 V c 1 t) (blk1 V c 2 t) := by dsimp only [dat1]

/-- Window 0's staging buffer holds rows 1000 t .. of `a` at every point: it is fetched at each. -/
private theorem staged1_0 (c : Dev nD) (t : Fin cfg1.N) (d) : (dat1 V c).before 0 t d = blk1 V c 0 t := by
  refine ((dat1 V c).before_in_eq_fetched 0 rfl (fun _ => rfl) (fun _ _ _ => rfl) (fun s => ?_) t d).trans ?_
  · rw [dat1_after0]; unfold Dat.blockOf blk1; rw [dat1_A]; try rfl
  · unfold Dat.fetched Dat.blockOf blk1; rw [dat1_A]; try rfl

/-- Window 1's staging buffer holds the whole of `w` at every point: fetched at the first, and its block index
    never moves after. -/
private theorem staged1_1 (c : Dev nD) (t : Fin cfg1.N) (d) : (dat1 V c).before 1 t d = blk1 V c 1 t := by
  refine ((dat1 V c).before_in_eq_fetched 1 rfl (fun _ => rfl) (fun _ _ _ => rfl) (fun s => ?_) t d).trans ?_
  · rw [dat1_after1]; unfold Dat.blockOf blk1; rw [dat1_A]; try rfl
  · unfold Dat.fetched Dat.blockOf blk1; rw [dat1_A]; try rfl

/-- Window 2's staging buffer holds the whole of `b` at every point, likewise. -/
private theorem staged1_2 (c : Dev nD) (t : Fin cfg1.N) (d) : (dat1 V c).before 2 t d = blk1 V c 2 t := by
  refine ((dat1 V c).before_in_eq_fetched 2 rfl (fun _ => rfl) (fun _ _ _ => rfl) (fun s => ?_) t d).trans ?_
  · rw [dat1_after2]; unfold Dat.blockOf blk1; rw [dat1_A]; try rfl
  · unfold Dat.fetched Dat.blockOf blk1; rw [dat1_A]; try rfl

/-- The body at point `t`, the four windows written out: the three inputs' staging buffers hold their blocks, the
    result's holds anything; the body leaves the inputs as they are and `denseBias` of them in the result's; the
    invariant and what the core owes are not touched. -/
private theorem body1_at (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  unfold bodyAt1
  simp only [staged1_0, staged1_1, staged1_2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨Inv, Owe, ⟨%d0, Ba⟩, ⟨%d1, Bw⟩, ⟨%d2, Bb⟩, ⟨%d3, Bo⟩⟩
  iapply (run_dense1 c Set.univ _ _ _ _ _ _ _ _ _ (blk1 V c 0 t) (blk1 V c 1 t) (blk1 V c 2 t) _)
  isplitl [Ba]; · iexact Ba
  isplitl [Bw]; · iexact Bw
  isplitl [Bb]; · iexact Bb
  isplitl [Bo]; · iexists _; iexact Bo
  iintro ⟨Ba, Bw, Bb, Bo⟩
  isplitl [Inv]; · iexact Inv
  isplitl [Owe]; · iexact Owe
  isplitl [Ba]; · iexact Ba
  isplitl [Bw]; · iexact Bw
  isplitl [Bb]; · iexact Bb
  iexact Bo

/-- The body's obligation to the pipeline at every point of the region. -/
theorem obligation1 (c : Dev nD) : BodyObligation (dat1 (F := F) V c) (defs₀ (F := F)) Variants.none () Set.univ := by
  intro t
  rw [bigSep_W1, bigSep_W1]
  exact body1_at V c t

end Cert.Kernel.Hand

end
-- ==== Proof.K.DecodeBody.lean ====
/-
  The decoder's kernel region (pallas_call 2), its body: over z (10000 x 128), on a grid of 79 points, point `t`
  stages rows 128 t .. 128 t + 127 of z (the last block reaches 112 rows past the array's end), and the whole of z
  (fetched once); the body stores logistic (zr · zcᵀ), a 128 x 10000 block, which the pipeline writes back as rows
  128 t .. of the 10000 x 10000 result (the last write-back cut at the array's end). Stated here at any float
  instance: the windows' blocks, what the body leaves in the result's staging block (`decodeBlk`) and the body's triple.
-/
import proofs.«140900_j10024453669132_1_alg».proof.Proof.Gen.Kernel.Launch
import proofs.«140900_j10024453669132_1_alg».proof.Proof.Gen.Kernel.Skeleton
import proofs.«140900_j10024453669132_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the decoder's region — its part inside the array — read off its array as
    the region finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row block at point `t` filled out to the staging block's 128 rows with the zero word past the array's end
    (only the last point's block is cut: there the array ends after 16 of the 128 rows). -/
def zrFill (c : Dev nD) (t : Fin cfg2.N) : S128x128.Idx → Elt F .f32 :=
  win2_0.fill (grid2.coords t) (fun _ => Scalar.ofBits .f32 0#32) (blk2 V c 0 t)

/-- The whole-buffer rectangles the body reads and writes through. -/
abbrev rZr : Rect S128x128 := Rect.unit (s := S128x128) ![0, 0] S128x128.size inb_S128x128_S128x128_0_0
abbrev rZc : Rect S10000x128 := Rect.unit (s := S10000x128) ![0, 0] S10000x128.size inb_S10000x128_S10000x128_0_0
abbrev rO2 : Rect S128x10000 := Rect.unit (s := S128x10000) ![0, 0] S128x10000.size inb_S128x10000_S128x10000_0_0

/-- What the body leaves in the result's staging block, from the row block `zr` and the whole `zc`: its one whole
    store of logistic (zr · zcᵀ). -/
def decodeBlk (zr : Vec F S128x128 .f32) (zc : Vec F S10000x128 .f32) : Vec F S128x10000 .f32 :=
  View.canon [⟨rO2, k2_pay1 (View.ld zr rZr) (View.ld zc rZc)⟩]

/-- The one store covers the block. -/
theorem cover2 (p0 : Vec F S128x10000 .f32) (y : S128x10000.Idx) :
    ∃ pc ∈ ([⟨rO2, p0⟩] : List (View.Piece (Elt F) S128x10000 .f32)), y ∈ pc.1.set :=
  View.cover_of_tiled [⟨rO2, p0⟩] S128x10000.size (by rfl) y

/-- The body's triple on whole staging memrefs: the inputs read at `zr`, `zc` and left so; the result's memref, at
    anything, left at `decodeBlk zr zc`. -/
theorem run_decode (c : Dev nD) (E : Set ℕ) (i : grid2.Coords)
    (arg1 : Memref sig .tc .vmem S128x128 .f32) (harg1 : arg1.IsWhole) (arg2 : Memref sig .tc .vmem S10000x128 .f32) (harg2 : arg2.IsWhole)
    (arg3 : Memref sig .tc .vmem S128x10000 .f32) (harg3 : arg3.IsWhole)
    (zr : Vec F S128x128 .f32) (zc : Vec F S10000x128 .f32) (K : PUnit → sProp 𝕄) :
    iprop(owns (c : Thread nD τ) arg1 fullShare zr ∗ owns (c : Thread nD τ) arg2 fullShare zc
        ∗ (∃ d, owns (c : Thread nD τ) arg3 fullShare d)
        ∗ (iprop(owns (c : Thread nD τ) arg1 fullShare zr ∗ owns (c : Thread nD τ) arg2 fullShare zc
            ∗ owns (c : Thread nD τ) arg3 fullShare (decodeBlk zr zc)) -∗ K ⟨⟩))
      ⊢ wp frame (wpE (defs₀ (F := F)) Variants.none c none) E (cc2__decode_kernel i arg1 harg1 arg2 harg2 arg3 harg3) K := by
  -- the body is three whole loads (the third, of the result's block, is never used) and one whole store
  simp only [cc2__decode_kernel_eq_skeleton]
  unfold cc2__decode_kernel_skel owns
  -- name the three buffers' contents; the two inputs' are read as `zr`, `zc`
  iintro ⟨⟨%fr, %hr, Hr⟩, ⟨%fc, %hc, Hc⟩, ⟨%d, %fo, -, Ho⟩, Hk⟩
  subst hr hc
  sl_exec
  sl_step
  -- hand the three buffers back: the inputs' untouched, the result's after its one store
  iapply Hk
  isplitl [Hr]
  · iexists fr; isplitr
    · ipureintro; rfl
    · iexact Hr
  isplitl [Hc]
  · iexists fc; isplitr
    · ipureintro; rfl
    · iexact Hc
  -- the result's buffer: its contents are whatever the store left (fixed by the resource itself), and
  -- a buffer read back after a store that covers it is the store's payload, piece by piece
  iexists _; isplitr
  rotate_left
  · iexact Ho
  · ipureintro
    exact View.read_writes_eq_canon _ _ _ (cover2 _)

end Cert.Kernel.Hand

end
-- ==== Proof.K.DecodeForget.lean ====
/-
  The decoder's region with its result window's staging block left UNNAMED: proof data that say what the two input
  windows' staging blocks hold after the body (the filled row block; z) and nothing of the result's, for a claim
  that does not read the result — the frame. At a float instance whose matrix product is not known row by row, the
  rows of the result's block inside the array cannot be named at the last point, where the row block's staging rows
  past the array's end hold words nothing names; the frame needs none of it.
-/
import proofs.«140900_j10024453669132_1_alg».proof.Proof.K.DecodeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The windows the proof data say nothing of: the result's. -/
abbrev fgt2 : Fin cfg2.W → Bool := fun | ⟨0, _⟩ => false | ⟨1, _⟩ => false | ⟨2, _⟩ => true

/-- The decoder's proof data, the result window unnamed: arrays as entered; after the body the row-block window's
    staging block is the filled row block, the whole-array window's is z, the result's is not said; the invariant is
    the scoped rest and the generator register; nothing owed; z's two windows hold it at the two halves of the full share. -/
def dat2f (c : Dev nD) : Dat τ (Elt F) Unit ℕ (UR sig nD τ) ℕ cfg2 c where
  A w := V c (Pipeline.arrRef spec2 w)
  after w t := match w with
    | ⟨0, _⟩ => zrFill V c t
    | ⟨1, _⟩ => blk2 V c 1 t
    | ⟨2, _⟩ => fun _ => Classical.arbitrary _
  Φ _ := Pipeline.ΦA spec2 c
  q w := match w with
    | ⟨0, _⟩ => fullShare.left
    | ⟨1, _⟩ => fullShare.right
    | ⟨2, _⟩ => fullShare
  owed _ := 0

theorem dat2f_A (c : Dev nD) (w : Fin cfg2.W) : (dat2f V c).A w = V c (Pipeline.arrRef spec2 w) := by dsimp only [dat2f]
theorem dat2f_q0 (c : Dev nD) : (dat2f V c).q 0 = fullShare.left := by dsimp only [dat2f]
theorem dat2f_q1 (c : Dev nD) : (dat2f V c).q 1 = fullShare.right := by dsimp only [dat2f]
/-- What the body finds in the row-block window's staging block: the window is fetched at every point, so the row
    block on the rows inside the array and, past the array's end, what the block held. -/
theorem before2f_0 (c : Dev nD) (t : Fin cfg2.N) (d) :
    (dat2f V c).before (0 : Fin 3) t d = win2_0.fill (grid2.coords t) d (blk2 V c 0 t) := by
  unfold Dat.before; rw [if_pos (fetch2_0 t)]; rfl

/-- What the body finds in the whole-array window's staging block: z, fetched at the first point and left in place
    by every body since (the window is uncut: its block is the array). -/
theorem before2f_1 (c : Dev nD) (t : Fin cfg2.N) (d) :
    (dat2f V c).before (1 : Fin 3) t d = blk2 V c 1 t := by
  rw [(dat2f V c).before_in_eq_fetched (1 : Fin 3) rfl (fun _ => rfl) (fun _ _ _ => rfl) (fun _ => rfl) t d]
  rfl

/-- The body's obligation to the pipeline at every point, the result window handed over and taken back at contents
    nothing names. -/
theorem obligation2f (c : Dev nD) :
    BodyObligationLoose (dat2f (F := F) V c) (defs₀ (F := F)) Variants.none () Set.univ fgt2 := fun t => by
  -- the three windows one by one; no point is idle, the row-block window is loose, the result's is forgotten
  rw [bigSep_W2, bigSep_W2]
  simp only
  -- the invariant and what is owed do not move with the point
  rw [show (dat2f V c).Φ t.succ = (dat2f V c).Φ t.castSucc from rfl,
    show (dat2f V c).owesAt () t.succ = (dat2f V c).owesAt () t.castSucc from rfl]
  iintro ⟨HΦ, Ho, ⟨%d0, H0⟩, ⟨%d1, H1⟩, ⟨%X, H2⟩⟩
  rw [before2f_0 V c t d0, before2f_1 V c t d1]
  -- the body's triple at the row block filled out with what its staging block held, at z, at any result block
  iapply (run_decode (F := F) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_0.fill (grid2.coords t) d0 (blk2 V c 0 t)) (blk2 V c 1 t) _)
  isplitl [H0]; · iexact H0
  isplitl [H1]; · iexact H1
  isplitl [H2]; · iexists X; iexact H2
  iintro ⟨H0, H1, H2⟩
  isplitl [HΦ]; · iexact HΦ
  isplitl [Ho]; · iexact Ho
  -- the row block's staging block is as found: on the rows inside the array the filled row block's rows
  have hx : win2_0.cut (grid2.coords t) (zrFill V c t) = blk2 V c 0 t := win2_0.cut_fill _ _ _
  isplitl [H0]
  · iexists d0
    change _ ⊢ owns (c : Thread nD τ) (stage2_0 (cfg2.slots t 0)) fullShare
      (win2_0.fill (grid2.coords t) d0 (win2_0.cut (grid2.coords t) (zrFill V c t)))
    rw [hx]
  -- z's staging block is as found; the result's holds what the body stored, which nothing here names
  isplitl [H1]
  · iexact H1
  · iexists _; iexact H2

end Cert.Kernel.Hand

end
-- ==== Proof.K.DecodeShares.lean ====
/-
  The decoder's region hands ONE array, z, to two input windows. Its proof data hold z at the left half of the
  full share for the row-block window and at the right half for the whole-array window; the result is held whole.
  Here: the buffers behind the region's arrays, each whole at the full share, ARE the region's arrays at those
  shares (z split in two) — and back —, for any proof data of the region with those shares.
-/
import proofs.«140900_j10024453669132_1_alg».proof.Proof.Gen.Kernel.Launch
import Idealize.ShloMosaic.Lib.Pipeline.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {c : Dev nD} (dat : Dat τ (Elt F) Unit ℕ (UR sig nD τ) ℕ cfg2 c)

/-- The buffers behind the decoder's three arrays are two: z and the result. -/
theorem arrImage2 : (Finset.univ.image (Pipeline.arrRef spec2) : Finset (Ref sig .tc)) = {main_v49, main_v50} := by decide

/-- The two buffers, each whole at the full share. -/
theorem arrBufs2_eq (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_v49) ↦{fullShare} Vc main_v49 : sProp 𝕄) ∗ (((c : Thread nD τ).loc main_v50) ↦{fullShare} Vc main_v50)) := by
  unfold Pipeline.arrBufs
  rw [arrImage2, bigSep_insert (by decide), bigSep_singleton]
  rfl

/-- Window by window, the array of the region's data at its share is the buffer behind it, whole, at that share. -/
theorem arrays2_eq (q0 q1 q2 : PosShare TreeShare) (hs0 : dat.share 0 = q0) (hs1 : dat.share 1 = q1) (hs2 : dat.share 2 = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    dat.arrays Fw = iprop((((c : Thread nD τ).loc main_v49) ↦{q0} Vc main_v49 : sProp 𝕄)
      ∗ (((c : Thread nD τ).loc main_v49) ↦{q1} Vc main_v49) ∗ (((c : Thread nD τ).loc main_v50) ↦{q2} Vc main_v50)) := by
  have h0 : Fw 0 = Vc main_v49 := hF 0
  have h1 : Fw 1 = Vc main_v49 := hF 1
  have h2 : Fw 2 = Vc main_v50 := hF 2
  have u0 : (cfg2.win 0).arr.view.set = Finset.univ := (arr_whole2 0).set_eq_univ
  have u1 : (cfg2.win 1).arr.view.set = Finset.univ := (arr_whole2 1).set_eq_univ
  have u2 : (cfg2.win 2).arr.view.set = Finset.univ := (arr_whole2 2).set_eq_univ
  unfold Dat.arrays
  rw [bigSep_W2, hs0, hs1, hs2, h0, h1, h2]
  simp only [u0, u1, u2]

/-- The shares the region's data hold its three arrays at: z's two halves, the result whole. -/
theorem share2_0 (hq0 : dat.q 0 = fullShare.left) : dat.share 0 = fullShare.left := by
  unfold Dat.share; rw [if_neg (by decide)]; exact hq0
theorem share2_1 (hq1 : dat.q 1 = fullShare.right) : dat.share 1 = fullShare.right := by
  unfold Dat.share; rw [if_neg (by decide)]; exact hq1
theorem share2_2 : dat.share 2 = fullShare := by
  unfold Dat.share; rw [if_pos (by decide)]

/-- From the two distinct buffers (z and the result) whole at contents `Vc` to the three windows' arrays at contents
    `Fw` that agree with `Vc` window by window: z's full share split into its two halves. -/
theorem arrays2_of_bufs (hq0 : dat.q 0 = fullShare.left) (hq1 : dat.q 1 = fullShare.right)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    (Pipeline.arrBufs (Ix := Unit) (Name := ℕ) (U := UR sig nD τ) (Lvl := ℕ) spec2 c Vc : sProp 𝕄) ⊢ dat.arrays Fw := by
  rw [arrays2_eq dat _ _ _ (share2_0 dat hq0) (share2_1 dat hq1) (share2_2 dat) Vc Fw hF, arrBufs2_eq]
  iintro ⟨Hz, Hres⟩
  -- z's full share is its left half and its right half
  ihave Hz2 := (pointsTo_share (PosShare.mem_left_op_right fullShare)).1 $$ Hz
  icases Hz2 with ⟨Hl, Hr⟩
  isplitl [Hl]; · iexact Hl
  isplitl [Hr]; · iexact Hr
  iexact Hres

/-- And back: the three windows' arrays at `Fw` are the two buffers whole at `Vc`. -/
theorem bufs_of_arrays2 (hq0 : dat.q 0 = fullShare.left) (hq1 : dat.q 1 = fullShare.right)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    dat.arrays Fw ⊢ (Pipeline.arrBufs (Ix := Unit) (Name := ℕ) (U := UR sig nD τ) (Lvl := ℕ) spec2 c Vc : sProp 𝕄) := by
  rw [arrays2_eq dat _ _ _ (share2_0 dat hq0) (share2_1 dat hq1) (share2_2 dat) Vc Fw hF, arrBufs2_eq]
  iintro ⟨Hl, Hr, Hres⟩
  isplitr [Hres]
  · -- the two halves of z's share join to the full share
    iapply (pointsTo_share (PosShare.mem_left_op_right fullShare)).2
    isplitl [Hl]; · iexact Hl
    iexact Hr
  · iexact Hres

end Cert.Kernel.Hand

end
-- ==== Proof.K.Run.lean ====
/-
  The run of the kernel program's @main at the machine's floats: host operations, the first dense layer's region,
  host operations, the second's, host operations, the decoder's region. Between two items core `c` holds every
  unscoped buffer at a NAMED valuation up to the decoder's region: the launch memory, then what each stretch of host
  operations computes, then — after a dense region — the same with the region's result array at what its write-backs
  leave. The decoder's region hands its result back at contents nothing names: its last row block is cut at the
  array's end, the staging rows past the end hold words nothing names, and at this float instance the matrix product
  is not known row by row; so the proof data of that region are read RELATIONALLY with the result window forgotten,
  and after it the core holds the result array at SOME contents and every other unscoped buffer as before the
  region. Every weakly fair execution terminates, nothing faults, and every unscoped buffer other than the result
  array ends at the valuation `B9`; the arguments, which no item writes, end as launched.
-/
import proofs.«140900_j10024453669132_1_alg».proof.Proof.Gen.Kernel.Regions
import proofs.«140900_j10024453669132_1_alg».proof.Proof.K.DenseFirst
import proofs.«140900_j10024453669132_1_alg».proof.Proof.K.DenseSecond
import proofs.«140900_j10024453669132_1_alg».proof.Proof.K.DecodeForget
import proofs.«140900_j10024453669132_1_alg».proof.Proof.K.DecodeShares
import Idealize.ShloMosaic.Lib.Pipeline.RegionsLoop
import Idealize.ShloMosaic.Lib.Pipeline.FrameSuffix
import Idealize.ShloMosaic.Lib.Pipeline.Kit
import Idealize.ShloMosaic.Lib.Pipeline.Cells
import Idealize.ShloMosaic.PureOps.BitExact

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-! ## The buffers' contents at each boundary -/

/-- A valuation read at the TensorCore's references. -/
abbrev atTc (B : Dev nD → Valuation τ sig (Elt Bits)) : (c : Dev nD) → (b : Ref sig .tc) → Buf (Elt Bits) ((c : Thread nD τ).loc b) :=
  fun c b => B c b

/-- Before the first dense region: the launch memory after the first five stretches of host operations. -/
abbrev B5 : Dev nD → Valuation τ sig (Elt Bits) := fun c => Gen.V5 m c
/-- After it: the region's result array at what the write-backs leave. -/
def B6 (c : Dev nD) : Valuation τ sig (Elt Bits) :=
  Pipeline.withArrays spec0 c (B5 m c) fun w => (dat0 (atTc (B5 m)) c).arrAt w cfg0.N
/-- Before the second dense region. -/
abbrev B7 : Dev nD → Valuation τ sig (Elt Bits) := fun c => StableHlo.after hostOps1 (B6 m c)
/-- After it. -/
def B8 (c : Dev nD) : Valuation τ sig (Elt Bits) :=
  Pipeline.withArrays spec1 c (B7 m c) fun w => (dat1 (atTc (B7 m)) c).arrAt w cfg1.N
/-- Before the decoder's region. -/
abbrev B9 : Dev nD → Valuation τ sig (Elt Bits) := fun c => StableHlo.after hostOps2 (B8 m c)
/-- After it: the result array main_v50 at contents `x`, every other buffer as it was. -/
def Bx (c : Dev nD) (x : Buf (Elt Bits) ((c : Thread nD τ).loc main_v50)) : Valuation τ sig (Elt Bits) :=
  Function.update (B9 m c) (Proc.devRef .tc main_v50) x
/-- That valuation read at the TensorCore's references. -/
abbrev Vx (c : Dev nD) (x : Buf (Elt Bits) ((c : Thread nD τ).loc main_v50)) :
    (b : Ref sig .tc) → Buf (Elt Bits) ((c : Thread nD τ).loc b) := fun b => Bx m c x b

theorem B6_arr (c : Dev nD) (w : Fin cfg0.W) :
    B6 m c (Proc.devRef .tc (Pipeline.arrRef spec0 w)) = (dat0 (atTc (B5 m)) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
theorem B8_arr (c : Dev nD) (w : Fin cfg1.W) :
    B8 m c (Proc.devRef .tc (Pipeline.arrRef spec1 w)) = (dat1 (atTc (B7 m)) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
theorem Bx_out (c : Dev nD) (x : Buf (Elt Bits) ((c : Thread nD τ).loc main_v50)) :
    Bx m c x (Proc.devRef .tc main_v50) = x := by
  unfold Bx; exact Function.update_self _ _ _
theorem Bx_of_ne (c : Dev nD) (x : Buf (Elt Bits) ((c : Thread nD τ).loc main_v50)) (b : Ref sig .tc) (hb : b ≠ main_v50) :
    Bx m c x (Proc.devRef .tc b) = B9 m c (Proc.devRef .tc b) := by
  unfold Bx
  exact Function.update_of_ne (StableHlo.devRef_ne_of_ne hb : (Proc.devRef .tc b : DevRef τ sig) ≠ Proc.devRef .tc main_v50) _ _

/-- A reference no host stretch writes and no dense region's result array holds what it held at launch when the
    decoder's region is entered. -/
theorem B9_kept (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w = r → (cfg0.win w).isOut = false) (h6 : r ∉ hostOps1_W)
    (h7 : ∀ w, Pipeline.arrRef spec1 w = r → (cfg1.win w).isOut = false) (h8 : r ∉ hostOps2_W) :
    B9 m c (Proc.devRef .tc r) = m ((c : Thread nD τ).loc r) := by
  have e5 : B5 m c (Proc.devRef .tc r) = m ((c : Thread nD τ).loc r) :=
    (Gen.V5_of m c r h4).trans <| (Gen.V4_of m c r h3).trans <| (Gen.V3_of m c r h2).trans <| (Gen.V2_of m c r h1).trans <| (Gen.V1_of m c r h0).trans rfl
  have e6 : B6 m c (Proc.devRef .tc r) = B5 m c (Proc.devRef .tc r) := by
    by_cases hw : ∃ w, Pipeline.arrRef spec0 w = r
    · obtain ⟨w, rfl⟩ := hw
      rw [B6_arr, (dat0 (atTc (B5 m)) c).arrAt_in w (h5 w rfl) _, dat0_A]
    · exact B6_of_ne m c r fun w e => hw ⟨w, e⟩
  have e7 : B7 m c (Proc.devRef .tc r) = B6 m c (Proc.devRef .tc r) :=
    StableHlo.after_of_writes_sub hostOps1 _ hostOps1_writes h6
  have e8 : B8 m c (Proc.devRef .tc r) = B7 m c (Proc.devRef .tc r) := by
    by_cases hw : ∃ w, Pipeline.arrRef spec1 w = r
    · obtain ⟨w, rfl⟩ := hw
      rw [B8_arr, (dat1 (atTc (B7 m)) c).arrAt_in w (h7 w rfl) _, dat1_A]
    · exact B8_of_ne m c r fun w e => hw ⟨w, e⟩
  have e9 : B9 m c (Proc.devRef .tc r) = B8 m c (Proc.devRef .tc r) :=
    StableHlo.after_of_writes_sub hostOps2 _ hostOps2_writes h8
  exact e9.trans <| e8.trans <| e7.trans <| e6.trans e5

/-! ## The proof data families and what rides beside the buffers -/

/-- Every pipeline's exact proof data, each at its region's entry contents (the decoder's with its result window's
    staging block unnamed). -/
def pdats : (p : Fin 3) → (c : Dev nD) → Dat τ (Elt Bits) Unit ℕ (UR sig nD τ) ℕ (Pipeline.pin (pcfgs (F := Bits)) adm p) c
  | ⟨0, _⟩ => fun c => dat0 (atTc (B5 m)) c
  | ⟨1, _⟩ => fun c => dat1 (atTc (B7 m)) c
  | ⟨2, _⟩ => fun c => dat2f (atTc (B9 m)) c

/-- The same read relationally: the dense regions' as they are, the decoder's with its result window forgotten. -/
def rdats : (p : Fin 3) → (c : Dev nD) → RDat τ (Elt Bits) Unit ℕ (UR sig nD τ) ℕ (Pipeline.pin (pcfgs (F := Bits)) adm p) c
  | ⟨0, _⟩ => fun c => (dat0 (atTc (B5 m)) c).toR
  | ⟨1, _⟩ => fun c => (dat1 (atTc (B7 m)) c).toR
  | ⟨2, _⟩ => fun c => (dat2f (atTc (B9 m)) c).toRForget fgt2

abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the core's generator register at some state and its
    `owes`, at nothing. -/
abbrev ride (c : Dev nD) : sProp 𝕄 :=
  iprop((∃ r, prngReg c r) ∗ ∃ W, owes (c : Thread nD τ) (0 : CellTallies nD τ sig Unit) W)

/-- A stretch of host operations as a segment from the contents `B`. -/
abbrev hostSeg (ops : List (HloOp τ sig (Elt Bits))) (hsub : ops.Forall fun op => op.bufs ⊆ StableHlo.tcRefs τ sig)
    (hfresh : ops.Forall fun op => op.fresh = ∅) (B : Dev nD → Valuation τ sig (Elt Bits)) :
    Pipeline.HostSeg (Name := ℕ) (U := UR sig nD τ) (pcfgs (F := Bits)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B ride

/-- The last thread state without the `owes`: the result array at SOME contents, every other unscoped buffer at `B9`. -/
abbrev lastState (c : Dev nD) : sProp 𝕄 :=
  iprop((∃ x, StableHlo.held (c : Thread nD τ) (Pipeline.ucRefs τ sig) (Bx m c x)) ∗ ∃ r, prngReg c r)

/-! ## The regions as segments -/

theorem hF0 (c : Dev nD) (w : Fin cfg0.W) :
    (dat0 (atTc (B5 m)) c).arrAt w cfg0.N = atTc (B6 m) c (Pipeline.arrRef spec0 w) := (B6_arr m c w).symm
theorem hrest0 (c : Dev nD) : ∀ b, b ∉ Finset.univ.image (Pipeline.arrRef spec0) → atTc (B6 m) c b = atTc (B5 m) c b :=
  fun b hb => B6_of_ne m c b fun w e => hb (Finset.mem_image.mpr ⟨w, Finset.mem_univ _, e⟩)
theorem hF1 (c : Dev nD) (w : Fin cfg1.W) :
    (dat1 (atTc (B7 m)) c).arrAt w cfg1.N = atTc (B8 m) c (Pipeline.arrRef spec1 w) := (B8_arr m c w).symm
theorem hrest1 (c : Dev nD) : ∀ b, b ∉ Finset.univ.image (Pipeline.arrRef spec1) → atTc (B8 m) c b = atTc (B7 m) c b :=
  fun b hb => B8_of_ne m c b fun w e => hb (Finset.mem_image.mpr ⟨w, Finset.mem_univ _, e⟩)

set_option backward.isDefEq.respectTransparency.types false in
/-- The first dense region, entered from every unscoped buffer at `B5` and left at `B6`. -/
def reg0 : Pipeline.RDat.RegionSeg (pcfgs (F := Bits)) adm (rdats m) () defs₀ noVar noL noLv 0 where
  win := launch0.win.to₀
  block_pos := launch0.block_pos
  stage_whole := launch0.stage_whole
  K := PEmpty
  osem k := k.elim
  ho := Pipeline.OwnSemFacts.none _
  hbody c := (obligation0 (atTc (B5 m)) c).toR
  hwaits := Pipeline.RDat.hwaits_of_owed_zero _ _ _ _ noL noLv 0 fun _ _ => rfl
  pre c := iprop(StableHlo.held (c : Thread nD τ) (Pipeline.ucRefs τ sig) (B5 m c) ∗ ride c)
  post c := iprop(StableHlo.held (c : Thread nD τ) (Pipeline.ucRefs τ sig) (B6 m c) ∗ ride c)
  X c := iprop(∃ r, prngReg c r)
  Y c := iprop(∃ r, prngReg c r)
  Z c := Pipeline.unscopedRest (Ix := Unit) (Name := ℕ) (U := UR sig nD τ) (Lvl := ℕ) spec0 c (atTc (B5 m) c)
  hentry c := by
    rw [Pipeline.ownSems0_none]
    have hsplit := Pipeline.RDat.arrays_of_unscopedBufs (p := 0) (pcfgs (F := Bits)) adm (rdats m) launch0.win launch0.arr_whole c
      ((pdats m 0 c).share_full fun _ => rfl) (atTc (B5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Bits)) adm (Ix := Unit) (Name := ℕ) (U := UR sig nD τ) (Lvl := ℕ)
      launch0.win launch0.arr_whole c (pdats m) ((pdats m 0 c).share_full fun _ => rfl)
      (atTc (B5 m) c) (atTc (B6 m) c) ((pdats m 0 c).arrAt · cfg0.N) (hF0 m c) (hrest0 m c)
    rw [Pipeline.unscopedBufs_held] at hjoin
    -- the arrays at some contents they may hold after the write-backs are the arrays at what the exact data name
    refine (sep_mono (Entails.of_eq ((pdats m 0 c).toR_arraysAt_eq cfg0.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second dense region, entered from every unscoped buffer at `B7` and left at `B8`. -/
def reg1 : Pipeline.RDat.RegionSeg (pcfgs (F := Bits)) adm (rdats m) () defs₀ noVar noL noLv 1 where
  win := launch1.win.to₀
  block_pos := launch1.block_pos
  stage_whole := launch1.stage_whole
  K := PEmpty
  osem k := k.elim
  ho := Pipeline.OwnSemFacts.none _
  hbody c := (obligation1 (atTc (B7 m)) c).toR
  hwaits := Pipeline.RDat.hwaits_of_owed_zero _ _ _ _ noL noLv 1 fun _ _ => rfl
  pre c := iprop(StableHlo.held (c : Thread nD τ) (Pipeline.ucRefs τ sig) (B7 m c) ∗ ride c)
  post c := iprop(StableHlo.held (c : Thread nD τ) (Pipeline.ucRefs τ sig) (B8 m c) ∗ ride c)
  X c := iprop(∃ r, prngReg c r)
  Y c := iprop(∃ r, prngReg c r)
  Z c := Pipeline.unscopedRest (Ix := Unit) (Name := ℕ) (U := UR sig nD τ) (Lvl := ℕ) spec1 c (atTc (B7 m) c)
  hentry c := by
    rw [Pipeline.ownSems0_none]
    have hsplit := Pipeline.RDat.arrays_of_unscopedBufs (p := 1) (pcfgs (F := Bits)) adm (rdats m) launch1.win launch1.arr_whole c
      ((pdats m 1 c).share_full fun _ => rfl) (atTc (B7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Bits)) adm (Ix := Unit) (Name := ℕ) (U := UR sig nD τ) (Lvl := ℕ)
      launch1.win launch1.arr_whole c (pdats m) ((pdats m 1 c).share_full fun _ => rfl)
      (atTc (B7 m) c) (atTc (B8 m) c) ((pdats m 1 c).arrAt · cfg1.N) (hF1 m c) (hrest1 m c)
    rw [Pipeline.unscopedBufs_held] at hjoin
    refine (sep_mono (Entails.of_eq ((pdats m 1 c).toR_arraysAt_eq cfg1.N)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-- Off the decoder's arrays `Bx` is `B9`. -/
theorem hrestx (c : Dev nD) (x : Buf (Elt Bits) ((c : Thread nD τ).loc main_v50)) :
    ∀ b, b ∉ Finset.univ.image (Pipeline.arrRef spec2) → Vx m c x b = atTc (B9 m) c b :=
  fun b hb => Bx_of_ne m c x b fun e => hb (Finset.mem_image.mpr ⟨2, Finset.mem_univ _, e.symm⟩)

/-- The decoder's three arrays, each at contents equal to what `Fw` names for its window, are the region's arrays at `Fw`. -/
theorem arrays2_intro {c : Dev nD} (dat : Dat τ (Elt Bits) Unit ℕ (UR sig nD τ) ℕ cfg2 c)
    (Fw : (w : Fin cfg2.W) → Buf (Elt Bits) ((cfg2.win w).arr.view.loc (c : Thread nD τ)))
    (F0 : Buf (Elt Bits) ((cfg2.win 0).arr.view.loc (c : Thread nD τ)))
    (F1 : Buf (Elt Bits) ((cfg2.win 1).arr.view.loc (c : Thread nD τ)))
    (F2 : Buf (Elt Bits) ((cfg2.win 2).arr.view.loc (c : Thread nD τ)))
    (e0 : F0 = Fw 0) (e1 : F1 = Fw 1) (e2 : F2 = Fw 2) :
    iprop(((cfg2.win 0).arr.view.loc (c : Thread nD τ) ↦[(cfg2.win 0).arr.view.set]{dat.share 0} F0 : sProp 𝕄)
        ∗ ((cfg2.win 1).arr.view.loc (c : Thread nD τ) ↦[(cfg2.win 1).arr.view.set]{dat.share 1} F1)
        ∗ ((cfg2.win 2).arr.view.loc (c : Thread nD τ) ↦[(cfg2.win 2).arr.view.set]{dat.share 2} F2))
      ⊢ dat.arrays Fw := by
  subst e0 e1 e2
  unfold Dat.arrays
  rw [Gen.bigSep_W2]

/-- What the row-block window's array may hold after every write-back is z as the region found it (an input array is
    never written), which is what `Bx` holds there whatever the result's contents `x`. -/
theorem arrAt2_0 (c : Dev nD) (x : Buf (Elt Bits) ((c : Thread nD τ).loc main_v50))
    (F : Buf (Elt Bits) ((cfg2.win 0).arr.view.loc (c : Thread nD τ)))
    (h : ((dat2f (atTc (B9 m)) c).toRForget fgt2).ArrAt 0 cfg2.N F) : F = Vx m c x (Pipeline.arrRef spec2 0) :=
  ((Dat.toRForget_arrAt_iff (dat2f (atTc (B9 m)) c) (fgt := fgt2) (w := 0) rfl cfg2.N F).mp h).trans <|
    ((dat2f (atTc (B9 m)) c).arrAt_in 0 rfl _).trans <| (dat2f_A (atTc (B9 m)) c 0).trans (Bx_of_ne m c x main_v49 (by decide)).symm

/-- The same of the whole-array window's. -/
theorem arrAt2_1 (c : Dev nD) (x : Buf (Elt Bits) ((c : Thread nD τ).loc main_v50))
    (F : Buf (Elt Bits) ((cfg2.win 1).arr.view.loc (c : Thread nD τ)))
    (h : ((dat2f (atTc (B9 m)) c).toRForget fgt2).ArrAt 1 cfg2.N F) : F = Vx m c x (Pipeline.arrRef spec2 1) :=
  ((Dat.toRForget_arrAt_iff (dat2f (atTc (B9 m)) c) (fgt := fgt2) (w := 1) rfl cfg2.N F).mp h).trans <|
    ((dat2f (atTc (B9 m)) c).arrAt_in 1 rfl _).trans <| (dat2f_A (atTc (B9 m)) c 1).trans (Bx_of_ne m c x main_v49 (by decide)).symm

/-- The decoder's arrays after every write-back, each at some contents it may then hold: z's two windows hold z as
    entered, the result's window holds contents `x` nothing names — window by window the buffers' contents at `Bx`. -/
theorem arraysAt2_open (c : Dev nD) :
    (((dat2f (atTc (B9 m)) c).toRForget fgt2).arraysAt cfg2.N : sProp 𝕄)
      ⊢ iprop(∃ x, (dat2f (atTc (B9 m)) c).arrays fun w => Vx m c x (Pipeline.arrRef spec2 w)) := by
  unfold Pipeline.RDat.arraysAt
  rw [Gen.bigSep_W2]
  iintro ⟨⟨%F0, %h0, H0⟩, ⟨%F1, %h1, H1⟩, ⟨%F2, -, H2⟩⟩
  iexists F2
  iapply arrays2_intro (dat2f (atTc (B9 m)) c) (fun w => Vx m c F2 (Pipeline.arrRef spec2 w)) F0 F1 F2
    (arrAt2_0 m c F2 F0 h0) (arrAt2_1 m c F2 F1 h1) (Bx_out m c F2).symm
  isplitl [H0]; · iexact H0
  isplitl [H1]; · iexact H1
  iexact H2

set_option backward.isDefEq.respectTransparency.types false in
/-- The decoder's region, entered from every unscoped buffer at `B9` and left with the result array at some contents
    and every other unscoped buffer at `B9`, beside the core owing nothing. -/
def reg2 : Pipeline.RDat.RegionSeg (pcfgs (F := Bits)) adm (rdats m) () defs₀ noVar noL noLv 2 where
  win := winFacts₀2
  block_pos := block_pos2
  stage_whole := stage_whole2
  K := PEmpty
  osem k := k.elim
  ho := Pipeline.OwnSemFacts.none _
  hbody c := (obligation2f (atTc (B9 m)) c).toRForget
  hwaits := Pipeline.RDat.hwaits_of_owed_zero _ _ _ _ noL noLv 2 fun _ _ => rfl
  pre c := iprop(StableHlo.held (c : Thread nD τ) (Pipeline.ucRefs τ sig) (B9 m c) ∗ ride c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (atTc (B9 m) c)
  hentry c := by
    rw [Pipeline.ownSems0_none]
    have hsplit : (StableHlo.held (c : Thread nD τ) (Pipeline.ucRefs τ sig) (B9 m c) : sProp 𝕄)
        ⊢ iprop((rdats m 2 c).arrays (rdats m 2 c).A
            ∗ Pipeline.unscopedRest (Ix := Unit) (Name := ℕ) (U := UR sig nD τ) (Lvl := ℕ) spec2 c (atTc (B9 m) c)) := by
      rw [← Pipeline.unscopedBufs_held,
        Pipeline.unscopedBufs_split₀ (cfgs := fun p => Pipeline.pin (pcfgs (F := Bits)) adm p) (p := (2 : Fin 3)) winFacts₀2.arr_unscoped c (atTc (B9 m) c)]
      exact sep_mono (arrays2_of_bufs (dat2f (atTc (B9 m)) c) (dat2f_q0 _ c) (dat2f_q1 _ c) (atTc (B9 m) c) _ fun w => dat2f_A (atTc (B9 m)) c w) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : ∀ x : Buf (Elt Bits) ((c : Thread nD τ).loc main_v50),
        iprop((dat2f (atTc (B9 m)) c).arrays (fun w => Vx m c x (Pipeline.arrRef spec2 w))
          ∗ Pipeline.unscopedRest (Ix := Unit) (Name := ℕ) (U := UR sig nD τ) (Lvl := ℕ) spec2 c (atTc (B9 m) c))
        ⊢ (StableHlo.held (c : Thread nD τ) (Pipeline.ucRefs τ sig) (Bx m c x) : sProp 𝕄) := fun x => by
      rw [← Pipeline.unscopedBufs_held,
        Pipeline.unscopedBufs_split₀ (cfgs := fun p => Pipeline.pin (pcfgs (F := Bits)) adm p) (p := (2 : Fin 3)) winFacts₀2.arr_unscoped c (Vx m c x)]
      refine sep_mono (bufs_of_arrays2 (dat2f (atTc (B9 m)) c) (dat2f_q0 _ c) (dat2f_q1 _ c) (Vx m c x) _ fun _ => rfl) (Entails.of_eq ?_)
      unfold Pipeline.unscopedRest
      exact bigSep_congr fun b hb => by rw [hrestx m c x b (Finset.mem_sdiff.mp hb).2]
    -- the arrays at some contents: z as entered, the result at contents nothing names
    refine (sep_mono (arraysAt2_open m c) .rfl).trans ?_
    iintro ⟨⟨%x, Ha⟩, HO, HY, Hrest⟩
    imodintro
    isplitl [Ha Hrest HY]
    · isplitl [Ha Hrest]
      · iexists x; iapply hjoin x; isplitl [Ha] <;> iassumption
      iexact HY
    unfold Pipeline.RDat.owesAt Pipeline.owesWithin
    icases HO with ⟨%W, -, HO⟩; iexists W; iexact HO

/-! ## @main as segments, and the launch -/

/-- @main's ten items in order. -/
abbrev segs : List (Pipeline.RDat.Seg (pcfgs (F := Bits)) adm (rdats m) () defs₀ noVar noL noLv) :=
  [ .host (hostSeg hostOps0 hostOps0_sub hostOps0_fresh (Gen.V0 m)),
    .host (hostSeg hostOps0_1 hostOps0_1_sub hostOps0_1_fresh (Gen.V1 m)),
    .host (hostSeg hostOps0_2 hostOps0_2_sub hostOps0_2_fresh (Gen.V2 m)),
    .host (hostSeg hostOps0_3 hostOps0_3_sub hostOps0_3_fresh (Gen.V3 m)),
    .host (hostSeg hostOps0_4 hostOps0_4_sub hostOps0_4_fresh (Gen.V4 m)),
    .region (reg0 m),
    .host (hostSeg hostOps1 hostOps1_sub hostOps1_fresh (B6 m)),
    .region (reg1 m),
    .host (hostSeg hostOps2 hostOps2_sub hostOps2_fresh (B8 m)),
    .region (reg2 m) ]

/-- @main IS the run of the segments. -/
theorem main_run (c : Dev nD) : main (F := Bits) c = Pipeline.RDat.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and every unscoped buffer of every core other than the decoder's result array ends at `B9`. -/
theorem run_all : θ_run defs (onTc (τ := τ) (main (F := Bits))) ⟨m, fun _ => 0, ρ⟩ (fun r => ∀ c : Dev nD,
      ∀ b ∈ Pipeline.ucRefs τ sig, b ≠ Proc.devRef .tc main_v50 → r.2.mem (((c : Thread nD τ)).1, b) = B9 m c b) :=
  Pipeline.RDat.θ_run_regions_kit (pcfgs (F := Bits)) adm (rdats m) () cellOf_inj emb₁ defs₀ noVar noL noLv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ ride c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, b ≠ Proc.devRef .tc main_v50 → s.mem (((c : Thread nD τ)).1, b) = B9 m c b)
    (hfin := fun c s' => by
      iintro ⟨⟨⟨%x, Hh⟩, -⟩, HSI⟩
      unfold StableHlo.held
      ihave Hr := (pointsTo_read_all (Pipeline.ucRefs τ sig) (fun b => (((c : Thread nD τ)).1, b)) (Bx m c x) s') $$ [Hh HSI]
      · isplitl [Hh] <;> iassumption
      icases Hr with ⟨%h, HSI⟩
      imodintro
      isplitr
      · ipureintro
        intro b hb hne
        rw [h b hb]
        exact Function.update_of_ne hne _ _
      · iexact HSI)
    (hQ := fun s h c => h c)

/-- An argument's reference is not the decoder's result array's. -/
theorem ne_out {r : Ref sig .tc} (h : r ≠ main_v50) : (Proc.devRef .tc r : DevRef τ sig) ≠ Proc.devRef .tc main_v50 :=
  StableHlo.devRef_ne_of_ne h

/-- THE FRAME: every weakly fair execution of @main terminates, nothing faulting, and each of the ten arguments, which
    no host stretch writes and no region's result array is, ends holding its launch contents. -/
theorem frame_run (m : (ℓ : Loc nD τ sig) → Buf (Elt Bits) ℓ) (ρ : Dev nD → PrngReg) :
    θ_run (Cert.Kernel.defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨(h c _ (mem_uc main_arg0 (by decide)) (ne_out (by decide))).trans (B9_kept m c main_arg0 (by decide) (by decide) (by decide) (by decide) (by decide) (by decide) (by decide) (by decide) (by decide)),
     (h c _ (mem_uc main_arg1 (by decide)) (ne_out (by decide))).trans (B9_kept m c main_arg1 (by decide) (by decide) (by decide) (by decide) (by decide) (by decide) (by decide) (by decide) (by decide)),
     (h c _ (mem_uc main_arg2 (by decide)) (ne_out (by decide))).trans (B9_kept m c main_arg2 (by decide) (by decide) (by decide) (by decide) (by decide) (by decide) (by decide) (by decide) (by decide)),
     (h c _ (mem_uc main_arg3 (by decide)) (ne_out (by decide))).trans (B9_kept m c main_arg3 (by decide) (by decide) (by decide) (by decide) (by decide) (by decide) (by decide) (by decide) (by decide)),
     (h c _ (mem_uc main_arg4 (by decide)) (ne_out (by decide))).trans (B9_kept m c main_arg4 (by decide) (by decide) (by decide) (by decide) (by decide) (by decide) (by decide) (by decide) (by decide)),
     (h c _ (mem_uc main_arg5 (by decide)) (ne_out (by decide))).trans (B9_kept m c main_arg5 (by decide) (by decide) (by decide) (by decide) (by decide) (by decide) (by decide) (by decide) (by decide)),
     (h c _ (mem_uc main_arg6 (by decide)) (ne_out (by decide))).trans (B9_kept m c main_arg6 (by decide) (by decide) (by decide) (by decide) (by decide) (by decide) (by decide) (by decide) (by decide)),
     (h c _ (mem_uc main_arg7 (by decide)) (ne_out (by decide))).trans (B9_kept m c main_arg7 (by decide) (by decide) (by decide) (by decide) (by decide) (by decide) (by decide) (by decide) (by decide)),
     (h c _ (mem_uc main_arg8 (by decide)) (ne_out (by decide))).trans (B9_kept m c main_arg8 (by decide) (by decide) (by decide) (by decide) (by decide) (by decide) (by decide) (by decide) (by decide)),
     (h c _ (mem_uc main_arg9 (by decide)) (ne_out (by decide))).trans (B9_kept m c main_arg9 (by decide) (by decide) (by decide) (by decide) (by decide) (by decide) (by decide) (by decide) (by decide))⟩)
    (run_all m ρ)

end Cert.Kernel.Hand

end
-- ==== Proof.KI.DenseFirst.lean ====
/-
  The first dense layer's kernel region (pallas_call 0): over the row-scaled aggregate `a` (10000 x 512), the
  weight `w` (512 x 256) and the bias `b` (256), on a grid of ten points, point `t` stages rows
  1000 t .. 1000 t + 999 of `a`, the whole of `w` and `b` (fetched once), and its body stores
  max (a_blk · w + b, 0) into the result's 1000 x 256 staging block, which the pipeline writes back as rows
  1000 t .. of the result. Stated here, at any float instance and at the contents `V` the region is entered
  with: what each window's block is, what the body leaves (`denseRelu`), the region's proof data and the body's
  obligation at every point.
-/
import proofs.«140900_j10024453669132_1_alg».proof.Proof.Gen.KernelIdeal.Launch
import proofs.«140900_j10024453669132_1_alg».proof.Proof.Gen.KernelIdeal.Skeleton
import proofs.«140900_j10024453669132_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the first dense region, read off its array as the region finds it. -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole-buffer rectangles the body reads and writes through. -/
abbrev rA0 : Rect S1000x512 := Rect.unit (s := S1000x512) ![0, 0] S1000x512.size inb_S1000x512_S1000x512_0_0
abbrev rW0 : Rect S512x256 := Rect.unit (s := S512x256) ![0, 0] S512x256.size inb_S512x256_S512x256_0_0
abbrev rB0 : Rect S256 := Rect.unit (s := S256) ![0] S256.size inb_S256_S256_0
abbrev rO0 : Rect S1000x256 := Rect.unit (s := S1000x256) ![0, 0] S1000x256.size inb_S1000x256_S1000x256_0_0

/-- What the body leaves in the result's staging block, from the three input blocks: its one whole store of
    max (a · w + b, 0). -/
def denseRelu (a : Vec F S1000x512 .f32) (w : Vec F S512x256 .f32) (b : Vec F S256 .f32) : Vec F S1000x256 .f32 :=
  View.canon [⟨rO0, k0_pay1 (View.ld a rA0) (View.ld w rW0) (View.ld b rB0)⟩]

/-- The one store covers the block. -/
theorem cover0 (p0 : Vec F S1000x256 .f32) (y : S1000x256.Idx) :
    ∃ pc ∈ ([⟨rO0, p0⟩] : List (View.Piece (Elt F) S1000x256 .f32)), y ∈ pc.1.set :=
  View.cover_of_tiled [⟨rO0, p0⟩] S1000x256.size (by rfl) y

/-- The body's triple on whole staging memrefs: inputs read at `a`, `w`, `b` and left so; the result's memref,
    at anything, left at `denseRelu a w b`. -/
theorem run_dense0 (c : Dev nD) (E : Set ℕ) (i : grid0.Coords)
    (arg1 : Memref sig .tc .vmem S1000x512 .f32) (harg1 : arg1.IsWhole) (arg2 : Memref sig .tc .vmem S512x256 .f32) (harg2 : arg2.IsWhole)
    (arg3 : Memref sig .tc .vmem S256 .f32) (harg3 : arg3.IsWhole) (arg4 : Memref sig .tc .vmem S1000x256 .f32) (harg4 : arg4.IsWhole)
    (a : Vec F S1000x512 .f32) (w : Vec F S512x256 .f32) (b : Vec F S256 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (denseRelu a w b)) -∗ K ⟨⟩))
      ⊢ wp frame (wpE (defs₀ (F := F)) Variants.none c none) E (cc0__dense_kernel i arg1 harg1 arg2 harg2 arg3 harg3 arg4 harg4) K := by
  -- the printed body is its skeleton: four whole loads (the last one dead) and one whole store
  simp only [cc0__dense_kernel_eq_skeleton]; unfold cc0__dense_kernel_skel
  unfold owns
  iintro ⟨⟨%ga, %ea, Pa⟩, ⟨%gw, %ew, Pw⟩, ⟨%gb, %eb, Pb⟩, ⟨%d, %go, -, Po⟩, Hret⟩
  subst ea; subst ew; subst eb
  sl_exec
  sl_step
  iapply Hret
  isplitl [Pa]
  · iexists ga; isplitr
    · ipureintro; rfl
    · iexact Pa
  isplitl [Pw]
  · iexists gw; isplitr
    · ipureintro; rfl
    · iexact Pw
  isplitl [Pb]
  · iexists gb; isplitr
    · ipureintro; rfl
    · iexact Pb
  -- the result's buffer after its one covering store reads as the canon of that piece
  iexists _; isplitr
  rotate_left
  · iexact Po
  ipureintro
  exact View.read_writes_eq_canon _ _ _ (cover0 _)

/-- The region's proof data on core `c`: arrays as entered (`V`); after the body each input's staging block is its
    block, the result's is `denseRelu` of the three; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => denseRelu (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = denseRelu (blk0 V c 0 t) (blk0 V c 1 t) (blk0 V c 2 t) := by dsimp only [dat0]

/-- Window 0's staging buffer holds rows 1000 t .. of `a` at every point: it is fetched at each. -/
private theorem staged0_0 (c : Dev nD) (t : Fin cfg0.N) (d) : (dat0 V c).before 0 t d = blk0 V c 0 t := by
  refine ((dat0 V c).before_in_eq_fetched 0 rfl (fun _ => rfl) (fun _ _ _ => rfl) (fun s => ?_) t d).trans ?_
  · rw [dat0_after0]; unfold Dat.blockOf blk0; rw [dat0_A]; try rfl
  · unfold Dat.fetched Dat.blockOf blk0; rw [dat0_A]; try rfl

/-- Window 1's staging buffer holds the whole of `w` at every point: fetched at the first, and its block index
    never moves after. -/
private theorem staged0_1 (c : Dev nD) (t : Fin cfg0.N) (d) : (dat0 V c).before 1 t d = blk0 V c 1 t := by
  refine ((dat0 V c).before_in_eq_fetched 1 rfl (fun _ => rfl) (fun _ _ _ => rfl) (fun s => ?_) t d).trans ?_
  · rw [dat0_after1]; unfold Dat.blockOf blk0; rw [dat0_A]; try rfl
  · unfold Dat.fetched Dat.blockOf blk0; rw [dat0_A]; try rfl

/-- Window 2's staging buffer holds the whole of `b` at every point, likewise. -/
private theorem staged0_2 (c : Dev nD) (t : Fin cfg0.N) (d) : (dat0 V c).before 2 t d = blk0 V c 2 t := by
  refine ((dat0 V c).before_in_eq_fetched 2 rfl (fun _ => rfl) (fun _ _ _ => rfl) (fun s => ?_) t d).trans ?_
  · rw [dat0_after2]; unfold Dat.blockOf blk0; rw [dat0_A]; try rfl
  · unfold Dat.fetched Dat.blockOf blk0; rw [dat0_A]; try rfl

/-- The body at point `t`, the four windows written out: the three inputs' staging buffers hold their blocks, the
    result's holds anything; the body leaves the inputs as they are and `denseRelu` of them in the result's; the
    invariant and what the core owes are not touched. -/
private theorem body0_at (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t))) := by
  unfold bodyAt0
  simp only [staged0_0, staged0_1, staged0_2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨Inv, Owe, ⟨%d0, Ba⟩, ⟨%d1, Bw⟩, ⟨%d2, Bb⟩, ⟨%d3, Bo⟩⟩
  iapply (run_dense0 c Set.univ _ _ _ _ _ _ _ _ _ (blk0 V c 0 t) (blk0 V c 1 t) (blk0 V c 2 t) _)
  isplitl [Ba]; · iexact Ba
  isplitl [Bw]; · iexact Bw
  isplitl [Bb]; · iexact Bb
  isplitl [Bo]; · iexists _; iexact Bo
  iintro ⟨Ba, Bw, Bb, Bo⟩
  isplitl [Inv]; · iexact Inv
  isplitl [Owe]; · iexact Owe
  isplitl [Ba]; · iexact Ba
  isplitl [Bw]; · iexact Bw
  isplitl [Bb]; · iexact Bb
  iexact Bo

/-- The body's obligation to the pipeline at every point of the region. -/
theorem obligation0 (c : Dev nD) : BodyObligation (dat0 (F := F) V c) (defs₀ (F := F)) Variants.none () Set.univ := by
  intro t
  rw [bigSep_W0, bigSep_W0]
  exact body0_at V c t

end Cert.KernelIdeal.Hand

end
-- ==== Proof.KI.DenseSecond.lean ====
/-
  The second dense layer's kernel region (pallas_call 1): over the row-scaled aggregate `a` (10000 x 256), the
  weight `w` (256 x 256, the two heads' weights side by side) and the bias `b` (256), on a grid of ten points,
  point `t` stages rows 1000 t .. 1000 t + 999 of `a`, the whole of `w` and `b` (fetched once), and its body
  stores a_blk · w + b into the result's 1000 x 256 staging block, which the pipeline writes back as rows 1000 t ..
  of the result. Stated here, at any float instance and at the contents `V` the region is entered with: what each
  window's block is, what the body leaves (`denseBias`), the region's proof data and the body's obligation at
  every point.
-/
import proofs.«140900_j10024453669132_1_alg».proof.Proof.Gen.KernelIdeal.Launch
import proofs.«140900_j10024453669132_1_alg».proof.Proof.Gen.KernelIdeal.Skeleton
import proofs.«140900_j10024453669132_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the second dense region, read off its array as the region finds it. -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The whole-buffer rectangles the body reads and writes through. -/
abbrev rA1 : Rect S1000x256 := Rect.unit (s := S1000x256) ![0, 0] S1000x256.size inb_S1000x256_S1000x256_0_0
abbrev rW1 : Rect S256x256 := Rect.unit (s := S256x256) ![0, 0] S256x256.size inb_S256x256_S256x256_0_0
abbrev rB1 : Rect S256 := Rect.unit (s := S256) ![0] S256.size inb_S256_S256_0
abbrev rO1 : Rect S1000x256 := Rect.unit (s := S1000x256) ![0, 0] S1000x256.size inb_S1000x256_S1000x256_0_0

/-- What the body leaves in the result's staging block, from the three input blocks: its one whole store of
    a · w + b. -/
def denseBias (a : Vec F S1000x256 .f32) (w : Vec F S256x256 .f32) (b : Vec F S256 .f32) : Vec F S1000x256 .f32 :=
  View.canon [⟨rO1, k1_pay1 (View.ld a rA1) (View.ld w rW1) (View.ld b rB1)⟩]

/-- The one store covers the block. -/
theorem cover1 (p0 : Vec F S1000x256 .f32) (y : S1000x256.Idx) :
    ∃ pc ∈ ([⟨rO1, p0⟩] : List (View.Piece (Elt F) S1000x256 .f32)), y ∈ pc.1.set :=
  View.cover_of_tiled [⟨rO1, p0⟩] S1000x256.size (by rfl) y

/-- The body's triple on whole staging memrefs: inputs read at `a`, `w`, `b` and left so; the result's memref,
    at anything, left at `denseBias a w b`. -/
theorem run_dense1 (c : Dev nD) (E : Set ℕ) (i : grid1.Coords)
    (arg1 : Memref sig .tc .vmem S1000x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S1000x256 .f32) (harg4 : arg4.IsWhole)
    (a : Vec F S1000x256 .f32) (w : Vec F S256x256 .f32) (b : Vec F S256 .f32) (K : PUnit → sProp 𝕄) :
    iprop(owns (c : Thread nD τ) arg1 fullShare a ∗ owns (c : Thread nD τ) arg2 fullShare w ∗ owns (c : Thread nD τ) arg3 fullShare b
        ∗ (∃ d, owns (c : Thread nD τ) arg4 fullShare d)
        ∗ (iprop(owns (c : Thread nD τ) arg1 fullShare a ∗ owns (c : Thread nD τ) arg2 fullShare w ∗ owns (c : Thread nD τ) arg3 fullShare b
            ∗ owns (c : Thread nD τ) arg4 fullShare (denseBias a w b)) -∗ K ⟨⟩))
      ⊢ wp frame (wpE (defs₀ (F := F)) Variants.none c none) E (cc1__dense_kernel i arg1 harg1 arg2 harg2 arg3 harg3 arg4 harg4) K := by
  -- the printed body is its skeleton: four whole loads (the last one dead) and one whole store
  simp only [cc1__dense_kernel_eq_skeleton]; unfold cc1__dense_kernel_skel
  unfold owns
  iintro ⟨⟨%ga, %ea, Pa⟩, ⟨%gw, %ew, Pw⟩, ⟨%gb, %eb, Pb⟩, ⟨%d, %go, -, Po⟩, Hret⟩
  subst ea; subst ew; subst eb
  sl_exec
  sl_step
  iapply Hret
  isplitl [Pa]
  · iexists ga; isplitr
    · ipureintro; rfl
    · iexact Pa
  isplitl [Pw]
  · iexists gw; isplitr
    · ipureintro; rfl
    · iexact Pw
  isplitl [Pb]
  · iexists gb; isplitr
    · ipureintro; rfl
    · iexact Pb
  -- the result's buffer after its one covering store reads as the canon of that piece
  iexists _; isplitr
  rotate_left
  · iexact Po
  ipureintro
  exact View.read_writes_eq_canon _ _ _ (cover1 _)

/-- The region's proof data on core `c`: arrays as entered (`V`); after the body each input's staging block is its
    block, the result's is `denseBias` of the three; the invariant is the scoped rest and the generator register,
    untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => denseBias (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = denseBias (blk1 V c 0 t) (blk1 V c 1 t) (blk1 V c 2 t) := by dsimp only [dat1]

/-- Window 0's staging buffer holds rows 1000 t .. of `a` at every point: it is fetched at each. -/
private theorem staged1_0 (c : Dev nD) (t : Fin cfg1.N) (d) : (dat1 V c).before 0 t d = blk1 V c 0 t := by
  refine ((dat1 V c).before_in_eq_fetched 0 rfl (fun _ => rfl) (fun _ _ _ => rfl) (fun s => ?_) t d).trans ?_
  · rw [dat1_after0]; unfold Dat.blockOf blk1; rw [dat1_A]; try rfl
  · unfold Dat.fetched Dat.blockOf blk1; rw [dat1_A]; try rfl

/-- Window 1's staging buffer holds the whole of `w` at every point: fetched at the first, and its block index
    never moves after. -/
private theorem staged1_1 (c : Dev nD) (t : Fin cfg1.N) (d) : (dat1 V c).before 1 t d = blk1 V c 1 t := by
  refine ((dat1 V c).before_in_eq_fetched 1 rfl (fun _ => rfl) (fun _ _ _ => rfl) (fun s => ?_) t d).trans ?_
  · rw [dat1_after1]; unfold Dat.blockOf blk1; rw [dat1_A]; try rfl
  · unfold Dat.fetched Dat.blockOf blk1; rw [dat1_A]; try rfl

/-- Window 2's staging buffer holds the whole of `b` at every point, likewise. -/
private theorem staged1_2 (c : Dev nD) (t : Fin cfg1.N) (d) : (dat1 V c).before 2 t d = blk1 V c 2 t := by
  refine ((dat1 V c).before_in_eq_fetched 2 rfl (fun _ => rfl) (fun _ _ _ => rfl) (fun s => ?_) t d).trans ?_
  · rw [dat1_after2]; unfold Dat.blockOf blk1; rw [dat1_A]; try rfl
  · unfold Dat.fetched Dat.blockOf blk1; rw [dat1_A]; try rfl

/-- The body at point `t`, the four windows written out: the three inputs' staging buffers hold their blocks, the
    result's holds anything; the body leaves the inputs as they are and `denseBias` of them in the result's; the
    invariant and what the core owes are not touched. -/
private theorem body1_at (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t))) := by
  unfold bodyAt1
  simp only [staged1_0, staged1_1, staged1_2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨Inv, Owe, ⟨%d0, Ba⟩, ⟨%d1, Bw⟩, ⟨%d2, Bb⟩, ⟨%d3, Bo⟩⟩
  iapply (run_dense1 c Set.univ _ _ _ _ _ _ _ _ _ (blk1 V c 0 t) (blk1 V c 1 t) (blk1 V c 2 t) _)
  isplitl [Ba]; · iexact Ba
  isplitl [Bw]; · iexact Bw
  isplitl [Bb]; · iexact Bb
  isplitl [Bo]; · iexists _; iexact Bo
  iintro ⟨Ba, Bw, Bb, Bo⟩
  isplitl [Inv]; · iexact Inv
  isplitl [Owe]; · iexact Owe
  isplitl [Ba]; · iexact Ba
  isplitl [Bw]; · iexact Bw
  isplitl [Bb]; · iexact Bb
  iexact Bo

/-- The body's obligation to the pipeline at every point of the region. -/
theorem obligation1 (c : Dev nD) : BodyObligation (dat1 (F := F) V c) (defs₀ (F := F)) Variants.none () Set.univ := by
  intro t
  rw [bigSep_W1, bigSep_W1]
  exact body1_at V c t

end Cert.KernelIdeal.Hand

end
-- ==== Proof.KI.DecodeBody.lean ====
/-
  The decoder's kernel region (pallas_call 2), its body: over z (10000 x 128), on a grid of 79 points, point `t`
  stages rows 128 t .. 128 t + 127 of z (the last block reaches 112 rows past the array's end), and the whole of z
  (fetched once); the body stores logistic (zr · zcᵀ), a 128 x 10000 block, which the pipeline writes back as rows
  128 t .. of the 10000 x 10000 result (the last write-back cut at the array's end). Stated here at any float
  instance: the windows' blocks, what the body leaves in the result's staging block (`decodeBlk`) and the body's triple.
-/
import proofs.«140900_j10024453669132_1_alg».proof.Proof.Gen.KernelIdeal.Launch
import proofs.«140900_j10024453669132_1_alg».proof.Proof.Gen.KernelIdeal.Skeleton
import proofs.«140900_j10024453669132_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the decoder's region — its part inside the array — read off its array as
    the region finds it. -/
def blk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The row block at point `t` filled out to the staging block's 128 rows with the zero word past the array's end
    (only the last point's block is cut: there the array ends after 16 of the 128 rows). -/
def zrFill (c : Dev nD) (t : Fin cfg2.N) : S128x128.Idx → Elt F .f32 :=
  win2_0.fill (grid2.coords t) (fun _ => Scalar.ofBits .f32 0#32) (blk2 V c 0 t)

/-- The whole-buffer rectangles the body reads and writes through. -/
abbrev rZr : Rect S128x128 := Rect.unit (s := S128x128) ![0, 0] S128x128.size inb_S128x128_S128x128_0_0
abbrev rZc : Rect S10000x128 := Rect.unit (s := S10000x128) ![0, 0] S10000x128.size inb_S10000x128_S10000x128_0_0
abbrev rO2 : Rect S128x10000 := Rect.unit (s := S128x10000) ![0, 0] S128x10000.size inb_S128x10000_S128x10000_0_0

/-- What the body leaves in the result's staging block, from the row block `zr` and the whole `zc`: its one whole
    store of logistic (zr · zcᵀ). -/
def decodeBlk (zr : Vec F S128x128 .f32) (zc : Vec F S10000x128 .f32) : Vec F S128x10000 .f32 :=
  View.canon [⟨rO2, k2_pay1 (View.ld zr rZr) (View.ld zc rZc)⟩]

/-- The one store covers the block. -/
theorem cover2 (p0 : Vec F S128x10000 .f32) (y : S128x10000.Idx) :
    ∃ pc ∈ ([⟨rO2, p0⟩] : List (View.Piece (Elt F) S128x10000 .f32)), y ∈ pc.1.set :=
  View.cover_of_tiled [⟨rO2, p0⟩] S128x10000.size (by rfl) y

/-- The body's triple on whole staging memrefs: the inputs read at `zr`, `zc` and left so; the result's memref, at
    anything, left at `decodeBlk zr zc`. -/
theorem run_decode (c : Dev nD) (E : Set ℕ) (i : grid2.Coords)
    (arg1 : Memref sig .tc .vmem S128x128 .f32) (harg1 : arg1.IsWhole) (arg2 : Memref sig .tc .vmem S10000x128 .f32) (harg2 : arg2.IsWhole)
    (arg3 : Memref sig .tc .vmem S128x10000 .f32) (harg3 : arg3.IsWhole)
    (zr : Vec F S128x128 .f32) (zc : Vec F S10000x128 .f32) (K : PUnit → sProp 𝕄) :
    iprop(owns (c : Thread nD τ) arg1 fullShare zr ∗ owns (c : Thread nD τ) arg2 fullShare zc
        ∗ (∃ d, owns (c : Thread nD τ) arg3 fullShare d)
        ∗ (iprop(owns (c : Thread nD τ) arg1 fullShare zr ∗ owns (c : Thread nD τ) arg2 fullShare zc
            ∗ owns (c : Thread nD τ) arg3 fullShare (decodeBlk zr zc)) -∗ K ⟨⟩))
      ⊢ wp frame (wpE (defs₀ (F := F)) Variants.none c none) E (cc2__decode_kernel i arg1 harg1 arg2 harg2 arg3 harg3) K := by
  -- the body is three whole loads (the third, of the result's block, is never used) and one whole store
  simp only [cc2__decode_kernel_eq_skeleton]
  unfold cc2__decode_kernel_skel owns
  -- name the three buffers' contents; the two inputs' are read as `zr`, `zc`
  iintro ⟨⟨%fr, %hr, Hr⟩, ⟨%fc, %hc, Hc⟩, ⟨%d, %fo, -, Ho⟩, Hk⟩
  subst hr hc
  sl_exec
  sl_step
  -- hand the three buffers back: the inputs' untouched, the result's after its one store
  iapply Hk
  isplitl [Hr]
  · iexists fr; isplitr
    · ipureintro; rfl
    · iexact Hr
  isplitl [Hc]
  · iexists fc; isplitr
    · ipureintro; rfl
    · iexact Hc
  -- the result's buffer: its contents are whatever the store left (fixed by the resource itself), and
  -- a buffer read back after a store that covers it is the store's payload, piece by piece
  iexists _; isplitr
  rotate_left
  · iexact Ho
  · ipureintro
    exact View.read_writes_eq_canon _ _ _ (cover2 _)

end Cert.KernelIdeal.Hand

end
-- ==== Proof.KI.DecodeExact.lean ====
/-
  The decoder's region at the extended reals: its proof data with every staging block NAMED, and the body's
  obligation. The row-block window and the result window are cut at the array's end at the last point: there the
  staging rows past the end hold words nothing names, the body's product of such a row is a row of the result's
  staging block that the cut write-back never moves, and — each row of zr · zcᵀ depending on that row of zr alone —
  the rows inside the array are what they are whatever the tail holds.
-/
import proofs.«140900_j10024453669132_1_alg».proof.Proof.KI.DecodeBody
import Idealize.ShloMosaic.PureOps.Ideal
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The decoder's proof data on core `c`: arrays as entered; after the body the row-block window's staging block is
    the filled row block, the whole-array window's is z, the result's is `decodeBlk` of the two; the invariant is the
    scoped rest and the generator register; nothing owed; z's two windows hold it at the two halves of the full share. -/
def dat2 (c : Dev nD) : Dat τ (Elt F) Unit ℕ (UR sig nD τ) ℕ cfg2 c where
  A w := V c (Pipeline.arrRef spec2 w)
  after w t := match w with
    | ⟨0, _⟩ => zrFill V c t
    | ⟨1, _⟩ => blk2 V c 1 t
    | ⟨2, _⟩ => decodeBlk (zrFill V c t) (blk2 V c 1 t)
  Φ _ := Pipeline.ΦA spec2 c
  q w := match w with
    | ⟨0, _⟩ => fullShare.left
    | ⟨1, _⟩ => fullShare.right
    | ⟨2, _⟩ => fullShare
  owed _ := 0

theorem dat2_A (c : Dev nD) (w : Fin cfg2.W) : (dat2 V c).A w = V c (Pipeline.arrRef spec2 w) := by dsimp only [dat2]
theorem dat2_q0 (c : Dev nD) : (dat2 V c).q 0 = fullShare.left := by dsimp only [dat2]
theorem dat2_q1 (c : Dev nD) : (dat2 V c).q 1 = fullShare.right := by dsimp only [dat2]
theorem dat2_after0 (c : Dev nD) (t : Fin cfg2.N) : (dat2 V c).after 0 t = zrFill V c t := by dsimp only [dat2]
theorem dat2_after1 (c : Dev nD) (t : Fin cfg2.N) : (dat2 V c).after 1 t = blk2 V c 1 t := by dsimp only [dat2]
theorem dat2_after2 (c : Dev nD) (t : Fin cfg2.N) :
    (dat2 V c).after 2 t = decodeBlk (zrFill V c t) (blk2 V c 1 t) := by dsimp only [dat2]

/-- The zero offsets of a whole rank-2 access, as the constant function. -/
theorem decode_zeros2 : (![0, 0] : Fin 2 → Nat) = fun _ => 0 := funext fun a => by fin_cases a <;> rfl

/-- At the extended reals the block the body leaves is, entry by entry, the logistic of the sum over the contracted
    axis of the products of the two operands' entries: the whole accesses read and leave whole blocks, the same-shape
    casts and the narrowing to bf16 change no value, and the product accumulates into the zero block. -/
theorem decodeBlk_apply (zr : Vec Ideal S128x128 .f32) (zc : Vec Ideal S10000x128 .f32) (y : S128x10000.Idx) :
    decodeBlk (F := Ideal) zr zc y
      = Ideal.logistic (∑ k : dot_S128x128_S10000x128_S128x10000_1_1_0_0_n_n.contr.Idx,
          zr (dot_S128x128_S10000x128_S128x10000_1_1_0_0_n_n.lhsIdx y k)
            * zc (dot_S128x128_S10000x128_S128x10000_1_1_0_0_n_n.rhsIdx y k)) := by
  unfold decodeBlk
  rw [View.canon_unit_zero (S := S128x10000) decode_zeros2, View.ld_unit_zero (S := S128x128) decode_zeros2,
    View.ld_unit_zero (S := S10000x128) decode_zeros2]
  unfold k2_pay1
  simp only [shapeCast_self]
  show Ideal.logistic ((FloatOps.matmul (F := Ideal) dot_S128x128_S10000x128_S128x10000_1_1_0_0_n_n none _ _
    (constant S128x10000 .f32 0x00000000#32) : FVec Ideal S128x10000 .f32) y) = _
  rw [Ideal.matmul_constant_zero_apply]
  rfl

/-- Two fillings of one row block with different tails agree at every index the transfer moves. -/
theorem fill0_eq_of_moved {α : Type} (i : grid2.Coords) (d d' : S128x128.Idx → α)
    (x : (win2_0.xblock i).Idx → α) {j : S128x128.Idx} (h : win2_0.moved i j = true) :
    win2_0.fill i d x j = win2_0.fill i d' x j := by
  unfold Window.fill; rw [dif_pos h, dif_pos h]

/-- At the extended reals, the rows of `decodeBlk zr zc` that the result window's cut keeps at point `t` do not
    depend on what `zr` holds past the row-block window's cut: filling the same row block out with any two tails
    gives staging blocks that agree on the kept rows. -/
theorem decodeBlk_cut_fill (t : Fin cfg2.N) (d d' : S128x128.Idx → Elt Ideal .f32)
    (x : (win2_0.xblock (grid2.coords t)).Idx → Elt Ideal .f32) (zc : Vec Ideal S10000x128 .f32) :
    win2_2.cut (grid2.coords t) (decodeBlk (F := Ideal) (win2_0.fill (grid2.coords t) d x) zc)
      = win2_2.cut (grid2.coords t) (decodeBlk (F := Ideal) (win2_0.fill (grid2.coords t) d' x) zc) := by
  funext j
  show decodeBlk (F := Ideal) (win2_0.fill (grid2.coords t) d x) zc (win2_2.xinj (grid2.coords t) j)
    = decodeBlk (F := Ideal) (win2_0.fill (grid2.coords t) d' x) zc (win2_2.xinj (grid2.coords t) j)
  rw [decodeBlk_apply, decodeBlk_apply]
  refine congrArg Ideal.logistic (Finset.sum_congr rfl fun k _ => ?_)
  -- the left operand is read at (row of the entry, k): that row is one the result window's cut keeps, so one the
  -- row-block window's cut keeps (the two cut axis 0 alike), and every lane is inside the block
  have hm : win2_0.moved (grid2.coords t)
      (dot_S128x128_S10000x128_S128x10000_1_1_0_0_n_n.lhsIdx (win2_2.xinj (grid2.coords t) j) k) = true := by
    rw [Window.moved_iff]
    intro a
    match a with
    | ⟨0, _⟩ => exact (j 0).isLt
    | ⟨1, _⟩ => exact (dot_S128x128_S10000x128_S128x10000_1_1_0_0_n_n.lhsIdx (win2_2.xinj (grid2.coords t) j) k 1).isLt
  rw [fill0_eq_of_moved _ d d' x hm]

/-! ## What the body finds in the three staging blocks -/

section Finds

variable (V : (c : Dev nD) → (b : Ref sig .tc) → Buf (Elt Ideal) ((c : Thread nD τ).loc b)) (c : Dev nD)

/-- The row-block window is fetched at every point: its staging block holds the row block on the rows the transfer
    moves and, past them, what the overwrite before the fetch left (`d`, anything). -/
theorem finds2_0 (t : Fin cfg2.N) (d) :
    (dat2 V c).before 0 t d = win2_0.fill (grid2.coords t) d (blk2 V c 0 t) := by
  rw [(dat2 V c).before_fetched 0 t (fetch2_0 t) d]
  rfl

/-- The whole-array window is fetched once, never cut, and the body leaves its block in place: at every point its
    staging block holds z. -/
theorem finds2_1 (t : Fin cfg2.N) (d) : (dat2 V c).before 1 t d = blk2 V c 1 t := by
  have hkeep : ∀ u, (cfg2.win 1).cut (cfg2.grid.coords u) ((dat2 V c).after 1 u) = (dat2 V c).blockOf 1 u := fun u => by
    rw [dat2_after1]; rfl
  rw [(dat2 V c).before_in_eq_fetched 1 rfl (fun _ => rfl) (fun _ _ _ => rfl) hkeep t d]
  rfl

/-- The result window is written back at every point: its staging block is handed over at anything. -/
theorem finds2_2 (t : Fin cfg2.N) (d) : (dat2 V c).before 2 t d = d := by
  refine (dat2 V c).before_out_reset 2 rfl t ?_ d
  by_cases h0 : t.val = 0
  · exact .inl h0
  · exact .inr ⟨h0, flush2_2 _⟩

end Finds

/-- The body's obligation to the pipeline at every point, at the extended reals (the cut windows stated on the rows
    inside the array only). -/
theorem obligation2 (V : (c : Dev nD) → (b : Ref sig .tc) → Buf (Elt Ideal) ((c : Thread nD τ).loc b)) (c : Dev nD) :
    BodyObligationLoose (dat2 (F := Ideal) V c) (defs₀ (F := Ideal)) Variants.none () Set.univ := fun t => by
  rw [bigSep_W2, bigSep_W2]
  -- no point is idle for any window; windows 0 and 2 are stated on the moved rows only, window 1 whole
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩⟩
  rw [finds2_0 V c t d0, finds2_1 V c t d1, finds2_2 V c t d2]
  iapply (run_decode (F := Ideal) c Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_0.fill (grid2.coords t) d0 (blk2 V c 0 t)) (blk2 V c 1 t) _)
  isplitl [H0]; · iexact H0
  isplitl [H1]; · iexact H1
  isplitl [H2]; · iexists d2; iexact H2
  iintro ⟨H0, H1, H2⟩
  isplitl [HΦ]; · iexact HΦ
  isplitl [Ho]; · iexact Ho
  -- the row block: handed back as found, which on the rows the transfer moves is the filled row block's rows
  have h0 : win2_0.cut (grid2.coords t) ((dat2 V c).after 0 t) = blk2 V c 0 t := by
    rw [dat2_after0]; exact win2_0.cut_fill _ _ _
  -- the result: the block the body leaves from the row block as found; on the rows the write-back moves it is the
  -- block computed from the zero-filled row block, whatever the tail held
  have h2 : win2_2.fill (grid2.coords t) (decodeBlk (F := Ideal) (win2_0.fill (grid2.coords t) d0 (blk2 V c 0 t)) (blk2 V c 1 t))
      (win2_2.cut (grid2.coords t) ((dat2 V c).after 2 t))
      = decodeBlk (F := Ideal) (win2_0.fill (grid2.coords t) d0 (blk2 V c 0 t)) (blk2 V c 1 t) := by
    rw [dat2_after2]; unfold zrFill
    rw [decodeBlk_cut_fill t _ d0 (blk2 V c 0 t) (blk2 V c 1 t)]
    exact win2_2.fill_cut _ _
  isplitl [H0]
  · iexists d0
    change _ ⊢ owns (c : Thread nD τ) (win2_0.stage (cfg2.slots t 0)) fullShare
      (win2_0.fill (grid2.coords t) d0 (win2_0.cut (grid2.coords t) ((dat2 V c).after 0 t)))
    -- with the moved rows named this is the assertion held
    rw [h0]
  isplitl [H1]
  · rw [dat2_after1]; iexact H1
  · iexists decodeBlk (F := Ideal) (win2_0.fill (grid2.coords t) d0 (blk2 V c 0 t)) (blk2 V c 1 t)
    change _ ⊢ owns (c : Thread nD τ) (win2_2.stage (cfg2.slots t 2)) fullShare
      (win2_2.fill (grid2.coords t) (decodeBlk (F := Ideal) (win2_0.fill (grid2.coords t) d0 (blk2 V c 0 t)) (blk2 V c 1 t))
        (win2_2.cut (grid2.coords t) ((dat2 V c).after 2 t)))
    rw [h2]

end Cert.KernelIdeal.Hand

end
-- ==== Proof.KI.DecodeShares.lean ====
/-
  The decoder's region hands ONE array, z, to two input windows. Its proof data hold z at the left half of the
  full share for the row-block window and at the right half for the whole-array window; the result is held whole.
  Here: the buffers behind the region's arrays, each whole at the full share, ARE the region's arrays at those
  shares (z split in two) — and back —, for any proof data of the region with those shares.
-/
import proofs.«140900_j10024453669132_1_alg».proof.Proof.Gen.KernelIdeal.Launch
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable {c : Dev nD} (dat : Dat τ (Elt F) Unit ℕ (UR sig nD τ) ℕ cfg2 c)

/-- The buffers behind the decoder's three arrays are two: z and the result. -/
theorem arrImage2 : (Finset.univ.image (Pipeline.arrRef spec2) : Finset (Ref sig .tc)) = {main_v49, main_v50} := by decide

/-- The two buffers, each whole at the full share. -/
theorem arrBufs2_eq (Vc : (b : Ref sig .tc) → Buf (Elt F) ((c : Thread nD τ).loc b)) :
    (Pipeline.arrBufs (Ix := Unit) (Name := ℕ) (U := UR sig nD τ) (Lvl := ℕ) spec2 c Vc : sProp 𝕄)
      = iprop((((c : Thread nD τ).loc main_v49) ↦{fullShare} Vc main_v49 : sProp 𝕄) ∗ (((c : Thread nD τ).loc main_v50) ↦{fullShare} Vc main_v50)) := by
  unfold Pipeline.arrBufs
  rw [arrImage2, bigSep_insert (by decide), bigSep_singleton]
  rfl

/-- Window by window, the array of the region's data at its share is the buffer behind it, whole, at that share. -/
theorem arrays2_eq (q0 q1 q2 : PosShare TreeShare) (hs0 : dat.share 0 = q0) (hs1 : dat.share 1 = q1) (hs2 : dat.share 2 = q2)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    dat.arrays Fw = iprop((((c : Thread nD τ).loc main_v49) ↦{q0} Vc main_v49 : sProp 𝕄)
      ∗ (((c : Thread nD τ).loc main_v49) ↦{q1} Vc main_v49) ∗ (((c : Thread nD τ).loc main_v50) ↦{q2} Vc main_v50)) := by
  have h0 : Fw 0 = Vc main_v49 := hF 0
  have h1 : Fw 1 = Vc main_v49 := hF 1
  have h2 : Fw 2 = Vc main_v50 := hF 2
  have u0 : (cfg2.win 0).arr.view.set = Finset.univ := (arr_whole2 0).set_eq_univ
  have u1 : (cfg2.win 1).arr.view.set = Finset.univ := (arr_whole2 1).set_eq_univ
  have u2 : (cfg2.win 2).arr.view.set = Finset.univ := (arr_whole2 2).set_eq_univ
  unfold Dat.arrays
  rw [bigSep_W2, hs0, hs1, hs2, h0, h1, h2]
  simp only [u0, u1, u2]

/-- The shares the region's data hold its three arrays at: z's two halves, the result whole. -/
theorem share2_0 (hq0 : dat.q 0 = fullShare.left) : dat.share 0 = fullShare.left := by
  unfold Dat.share; rw [if_neg (by decide)]; exact hq0
theorem share2_1 (hq1 : dat.q 1 = fullShare.right) : dat.share 1 = fullShare.right := by
  unfold Dat.share; rw [if_neg (by decide)]; exact hq1
theorem share2_2 : dat.share 2 = fullShare := by
  unfold Dat.share; rw [if_pos (by decide)]

/-- From the two distinct buffers (z and the result) whole at contents `Vc` to the three windows' arrays at contents
    `Fw` that agree with `Vc` window by window: z's full share split into its two halves. -/
theorem arrays2_of_bufs (hq0 : dat.q 0 = fullShare.left) (hq1 : dat.q 1 = fullShare.right)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    (Pipeline.arrBufs (Ix := Unit) (Name := ℕ) (U := UR sig nD τ) (Lvl := ℕ) spec2 c Vc : sProp 𝕄) ⊢ dat.arrays Fw := by
  rw [arrays2_eq dat _ _ _ (share2_0 dat hq0) (share2_1 dat hq1) (share2_2 dat) Vc Fw hF, arrBufs2_eq]
  iintro ⟨Hz, Hres⟩
  -- z's full share is its left half and its right half
  ihave Hz2 := (pointsTo_share (PosShare.mem_left_op_right fullShare)).1 $$ Hz
  icases Hz2 with ⟨Hl, Hr⟩
  isplitl [Hl]; · iexact Hl
  isplitl [Hr]; · iexact Hr
  iexact Hres

/-- And back: the three windows' arrays at `Fw` are the two buffers whole at `Vc`. -/
theorem bufs_of_arrays2 (hq0 : dat.q 0 = fullShare.left) (hq1 : dat.q 1 = fullShare.right)
    (Vc : (b : Ref sig .tc) → Buf (Elt F) ((c : Thread nD τ).loc b))
    (Fw : (w : Fin cfg2.W) → Buf (Elt F) ((cfg2.win w).arr.view.loc (c : Thread nD τ)))
    (hF : ∀ w, Fw w = Vc (Pipeline.arrRef spec2 w)) :
    dat.arrays Fw ⊢ (Pipeline.arrBufs (Ix := Unit) (Name := ℕ) (U := UR sig nD τ) (Lvl := ℕ) spec2 c Vc : sProp 𝕄) := by
  rw [arrays2_eq dat _ _ _ (share2_0 dat hq0) (share2_1 dat hq1) (share2_2 dat) Vc Fw hF, arrBufs2_eq]
  iintro ⟨Hl, Hr, Hres⟩
  isplitr [Hres]
  · -- the two halves of z's share join to the full share
    iapply (pointsTo_share (PosShare.mem_left_op_right fullShare)).2
    isplitl [Hl]; · iexact Hl
    iexact Hr
  · iexact Hres

end Cert.KernelIdeal.Hand

end
-- ==== Proof.KI.Run.lean ====
/-
  The run of the idealized kernel program's @main at the extended reals: host operations, the first dense layer's
  region, host operations, the second's, host operations, the decoder's region. Between two items core `c` holds every
  unscoped buffer at a NAMED valuation: the launch memory, then what each stretch of host operations computes, then —
  after a region — the same with the region's result array at what its write-backs leave (`Dat.arrAt` at the grid's
  last point). Every weakly fair execution terminates, nothing faults, and every unscoped buffer ends at the last
  valuation `B10`; the arguments, which no item writes, end as launched. The decoder's region reads one array, z,
  through two windows: z's full share is split in two halves at its entry and joined at its exit.
-/
import proofs.«140900_j10024453669132_1_alg».proof.Proof.Gen.KernelIdeal.Regions
import proofs.«140900_j10024453669132_1_alg».proof.Proof.KI.DenseFirst
import proofs.«140900_j10024453669132_1_alg».proof.Proof.KI.DenseSecond
import proofs.«140900_j10024453669132_1_alg».proof.Proof.KI.DecodeExact
import proofs.«140900_j10024453669132_1_alg».proof.Proof.KI.DecodeShares
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at each boundary -/

/-- A valuation read at the TensorCore's references. -/
abbrev atTc (B : Dev nD → Valuation τ sig (Elt Ideal)) : (c : Dev nD) → (b : Ref sig .tc) → Buf (Elt Ideal) ((c : Thread nD τ).loc b) :=
  fun c b => B c b

/-- Before the first dense region: the launch memory after the first five stretches of host operations. -/
abbrev B5 : Dev nD → Valuation τ sig (Elt Ideal) := fun c => Gen.V5 m c
/-- After it: the region's result array at what the write-backs leave. -/
def B6 (c : Dev nD) : Valuation τ sig (Elt Ideal) :=
  Pipeline.withArrays spec0 c (B5 m c) fun w => (dat0 (atTc (B5 m)) c).arrAt w cfg0.N
/-- Before the second dense region. -/
abbrev B7 : Dev nD → Valuation τ sig (Elt Ideal) := fun c => StableHlo.after hostOps1 (B6 m c)
/-- After it. -/
def B8 (c : Dev nD) : Valuation τ sig (Elt Ideal) :=
  Pipeline.withArrays spec1 c (B7 m c) fun w => (dat1 (atTc (B7 m)) c).arrAt w cfg1.N
/-- Before the decoder's region. -/
abbrev B9 : Dev nD → Valuation τ sig (Elt Ideal) := fun c => StableHlo.after hostOps2 (B8 m c)
/-- After it: the result array main_v50 at what the decoder's write-backs leave, every other buffer as it was. -/
def B10 (c : Dev nD) : Valuation τ sig (Elt Ideal) :=
  Function.update (B9 m c) (Proc.devRef .tc main_v50) ((dat2 (atTc (B9 m)) c).arrAt 2 cfg2.N)

theorem B6_arr (c : Dev nD) (w : Fin cfg0.W) :
    B6 m c (Proc.devRef .tc (Pipeline.arrRef spec0 w)) = (dat0 (atTc (B5 m)) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m c (Proc.devRef .tc b) = B5 m c (Proc.devRef .tc b) := by
  unfold B6; exact Pipeline.withArrays_of_ne spec0 c _ _ b hb
theorem B8_arr (c : Dev nD) (w : Fin cfg1.W) :
    B8 m c (Proc.devRef .tc (Pipeline.arrRef spec1 w)) = (dat1 (atTc (B7 m)) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m c (Proc.devRef .tc b) = B7 m c (Proc.devRef .tc b) := by
  unfold B8; exact Pipeline.withArrays_of_ne spec1 c _ _ b hb
theorem B10_out (c : Dev nD) : B10 m c (Proc.devRef .tc main_v50) = (dat2 (atTc (B9 m)) c).arrAt 2 cfg2.N := by
  unfold B10; exact Function.update_self _ _ _
theorem B10_of_ne (c : Dev nD) (b : Ref sig .tc) (hb : b ≠ main_v50) :
    B10 m c (Proc.devRef .tc b) = B9 m c (Proc.devRef .tc b) := by
  unfold B10
  exact Function.update_of_ne (StableHlo.devRef_ne_of_ne hb : (Proc.devRef .tc b : DevRef τ sig) ≠ Proc.devRef .tc main_v50) _ _

/-- A reference no host stretch writes and no region's result array holds what it held at launch at the end. -/
theorem B10_kept (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : ∀ w, Pipeline.arrRef spec0 w = r → (cfg0.win w).isOut = false) (h6 : r ∉ hostOps1_W)
    (h7 : ∀ w, Pipeline.arrRef spec1 w = r → (cfg1.win w).isOut = false) (h8 : r ∉ hostOps2_W) (h9 : r ≠ main_v50) :
    B10 m c (Proc.devRef .tc r) = m ((c : Thread nD τ).loc r) := by
  have e5 : B5 m c (Proc.devRef .tc r) = m ((c : Thread nD τ).loc r) :=
    (Gen.V5_of m c r h4).trans <| (Gen.V4_of m c r h3).trans <| (Gen.V3_of m c r h2).trans <| (Gen.V2_of m c r h1).trans <| (Gen.V1_of m c r h0).trans rfl
  have e6 : B6 m c (Proc.devRef .tc r) = B5 m c (Proc.devRef .tc r) := by
    by_cases hw : ∃ w, Pipeline.arrRef spec0 w = r
    · obtain ⟨w, rfl⟩ := hw
      rw [B6_arr, (dat0 (atTc (B5 m)) c).arrAt_in w (h5 w rfl) _, dat0_A]
    · exact B6_of_ne m c r fun w e => hw ⟨w, e⟩
  have e7 : B7 m c (Proc.devRef .tc r) = B6 m c (Proc.devRef .tc r) :=
    StableHlo.after_of_writes_sub hostOps1 _ hostOps1_writes h6
  have e8 : B8 m c (Proc.devRef .tc r) = B7 m c (Proc.devRef .tc r) := by
    by_cases hw : ∃ w, Pipeline.arrRef spec1 w = r
    · obtain ⟨w, rfl⟩ := hw
      rw [B8_arr, (dat1 (atTc (B7 m)) c).arrAt_in w (h7 w rfl) _, dat1_A]
    · exact B8_of_ne m c r fun w e => hw ⟨w, e⟩
  have e9 : B9 m c (Proc.devRef .tc r) = B8 m c (Proc.devRef .tc r) :=
    StableHlo.after_of_writes_sub hostOps2 _ hostOps2_writes h8
  exact (B10_of_ne m c r h9).trans <| e9.trans <| e8.trans <| e7.trans <| e6.trans e5

/-! ## The proof data family and what rides beside the buffers -/

/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => dat0 (atTc (B5 m)) c
  | ⟨1, _⟩ => fun c => dat1 (atTc (B7 m)) c
  | ⟨2, _⟩ => fun c => dat2 (atTc (B9 m)) c

abbrev noVar : Variants := Variants.none
/-- No core owes another anything: no level is assigned. -/
abbrev noL : GSem nD τ sig → Finset Unit := fun _ => ∅
abbrev noLv : GSem nD τ sig → Unit → ℕ := fun _ _ => 0
/-- What rides beside the buffers through every item: the core's generator register at some state and its
    `owes`, at nothing. -/
abbrev ride (c : Dev nD) : sProp 𝕄 :=
  iprop((∃ r, prngReg c r) ∗ ∃ W, owes (c : Thread nD τ) (0 : CellTallies nD τ sig Unit) W)

/-- A stretch of host operations as a segment from the contents `B`. -/
abbrev hostSeg (ops : List (HloOp τ sig (Elt Ideal))) (hsub : ops.Forall fun op => op.bufs ⊆ StableHlo.tcRefs τ sig)
    (hfresh : ops.Forall fun op => op.fresh = ∅) (B : Dev nD → Valuation τ sig (Elt Ideal)) :
    Pipeline.HostSeg (Name := ℕ) (U := UR sig nD τ) (pcfgs (F := Ideal)) defs₀ noVar noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B ride

/-- The last thread state without the `owes`. -/
abbrev lastState (c : Dev nD) : sProp 𝕄 :=
  iprop(StableHlo.held (c : Thread nD τ) (Pipeline.ucRefs τ sig) (B10 m c) ∗ ∃ r, prngReg c r)

/-! ## The regions as segments -/

theorem hF0 (c : Dev nD) (w : Fin cfg0.W) :
    (dat0 (atTc (B5 m)) c).arrAt w cfg0.N = atTc (B6 m) c (Pipeline.arrRef spec0 w) := (B6_arr m c w).symm
theorem hrest0 (c : Dev nD) : ∀ b, b ∉ Finset.univ.image (Pipeline.arrRef spec0) → atTc (B6 m) c b = atTc (B5 m) c b :=
  fun b hb => B6_of_ne m c b fun w e => hb (Finset.mem_image.mpr ⟨w, Finset.mem_univ _, e⟩)
theorem hF1 (c : Dev nD) (w : Fin cfg1.W) :
    (dat1 (atTc (B7 m)) c).arrAt w cfg1.N = atTc (B8 m) c (Pipeline.arrRef spec1 w) := (B8_arr m c w).symm
theorem hrest1 (c : Dev nD) : ∀ b, b ∉ Finset.univ.image (Pipeline.arrRef spec1) → atTc (B8 m) c b = atTc (B7 m) c b :=
  fun b hb => B8_of_ne m c b fun w e => hb (Finset.mem_image.mpr ⟨w, Finset.mem_univ _, e⟩)

set_option backward.isDefEq.respectTransparency.types false in
/-- The first dense region, entered from every unscoped buffer at `B5` and left at `B6`. -/
def reg0 : Pipeline.RegionSeg (pcfgs (F := Ideal)) adm (pdats m) () defs₀ noVar noL noLv 0 where
  win := launch0.win.to₀
  block_pos := launch0.block_pos
  stage_whole := launch0.stage_whole
  K := PEmpty
  osem k := k.elim
  ho := Pipeline.OwnSemFacts.none _
  hbody c := (obligation0 (atTc (B5 m)) c).loose
  hwaits := Pipeline.hwaits_of_owed_zero _ _ _ _ noL noLv 0 fun _ _ => rfl
  pre c := iprop(StableHlo.held (c : Thread nD τ) (Pipeline.ucRefs τ sig) (B5 m c) ∗ ride c)
  post c := iprop(StableHlo.held (c : Thread nD τ) (Pipeline.ucRefs τ sig) (B6 m c) ∗ ride c)
  X c := iprop(∃ r, prngReg c r)
  Y c := iprop(∃ r, prngReg c r)
  Z c := Pipeline.unscopedRest (Ix := Unit) (Name := ℕ) (U := UR sig nD τ) (Lvl := ℕ) spec0 c (atTc (B5 m) c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (atTc (B5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (atTc (B5 m) c) (atTc (B6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second dense region, entered from every unscoped buffer at `B7` and left at `B8`. -/
def reg1 : Pipeline.RegionSeg (pcfgs (F := Ideal)) adm (pdats m) () defs₀ noVar noL noLv 1 where
  win := launch1.win.to₀
  block_pos := launch1.block_pos
  stage_whole := launch1.stage_whole
  K := PEmpty
  osem k := k.elim
  ho := Pipeline.OwnSemFacts.none _
  hbody c := (obligation1 (atTc (B7 m)) c).loose
  hwaits := Pipeline.hwaits_of_owed_zero _ _ _ _ noL noLv 1 fun _ _ => rfl
  pre c := iprop(StableHlo.held (c : Thread nD τ) (Pipeline.ucRefs τ sig) (B7 m c) ∗ ride c)
  post c := iprop(StableHlo.held (c : Thread nD τ) (Pipeline.ucRefs τ sig) (B8 m c) ∗ ride c)
  X c := iprop(∃ r, prngReg c r)
  Y c := iprop(∃ r, prngReg c r)
  Z c := Pipeline.unscopedRest (Ix := Unit) (Name := ℕ) (U := UR sig nD τ) (Lvl := ℕ) spec1 c (atTc (B7 m) c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (atTc (B7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (atTc (B7 m) c) (atTc (B8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The decoder's arrays at the grid's last point are the buffers' contents at `B10`: z, an input of both its
    windows, as entered; the result at what the write-backs leave. -/
theorem hF2 (c : Dev nD) (w : Fin cfg2.W) :
    (dat2 (atTc (B9 m)) c).arrAt w cfg2.N = atTc (B10 m) c (Pipeline.arrRef spec2 w) := by
  match w with
  | ⟨0, _⟩ =>
    exact ((dat2 (atTc (B9 m)) c).arrAt_in 0 rfl _).trans <| (dat2_A _ c 0).trans (B10_of_ne m c main_v49 (by decide)).symm
  | ⟨1, _⟩ =>
    exact ((dat2 (atTc (B9 m)) c).arrAt_in 1 rfl _).trans <| (dat2_A _ c 1).trans (B10_of_ne m c main_v49 (by decide)).symm
  | ⟨2, _⟩ => exact (B10_out m c).symm

/-- Off the decoder's arrays `B10` is `B9`. -/
theorem hrest2 (c : Dev nD) : ∀ b, b ∉ Finset.univ.image (Pipeline.arrRef spec2) → atTc (B10 m) c b = atTc (B9 m) c b :=
  fun b hb => B10_of_ne m c b fun e => hb (Finset.mem_image.mpr ⟨2, Finset.mem_univ _, e.symm⟩)

set_option backward.isDefEq.respectTransparency.types false in
/-- The decoder's region, entered from every unscoped buffer at `B9` and left at `B10`, beside the core owing nothing. -/
def reg2 : Pipeline.RegionSeg (pcfgs (F := Ideal)) adm (pdats m) () defs₀ noVar noL noLv 2 where
  win := winFacts₀2
  block_pos := block_pos2
  stage_whole := stage_whole2
  K := PEmpty
  osem k := k.elim
  ho := Pipeline.OwnSemFacts.none _
  hbody c := obligation2 (atTc (B9 m)) c
  hwaits := Pipeline.hwaits_of_owed_zero _ _ _ _ noL noLv 2 fun _ _ => rfl
  pre c := iprop(StableHlo.held (c : Thread nD τ) (Pipeline.ucRefs τ sig) (B9 m c) ∗ ride c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (atTc (B9 m) c)
  hentry c := by
    rw [Pipeline.ownSems0_none]
    have hsplit : (StableHlo.held (c : Thread nD τ) (Pipeline.ucRefs τ sig) (B9 m c) : sProp 𝕄)
        ⊢ iprop((pdats m 2 c).arrays ((pdats m 2 c).arrAt · 0)
            ∗ Pipeline.unscopedRest (Ix := Unit) (Name := ℕ) (U := UR sig nD τ) (Lvl := ℕ) spec2 c (atTc (B9 m) c)) := by
      rw [← Pipeline.unscopedBufs_held,
        Pipeline.unscopedBufs_split₀ (cfgs := fun p => Pipeline.pin (pcfgs (F := Ideal)) adm p) (p := (2 : Fin 3)) winFacts₀2.arr_unscoped c (atTc (B9 m) c)]
      exact sep_mono (arrays2_of_bufs (dat2 (atTc (B9 m)) c) (dat2_q0 _ c) (dat2_q1 _ c) (atTc (B9 m) c) _ fun w => dat2_A _ c w) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N)
          ∗ Pipeline.unscopedRest (Ix := Unit) (Name := ℕ) (U := UR sig nD τ) (Lvl := ℕ) spec2 c (atTc (B9 m) c))
        ⊢ (StableHlo.held (c : Thread nD τ) (Pipeline.ucRefs τ sig) (B10 m c) : sProp 𝕄) := by
      rw [← Pipeline.unscopedBufs_held,
        Pipeline.unscopedBufs_split₀ (cfgs := fun p => Pipeline.pin (pcfgs (F := Ideal)) adm p) (p := (2 : Fin 3)) winFacts₀2.arr_unscoped c (atTc (B10 m) c)]
      refine sep_mono (bufs_of_arrays2 (dat2 (atTc (B9 m)) c) (dat2_q0 _ c) (dat2_q1 _ c) (atTc (B10 m) c) _ (hF2 m c)) (Entails.of_eq ?_)
      unfold Pipeline.unscopedRest
      exact bigSep_congr fun b hb => by rw [hrest2 m c b (Finset.mem_sdiff.mp hb).2]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := Ideal)) adm (pdats m) () defs₀ noVar noL noLv) :=
  [ .host (hostSeg hostOps0 hostOps0_sub hostOps0_fresh (Gen.V0 m)),
    .host (hostSeg hostOps0_1 hostOps0_1_sub hostOps0_1_fresh (Gen.V1 m)),
    .host (hostSeg hostOps0_2 hostOps0_2_sub hostOps0_2_fresh (Gen.V2 m)),
    .host (hostSeg hostOps0_3 hostOps0_3_sub hostOps0_3_fresh (Gen.V3 m)),
    .host (hostSeg hostOps0_4 hostOps0_4_sub hostOps0_4_fresh (Gen.V4 m)),
    .region (reg0 m),
    .host (hostSeg hostOps1 hostOps1_sub hostOps1_fresh (B6 m)),
    .region (reg1 m),
    .host (hostSeg hostOps2 hostOps2_sub hostOps2_fresh (B8 m)),
    .region (reg2 m) ]

/-- @main IS the run of the segments. -/
theorem main_run (c : Dev nD) : main (F := Ideal) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and every unscoped buffer of every core ends at `B10`. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := Ideal)) adm (pdats m) () cellOf_inj emb₁ defs₀ noVar noL noLv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ ride c)) (Tₙ := lastState m)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noL noLv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h c => h c)

end Cert.KernelIdeal.Hand

end
-- ==== Proof.V.HostInvOut.lean ====
/-
  The column of inverse square roots of the clamped out-degrees, which the kernel program computes once before its
  first region and keeps for its second aggregation, is the column the reference's second layer recomputes: the same
  host operations on the same source indices.
-/
import proofs.«140900_j10024453669132_1_alg».proof.Proof.KI.Run
import proofs.«140900_j10024453669132_1_alg».proof.Proof.Gen.ReferenceIdeal.Read
import Idealize.ShloMosaic.Lib.StableHlo.Run

set_option maxRecDepth 16384
set_option maxHeartbeats 8000000

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The column of inverse square roots of the clamped out-degrees is the reference's (as its second layer recomputes it). -/
theorem inv_out (c : Dev nD) :
    B5 m c (Proc.devRef .tc main_v10) = Cert.ReferenceIdeal.Read.val_main_v42 (F := Ideal) (m ((c : Thread nD τ).loc main_arg1)) := by
  show StableHlo.after hostOps0_4 (Gen.V4 m c) (Proc.devRef .tc main_v10) = _
  dsimp only [hostOps0_4]
  after_results
  -- the outlined clamp's contents pass through type transports along reflexive equations: drop them
  simp only [cast_eq, id_eq]
  rfl

end Cert.KernelIdeal.Hand

end
-- ==== Proof.V.HostInvIn.lean ====
/-
  The column of inverse square roots of the clamped in-degrees, which the kernel program computes once before its
  first region and keeps for its second aggregation, is the column the reference's second layer recomputes: the same
  host operations on the same destination indices.
-/
import proofs.«140900_j10024453669132_1_alg».proof.Proof.KI.Run
import proofs.«140900_j10024453669132_1_alg».proof.Proof.V.HostInvOut
import proofs.«140900_j10024453669132_1_alg».proof.Proof.Gen.ReferenceIdeal.Read
import Idealize.ShloMosaic.Lib.StableHlo.Run

set_option maxRecDepth 16384
set_option maxHeartbeats 8000000

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The column of inverse square roots of the clamped in-degrees is the reference's. -/
theorem inv_in (c : Dev nD) :
    B5 m c (Proc.devRef .tc main_v12) = Cert.ReferenceIdeal.Read.val_main_v56 (F := Ideal) (m ((c : Thread nD τ).loc main_arg2)) := by
  show StableHlo.after hostOps0_4 (Gen.V4 m c) (Proc.devRef .tc main_v12) = _
  dsimp only [hostOps0_4]
  after_results
  -- the outlined clamp's contents pass through type transports along reflexive equations: drop them
  simp only [cast_eq, id_eq]
  rfl

end Cert.KernelIdeal.Hand

end
-- ==== Proof.V.HostAgg.lean ====
/-
  The kernel program's host operations before its first region, read against the reference's stages: with the same
  arguments, the row-scaled aggregate of the features that the first dense region is entered with IS the reference's
  (the same host operations in the same order: degrees by scatter-add of ones, clamped at one, inverse square roots,
  the source rows scaled, gathered along the edges, scatter-added at their destinations, the sums scaled).
-/
import proofs.«140900_j10024453669132_1_alg».proof.Proof.KI.Run
import proofs.«140900_j10024453669132_1_alg».proof.Proof.V.HostInvIn
import proofs.«140900_j10024453669132_1_alg».proof.Proof.Gen.ReferenceIdeal.Read
import Idealize.ShloMosaic.Lib.StableHlo.Run

set_option maxRecDepth 16384
set_option maxHeartbeats 8000000

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The aggregated features the first dense region reads are the reference's. -/
theorem agg_features (c : Dev nD) :
    B5 m c (Proc.devRef .tc main_v26)
      = Cert.ReferenceIdeal.Read.val_main_v26 (F := Ideal) (m ((c : Thread nD τ).loc main_arg0)) (m ((c : Thread nD τ).loc main_arg1))
          (m ((c : Thread nD τ).loc main_arg2)) := by
  show StableHlo.after hostOps0_4 (Gen.V4 m c) (Proc.devRef .tc main_v26) = _
  dsimp only [hostOps0_4]
  after_results
  -- the outlined clamp's contents pass through type transports along reflexive equations: drop them
  simp only [cast_eq, id_eq]
  rfl

end Cert.KernelIdeal.Hand

end
-- ==== Proof.V.Spec.lean ====
/-
  What the three kernel regions compute, written with the reference program's own host operations over whole
  arrays: the first graph-convolution layer's projection relu (a · w + b); a head's projection a · w + b (the mean's
  and the log-deviation's alike); and the inner-product decoder 1 / (1 + exp (−(z · zᵀ))). Each kernel region's
  result array is shown equal to one of these of the region's input arrays; the reference's stages are these by
  definition.
-/
import proofs.«140900_j10024453669132_1_alg».proof.ReferenceIdeal
import proofs.«140900_j10024453669132_1_alg».proof.Proof.Gen.ReferenceIdeal

noncomputable section

namespace Cert.Proof.Spec

open Cert.ReferenceIdeal Cert.ReferenceIdeal.Gen Idealize.ShloMosaic

variable {F : FTy → Type} [FloatOps F]

/-- relu (a · w + b): 10000 x 512 by 512 x 256, the bias along the rows. -/
def layer1 (a : (⟨S10000x512, .f32⟩ : BufTy).Contents (Elt F)) (w : (⟨S512x256, .f32⟩ : BufTy).Contents (Elt F))
    (b : (⟨S256, .f32⟩ : BufTy).Contents (Elt F)) : (⟨S10000x256, .f32⟩ : BufTy).Contents (Elt F) :=
  maximumf
    (addf (Host.dotGeneral dot_S10000x512_S512x256_S10000x256_1_0_0_1_n_n none a w)
      (broadcastInDim S10000x256 ![0, 1] bcast_S1x256_S10000x256_0_1 (broadcastInDim S1x256 ![1] bcast_S256_S1x256_1 b)))
    (broadcastInDim S10000x256 ![] bcast_S_S10000x256 (constant S_ .f32 0x00000000#32))

/-- a · w + b: 10000 x 256 by 256 x 128, the bias along the rows. -/
def head (a : (⟨S10000x256, .f32⟩ : BufTy).Contents (Elt F)) (w : (⟨S256x128, .f32⟩ : BufTy).Contents (Elt F))
    (b : (⟨S128, .f32⟩ : BufTy).Contents (Elt F)) : (⟨S10000x128, .f32⟩ : BufTy).Contents (Elt F) :=
  addf (Host.dotGeneral dot_S10000x256_S256x128_S10000x128_1_0_0_1_n_n none a w)
    (broadcastInDim S10000x128 ![0, 1] bcast_S1x128_S10000x128_0_1 (broadcastInDim S1x128 ![1] bcast_S128_S1x128_1 b))

/-- 1 / (1 + exp (−(z · zᵀ))), entry by entry of the 10000 x 10000 product. -/
def decode (z : (⟨S10000x128, .f32⟩ : BufTy).Contents (Elt F)) : (⟨S10000x10000, .f32⟩ : BufTy).Contents (Elt F) :=
  Host.divf (broadcastInDim S10000x10000 ![] bcast_S_S10000x10000 (constant S_ .f32 0x3F800000#32))
    (addf (broadcastInDim S10000x10000 ![] bcast_S_S10000x10000 (constant S_ .f32 0x3F800000#32))
      (Host.exp (Host.negf (Host.dotGeneral dot_S10000x128_S128x10000_S10000x10000_1_0_0_1_n_n none z
        (transpose S128x10000 [1, 0] z transposes_S10000x128_S128x10000_1_0)))))

end Cert.Proof.Spec

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.V.Final0.lean ====
/-
  The first dense region's result array after the run, at the extended reals: the ten row blocks the region writes
  back piece together relu (a · w + b) of the arrays the region was entered with — block t is rows 1000 t .. of it,
  and the ten blocks cover the 10000 rows.
-/
import proofs.«140900_j10024453669132_1_alg».proof.Proof.KI.DenseFirst
import proofs.«140900_j10024453669132_1_alg».proof.Proof.V.Spec
import proofs.«140900_j10024453669132_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

namespace FirstLayer

/-! ## Both sides at an entry -/

/-- The first dense layer's dot record is the plain [1000, 512] · [512, 256] product. -/
theorem dot0_plain : dot_S1000x512_S512x256_S1000x256_1_0_0_1_n_n = DotDims.plain 1000 512 256 := rfl

/-- The body's payload at entry (p, q) of its block: max (∑ k, x (p, k) · w (k, q) + b q, 0). At the extended
    reals the narrowing to bf16 is the identity and the accumulator's zero word is 0. -/
theorem pay0_at (x : Vec Ideal S1000x512 .f32) (w : Vec Ideal S512x256 .f32) (b : Vec Ideal S256 .f32) (p : Fin 1000) (q : Fin 256) :
    k0_pay1 (F := Ideal) x w b (ix2 p q) = max ((∑ k : Fin 512, x (ix2 p k) * w (ix2 k q)) + b (ix1 q)) 0 := by
  unfold k0_pay1
  rw [maximumf_apply, addf_apply, broadcast_apply, dot0_plain, MatmulPlain.matmul_zero_apply,
    broadcastTo_1b_ab_apply, shapeCast_a_1a_apply, shapeCast_self,
    show (FloatOps.ofBits FTy.f32 0x00000000#32 : Ideal .f32) = 0 from Ideal.ofBits_zero_f32]
  simp only [truncf_apply]

/-- The host's plain product read at entry (p, q): the same finite sum as the kernel's into a zero accumulator. -/
theorem hostDot_plain_at {M K N : ℕ} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans
    ((Ideal.matmul_constant_zero_apply _ prec l r _).symm.trans (MatmulPlain.matmul_zero_apply prec l r p q))

/-- The reference's dot record for the first layer is the plain [10000, 512] · [512, 256] product. -/
theorem refDot0_plain : Cert.ReferenceIdeal.dot_S10000x512_S512x256_S10000x256_1_0_0_1_n_n = DotDims.plain 10000 512 256 := rfl

/-- The reference's first layer at entry (r, q): max (∑ k, A (r, k) · W (k, q) + B q, 0); the bias reaches the
    rows through a [1, 256] row, the zero through a scalar. -/
theorem layer1_at (A : Vec Ideal S10000x512 .f32) (W : Vec Ideal S512x256 .f32) (B : Vec Ideal S256 .f32) (r : Fin 10000) (q : Fin 256) :
    Cert.Proof.Spec.layer1 (F := Ideal) A W B (ix2 r q) = max ((∑ k : Fin 512, A (ix2 r k) * W (ix2 k q)) + B (ix1 q)) 0 := by
  unfold Cert.Proof.Spec.layer1
  rw [maximumf_apply, addf_apply]
  simp only [Host.dotGeneral]
  rw [refDot0_plain, hostDot_plain_at]
  -- the bias row spread over the 10000 rows
  rw [broadcastInDim_apply ![0, 1] Cert.ReferenceIdeal.Gen.bcast_S1x256_S10000x256_0_1 _ (ix2 r q) (ix2 (0 : Fin 1) q)
      (fun a => match a with
        | ⟨0, _⟩ => by show (0 : ℕ) = if (1 : ℕ) = 1 then 0 else _; rw [if_pos rfl]
        | ⟨1, _⟩ => by show q.val = if (256 : ℕ) = 1 then 0 else q.val; rw [if_neg (by decide)]),
    broadcastInDim_apply ![1] Cert.ReferenceIdeal.Gen.bcast_S256_S1x256_1 B (ix2 (0 : Fin 1) q) (ix1 q)
      (fun a => match a with
        | ⟨0, _⟩ => by show q.val = if (256 : ℕ) = 1 then 0 else q.val; rw [if_neg (by decide)]),
    broadcastInDim_apply ![] Cert.ReferenceIdeal.Gen.bcast_S_S10000x256 _ (ix2 r q) ix0 (fun a => a.elim0),
    constant_apply, Ideal.ofBits_zero_f32]

/-! ## Where each window's block sits in its array -/

/-- The printed index maps over the ten points: the aggregate's and the result's row block is the point's number,
    the weight and the bias are one block, never moving. -/
theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of point `t`'s block is row 1000 t + p of the array. -/
def row0 (t : Fin cfg0.N) (p : Fin 1000) : Fin 10000 :=
  ⟨1000 * t.val + p.val, by have h : t.val < grid0.N := t.isLt; rw [N_0] at h; have := p.isLt; omega⟩

theorem zeros2 : (![0, 0] : Fin 2 → ℕ) = fun _ => 0 := funext fun a => match a with | ⟨0, _⟩ => rfl | ⟨1, _⟩ => rfl
theorem zeros1 : (![0] : Fin 1 → ℕ) = fun _ => 0 := funext fun a => match a with | ⟨0, _⟩ => rfl

/-- Where the result's block at `t` sits in the result array. -/
theorem at3 (t : Fin cfg0.N) (p : Fin 1000) (q : Fin 256) :
    ((cfg0.win 3).blk t).view.emb (ix2 p q : S1000x256.Idx) = (ix2 (row0 t p) q : S10000x256.Idx) := by
  obtain ⟨-, -, -, -, -, e0, e1⟩ := idx0_facts t
  funext a; apply Fin.ext
  match a with
  | ⟨0, _⟩ =>
    refine (win0_3.rect_emb_val t (ix2 p q : S1000x256.Idx) 0).trans ?_
    rw [e0]; show t.val * 1000 + p.val = 1000 * t.val + p.val; omega
  | ⟨1, _⟩ =>
    refine (win0_3.rect_emb_val t (ix2 p q : S1000x256.Idx) 1).trans ?_
    rw [e1]; show 0 * 256 + q.val = q.val; omega

/-- Where the aggregate's block at `t` sits in the aggregate. -/
theorem at0 (t : Fin cfg0.N) (p : Fin 1000) (k : Fin 512) :
    ((cfg0.win 0).blk t).view.emb (ix2 p k : S1000x512.Idx) = (ix2 (row0 t p) k : S10000x512.Idx) := by
  obtain ⟨e0, e1, -⟩ := idx0_facts t
  funext a; apply Fin.ext
  match a with
  | ⟨0, _⟩ =>
    refine (win0_0.rect_emb_val t (ix2 p k : S1000x512.Idx) 0).trans ?_
    rw [e0]; show t.val * 1000 + p.val = 1000 * t.val + p.val; omega
  | ⟨1, _⟩ =>
    refine (win0_0.rect_emb_val t (ix2 p k : S1000x512.Idx) 1).trans ?_
    rw [e1]; show 0 * 512 + k.val = k.val; omega

/-- The weight's one block is the weight. -/
theorem at1 (t : Fin cfg0.N) (k : Fin 512) (q : Fin 256) :
    ((cfg0.win 1).blk t).view.emb (ix2 k q : S512x256.Idx) = (ix2 k q : S512x256.Idx) := by
  obtain ⟨-, -, e0, e1, -⟩ := idx0_facts t
  funext a; apply Fin.ext
  match a with
  | ⟨0, _⟩ =>
    refine (win0_1.rect_emb_val t (ix2 k q : S512x256.Idx) 0).trans ?_
    rw [e0]; show 0 * 512 + k.val = k.val; omega
  | ⟨1, _⟩ =>
    refine (win0_1.rect_emb_val t (ix2 k q : S512x256.Idx) 1).trans ?_
    rw [e1]; show 0 * 256 + q.val = q.val; omega

/-- The bias's one block is the bias. -/
theorem at2 (t : Fin cfg0.N) (q : Fin 256) :
    ((cfg0.win 2).blk t).view.emb (ix1 q : S256.Idx) = (ix1 q : S256.Idx) := by
  obtain ⟨-, -, -, -, e0, -⟩ := idx0_facts t
  funext a; apply Fin.ext
  match a with
  | ⟨0, _⟩ =>
    refine (win0_2.rect_emb_val t (ix1 q : S256.Idx) 0).trans ?_
    rw [e0]; show 0 * 256 + q.val = q.val; omega

/-! ## What a point writes back -/

/-- The aggregate's block at `t` read at (p, k) is the aggregate at (1000 t + p, k). -/
theorem in0_at (c : Dev nD) (t : Fin cfg0.N) (p : Fin 1000) (k : Fin 512) :
    (blk0 V c 0 t : Vec Ideal S1000x512 .f32) (ix2 p k) = (V c main_v26 : Vec Ideal S10000x512 .f32) (ix2 (row0 t p) k) := by
  show (V c main_v26 : Vec Ideal S10000x512 .f32) (((cfg0.win 0).blk t).view.emb (ix2 p k : S1000x512.Idx)) = _
  rw [at0]

/-- The weight's block at any point is the weight. -/
theorem in1_at (c : Dev nD) (t : Fin cfg0.N) (k : Fin 512) (q : Fin 256) :
    (blk0 V c 1 t : Vec Ideal S512x256 .f32) (ix2 k q) = (V c main_arg4 : Vec Ideal S512x256 .f32) (ix2 k q) := by
  show (V c main_arg4 : Vec Ideal S512x256 .f32) (((cfg0.win 1).blk t).view.emb (ix2 k q : S512x256.Idx)) = _
  rw [at1]

/-- The bias's block at any point is the bias. -/
theorem in2_at (c : Dev nD) (t : Fin cfg0.N) (q : Fin 256) :
    (blk0 V c 2 t : Vec Ideal S256 .f32) (ix1 q) = (V c main_arg5 : Vec Ideal S256 .f32) (ix1 q) := by
  show (V c main_arg5 : Vec Ideal S256 .f32) (((cfg0.win 2).blk t).view.emb (ix1 q : S256.Idx)) = _
  rw [at2]

/-- What point `t` writes back is block `t` of relu (a · w + b) of the arrays as entered. -/
theorem flushed0_eq (c : Dev nD) (t : Fin cfg0.N) :
    (dat0 (F := Ideal) V c).flushed 3 t
      = ((cfg0.win 3).blk t).view.read (Elt Ideal)
          (Cert.Proof.Spec.layer1 (F := Ideal) (V c main_v26) (V c main_arg4) (V c main_arg5)) := by
  show (cfg0.win 3).cut (grid0.coords t) ((dat0 V c).after 3 t) = _
  rw [dat0_after3]
  unfold denseRelu
  rw [View.canon_unit_zero zeros2]
  simp only [View.ld_unit_zero (S := S1000x512) zeros2, View.ld_unit_zero (S := S512x256) zeros2,
    View.ld_unit_zero (S := S256) zeros1]
  funext j
  obtain ⟨p, q, rfl⟩ : ∃ (p : Fin 1000) (q : Fin 256), j = ix2 p q := ⟨j 0, j 1, eq_ix2 j⟩
  refine (pay0_at (blk0 V c 0 t) (blk0 V c 1 t) (blk0 V c 2 t) p q).trans ?_
  refine Eq.trans ?_ (congrArg (Cert.Proof.Spec.layer1 (F := Ideal) (V c main_v26) (V c main_arg4) (V c main_arg5)) (at3 t p q)).symm
  rw [layer1_at]
  simp only [in0_at, in1_at, in2_at]

/-! ## The ten blocks cover the result -/

/-- An index of the result array is in point `t`'s block iff each coordinate is in the block's range on its axis. -/
theorem mem3 (t : Fin cfg0.N) (i : S10000x256.Idx) :
    i ∈ ((cfg0.win 3).blk t).view.set ↔ ∀ a : Fin 2, win0_3.index t a * S1000x256.size a ≤ (i a).val
      ∧ (i a).val < win0_3.index t a * S1000x256.size a + S1000x256.size a := by
  show i ∈ ((View.whole main_v27).slice (win0_3.rect t)).set ↔ _
  rw [View.set_slice_whole, Rect.mem_set_unit]
  exact Iff.rfl

/-- Every index of the result array is in some point's block: row r is in block r / 1000. -/
theorem covered3 (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ : ∃ t : Fin cfg0.N, t.val = (i 0).val / 1000 :=
    ⟨⟨(i 0).val / 1000, by show (i 0).val / 1000 < grid0.N; rw [N_0]; omega⟩, rfl⟩
  obtain ⟨-, -, -, -, -, e0, e1⟩ := idx0_facts t
  refine ⟨t, flush0_3 t, ?_⟩
  rw [mem3]
  intro a
  match a with
  | ⟨0, _⟩ =>
    show win0_3.index t (0 : Fin 2) * 1000 ≤ (i 0).val ∧ (i 0).val < win0_3.index t (0 : Fin 2) * 1000 + 1000
    rw [e0, ht]; omega
  | ⟨1, _⟩ =>
    show win0_3.index t (1 : Fin 2) * 256 ≤ (i 1).val ∧ (i 1).val < win0_3.index t (1 : Fin 2) * 256 + 256
    rw [e1]; omega

end FirstLayer

/-- After the region's last point its result array holds relu (a · w + b), a = its first operand's array (main_v26),
    w and b the first layer's weight and bias (main_arg4, main_arg5), as the region was entered. -/
theorem final0 (c : Dev nD) :
    (dat0 (F := Ideal) V c).arrAt 3 cfg0.N
      = Cert.Proof.Spec.layer1 (F := Ideal) (V c main_v26) (V c main_arg4) (V c main_arg5) :=
  (dat0 (F := Ideal) V c).arrAt_eq_of_cover 3 _ (fun t _ => FirstLayer.flushed0_eq V c t) FirstLayer.covered3

end Cert.KernelIdeal.Hand

end
-- ==== Proof.V.RefStages.lean ====
/-
  The reference's stages are the three functions of Spec applied to earlier stages: by definition the first layer's
  output is relu (agg · w1 + b1) of the aggregated features, the mean and the log-deviation are a · w + b of the
  aggregated hidden layer with their own weight and bias, the latent z is mean + noise · exp (log-deviation), and the
  result is the decoder of z. The reference aggregates the hidden layer twice, once per head, with the same
  operations on the same arguments: the two aggregates are one array.
-/
import proofs.«140900_j10024453669132_1_alg».proof.Proof.Gen.ReferenceIdeal.Read
import proofs.«140900_j10024453669132_1_alg».proof.Proof.V.Spec

noncomputable section

namespace Cert.Proof.RefStages

open Cert.ReferenceIdeal Cert.ReferenceIdeal.Gen Cert.ReferenceIdeal.Read Cert.Proof.Spec Idealize.ShloMosaic

variable (x0 : (⟨S10000x512, .f32⟩ : BufTy).Contents (Elt Ideal)) (x1 x2 : (⟨S320000, .i32⟩ : BufTy).Contents (Elt Ideal))
  (x3 : (⟨S10000x128, .f32⟩ : BufTy).Contents (Elt Ideal)) (x4 : (⟨S512x256, .f32⟩ : BufTy).Contents (Elt Ideal))
  (x5 : (⟨S256, .f32⟩ : BufTy).Contents (Elt Ideal)) (x6 : (⟨S256x128, .f32⟩ : BufTy).Contents (Elt Ideal))
  (x7 : (⟨S128, .f32⟩ : BufTy).Contents (Elt Ideal)) (x8 : (⟨S256x128, .f32⟩ : BufTy).Contents (Elt Ideal))
  (x9 : (⟨S128, .f32⟩ : BufTy).Contents (Elt Ideal))

/-- The hidden layer is relu (agg · w1 + b1) of the aggregated features. -/
theorem hidden_eq : val_main_v31 (F := Ideal) x0 x1 x2 x4 x5 = layer1 (val_main_v26 (F := Ideal) x0 x1 x2) x4 x5 := rfl

/-- The mean is a · w2 + b2 of the aggregated hidden layer. -/
theorem mean_eq : val_main_v62 (F := Ideal) x0 x1 x2 x4 x5 x6 x7 = head (val_main_v58 (F := Ideal) x0 x1 x2 x4 x5) x6 x7 := rfl

/-- The log-deviation is a · w3 + b3 of the hidden layer aggregated a second time. -/
theorem logstd_eq : val_main_v93 (F := Ideal) x0 x1 x2 x4 x5 x8 x9 = head (val_main_v89 (F := Ideal) x0 x1 x2 x4 x5) x8 x9 := rfl

/-- The second aggregation of the hidden layer is the first: the same operations on the same arrays. -/
theorem agg_twice : val_main_v89 (F := Ideal) x0 x1 x2 x4 x5 = val_main_v58 (F := Ideal) x0 x1 x2 x4 x5 := rfl

/-- The latent is mean + noise · exp (log-deviation). -/
theorem latent_eq :
    addf (F := Ideal) (s := S10000x128) (φ := .f32) (val_main_v62 (F := Ideal) x0 x1 x2 x4 x5 x6 x7)
        (mulf (F := Ideal) (s := S10000x128) (φ := .f32) x3 (Host.exp (val_main_v93 (F := Ideal) x0 x1 x2 x4 x5 x8 x9)))
      = val_main_v96 (F := Ideal) x0 x1 x2 x3 x4 x5 x6 x7 x8 x9 := rfl

/-- The result is the decoder of the latent. -/
theorem result_eq : val_main_v104 (F := Ideal) x0 x1 x2 x3 x4 x5 x6 x7 x8 x9
    = decode (val_main_v96 (F := Ideal) x0 x1 x2 x3 x4 x5 x6 x7 x8 x9) := rfl

end Cert.Proof.RefStages

end
-- ==== Proof.V.HostSecond.lean ====
/-
  After the first dense region: its result array is the reference's hidden layer, and the host operations that
  follow — the hidden rows scaled by the kept out-degree column, gathered along the edges, scatter-added at their
  destinations, the sums scaled by the kept in-degree column; the two heads' weights laid side by side and their
  biases end to end — give the second dense region the reference's aggregated hidden layer as its first operand and
  the two concatenations as its weight and bias.
-/
import proofs.«140900_j10024453669132_1_alg».proof.Proof.V.HostAgg
import proofs.«140900_j10024453669132_1_alg».proof.Proof.V.HostInvOut
import proofs.«140900_j10024453669132_1_alg».proof.Proof.V.HostInvIn
import proofs.«140900_j10024453669132_1_alg».proof.Proof.V.Final0
import proofs.«140900_j10024453669132_1_alg».proof.Proof.V.RefStages

set_option maxRecDepth 16384
set_option maxHeartbeats 8000000

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- An argument array is still as launched when the first region is entered. -/
theorem B5_arg (c : Dev nD) (r : Ref sig .tc) (h0 : r ∉ hostOps0_W) (h1 : r ∉ hostOps0_1_W) (h2 : r ∉ hostOps0_2_W)
    (h3 : r ∉ hostOps0_3_W) (h4 : r ∉ hostOps0_4_W) : B5 m c (Proc.devRef .tc r) = m ((c : Thread nD τ).loc r) :=
  (Gen.V5_of m c r h4).trans <| (Gen.V4_of m c r h3).trans <| (Gen.V3_of m c r h2).trans <| (Gen.V2_of m c r h1).trans <| (Gen.V1_of m c r h0).trans rfl

/-- The first region's result array is the reference's hidden layer. -/
theorem hidden_at (c : Dev nD) :
    B6 m c (Proc.devRef .tc main_v27)
      = Cert.ReferenceIdeal.Read.val_main_v31 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  have h := final0 (atTc (B5 m)) c
  rw [show atTc (B5 m) c main_v26 = B5 m c (Proc.devRef .tc main_v26) from rfl, agg_features m c,
    show atTc (B5 m) c main_arg4 = B5 m c (Proc.devRef .tc main_arg4) from rfl, B5_arg m c main_arg4 (by decide) (by decide) (by decide) (by decide) (by decide),
    show atTc (B5 m) c main_arg5 = B5 m c (Proc.devRef .tc main_arg5) from rfl, B5_arg m c main_arg5 (by decide) (by decide) (by decide) (by decide) (by decide)] at h
  exact (B6_arr m c 3).trans (h.trans (Cert.Proof.RefStages.hidden_eq _ _ _ _ _).symm)

/-- A reference the first region does not write holds after it what it held before. -/
theorem B6_keep (c : Dev nD) (r : Ref sig .tc) (h : r ≠ main_v27) (hin : ∀ w, Pipeline.arrRef spec0 w = r → (cfg0.win w).isOut = false) :
    B6 m c (Proc.devRef .tc r) = B5 m c (Proc.devRef .tc r) := by
  by_cases hw : ∃ w, Pipeline.arrRef spec0 w = r
  · obtain ⟨w, rfl⟩ := hw
    rw [B6_arr, (dat0 (atTc (B5 m)) c).arrAt_in w (hin w rfl) _, dat0_A]
  · exact B6_of_ne m c r fun w e => hw ⟨w, e⟩

/-- The second dense region's first operand is the reference's aggregated hidden layer. -/
theorem agg_hidden (c : Dev nD) :
    B7 m c (Proc.devRef .tc main_v41)
      = Cert.ReferenceIdeal.Read.val_main_v58 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  have e27 := hidden_at m c
  have e10 : B6 m c (Proc.devRef .tc main_v10) = _ := (B6_keep m c main_v10 (by decide) (by decide)).trans (inv_out m c)
  have e12 : B6 m c (Proc.devRef .tc main_v12) = _ := (B6_keep m c main_v12 (by decide) (by decide)).trans (inv_in m c)
  have e1 : B6 m c (Proc.devRef .tc main_arg1) = _ :=
    (B6_keep m c main_arg1 (by decide) (by decide)).trans (B5_arg m c main_arg1 (by decide) (by decide) (by decide) (by decide) (by decide))
  have e2 : B6 m c (Proc.devRef .tc main_arg2) = _ :=
    (B6_keep m c main_arg2 (by decide) (by decide)).trans (B5_arg m c main_arg2 (by decide) (by decide) (by decide) (by decide) (by decide))
  show StableHlo.after hostOps1 (B6 m c) (Proc.devRef .tc main_v41) = _
  dsimp only [hostOps1]
  after_results
  rw [e27, e10, e12, e1, e2]
  rfl

/-- Its weight operand is the two heads' weights side by side. -/
theorem weights_cat (c : Dev nD) :
    B7 m c (Proc.devRef .tc main_v42)
      = concatenate S256x256 1 [⟨S256x128, (m ((c : Thread nD τ).loc main_arg6))⟩, ⟨S256x128, (m ((c : Thread nD τ).loc main_arg8))⟩] concatenates_S256x128_S256x128_S256x256_d1 := by
  have e6 : B6 m c (Proc.devRef .tc main_arg6) = _ :=
    (B6_keep m c main_arg6 (by decide) (by decide)).trans (B5_arg m c main_arg6 (by decide) (by decide) (by decide) (by decide) (by decide))
  have e8 : B6 m c (Proc.devRef .tc main_arg8) = _ :=
    (B6_keep m c main_arg8 (by decide) (by decide)).trans (B5_arg m c main_arg8 (by decide) (by decide) (by decide) (by decide) (by decide))
  show StableHlo.after hostOps1 (B6 m c) (Proc.devRef .tc main_v42) = _
  dsimp only [hostOps1]
  after_results
  rw [e6, e8]

/-- Its bias operand is the two biases end to end. -/
theorem biases_cat (c : Dev nD) :
    B7 m c (Proc.devRef .tc main_v43)
      = concatenate S256 0 [⟨S128, (m ((c : Thread nD τ).loc main_arg7))⟩, ⟨S128, (m ((c : Thread nD τ).loc main_arg9))⟩] concatenates_S128_S128_S256_d0 := by
  have e7 : B6 m c (Proc.devRef .tc main_arg7) = _ :=
    (B6_keep m c main_arg7 (by decide) (by decide)).trans (B5_arg m c main_arg7 (by decide) (by decide) (by decide) (by decide) (by decide))
  have e9 : B6 m c (Proc.devRef .tc main_arg9) = _ :=
    (B6_keep m c main_arg9 (by decide) (by decide)).trans (B5_arg m c main_arg9 (by decide) (by decide) (by decide) (by decide) (by decide))
  show StableHlo.after hostOps1 (B6 m c) (Proc.devRef .tc main_v43) = _
  dsimp only [hostOps1]
  after_results
  rw [e7, e9]

end Cert.KernelIdeal.Hand

end
-- ==== Proof.V.Final1Pay.lean ====
/-
  The second dense region's payload read at one entry. The body casts its staged row block a (1000 x 256) and the
  weight w (256 x 256) to the narrow format (the identity at the extended reals), multiplies them into the zero
  accumulator and adds the bias b (256) viewed as one row and repeated down the 1000 rows. So entry (p, q) of what it
  stores is the sum over the 256 contracted positions k of a (p, k) · w (k, q), plus b q.
-/
import proofs.«140900_j10024453669132_1_alg».proof.Proof.Gen.KernelIdeal.Skeleton
import proofs.«140900_j10024453669132_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- The bias as the body lays it out: the 256-vector viewed as a 1 x 256 row and repeated over 1000 rows reads, at
    (p, q), the bias at q. -/
theorem biasRows1_apply (b : Vec Ideal S256 .f32) (p : Fin 1000) (q : Fin 256) :
    (broadcastTo S1000x256 (shapeCast S1x256 (shapeCast S256 b shapeCasts_S256_S256) shapeCasts_S256_S1x256)
        broadcasts_S1x256_S1000x256 : Vec Ideal S1000x256 .f32) (ix2 p q) = b (ix1 q) := by
  rw [shapeCast_self]
  refine (broadcastTo_1b_ab_apply _ broadcasts_S1x256_S1000x256 p q).trans ?_
  exact shapeCast_a_1a_apply b shapeCasts_S256_S1x256 (0 : Fin 1) q

/-- The product part: the two operands pass through the same-shape casts and the format change unchanged, and the
    product into the zero accumulator is the finite sum over the contracted coordinate. -/
theorem prod1_apply (x : Vec Ideal S1000x256 .f32) (w : Vec Ideal S256x256 .f32) (p : Fin 1000) (q : Fin 256) :
    matmul (F := Ideal) dot_S1000x256_S256x256_S1000x256_1_0_0_1_n_n none
        (truncf .bf16 (shapeCast S1000x256 x shapeCasts_S1000x256_S1000x256) bitsLt_bf16_f32)
        (truncf .bf16 (shapeCast S256x256 w shapeCasts_S256x256_S256x256) bitsLt_bf16_f32)
        (constant S1000x256 .f32 0x00000000#32) (ix2 p q)
      = ∑ k : Fin 256, x (ix2 p k) * w (ix2 k q) := by
  rw [shapeCast_self, shapeCast_self]
  exact MatmulPlain.matmul_zero_apply (M := 1000) (K := 256) (N := 256) none x w p q

/-- Entry (p, q) of the payload: Σ k, a (p, k) · w (k, q) + b q. -/
theorem pay1_apply (x : Vec Ideal S1000x256 .f32) (w : Vec Ideal S256x256 .f32) (b : Vec Ideal S256 .f32)
    (p : Fin 1000) (q : Fin 256) :
    k1_pay1 (F := Ideal) x w b (ix2 p q) = (∑ k : Fin 256, x (ix2 p k) * w (ix2 k q)) + b (ix1 q) := by
  unfold k1_pay1
  refine (addf_apply _ _ _).trans ?_
  rw [prod1_apply x w p q, biasRows1_apply b p q]

end Cert.KernelIdeal.Hand

end
-- ==== Proof.V.Final1Arr.lean ====
/-
  The second dense region's result array after the run, as ONE function of its three operand arrays: entry (r, q) is
  Σ k, a (r, k) · w (k, q) + b q. Point t of the ten-point grid writes back rows 1000 t .. 1000 t + 999, which its body
  computed from the same rows of a and the whole of w and b; the ten row blocks cover the 10000 rows.
-/
import proofs.«140900_j10024453669132_1_alg».proof.Proof.KI.DenseSecond
import proofs.«140900_j10024453669132_1_alg».proof.Proof.V.Final1Pay
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- a · w + b entry by entry: 10000 x 256 by 256 x 256, the bias along the rows. -/
def G1 (a : S10000x256.Idx → Elt Ideal .f32) (w : S256x256.Idx → Elt Ideal .f32) (b : S256.Idx → Elt Ideal .f32) :
    S10000x256.Idx → Elt Ideal .f32 :=
  fun i => (∑ k : Fin 256, a (ix2 (i 0 : Fin 10000) k) * w (ix2 k (i 1 : Fin 256))) + b (ix1 (i 1 : Fin 256))

/-- It at explicit coordinates. -/
theorem G1_apply (a : S10000x256.Idx → Elt Ideal .f32) (w : S256x256.Idx → Elt Ideal .f32) (b : S256.Idx → Elt Ideal .f32)
    (r : Fin 10000) (q : Fin 256) :
    G1 a w b (ix2 r q) = (∑ k : Fin 256, a (ix2 r k) * w (ix2 k q)) + b (ix1 q) := rfl

private theorem zeros2 : (![0, 0] : Fin 2 → Nat) = fun _ => 0 := funext fun a => by fin_cases a <;> rfl
private theorem zeros1 : (![0] : Fin 1 → Nat) = fun _ => 0 := funext fun a => by fin_cases a; rfl

/-- What the body leaves from three staged blocks, at entry (p, q): the one whole store leaves its payload, and the
    whole loads read the blocks. -/
theorem denseBias1_apply (a : Vec Ideal S1000x256 .f32) (w : Vec Ideal S256x256 .f32) (b : Vec Ideal S256 .f32)
    (p : Fin 1000) (q : Fin 256) :
    denseBias (F := Ideal) a w b (ix2 p q) = (∑ k : Fin 256, a (ix2 p k) * w (ix2 k q)) + b (ix1 q) := by
  unfold denseBias
  rw [View.canon_unit_zero zeros2, View.ld_unit_zero (S := S1000x256) zeros2, View.ld_unit_zero (S := S256x256) zeros2,
    View.ld_unit_zero (S := S256) zeros1]
  exact pay1_apply a w b p q

/-- The four windows' block indices over the grid: the row blocks of a and of the result move with the point, w and b
    stay at their one block. -/
private theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Point t's block of a is rows 1000 t .. of the array. -/
theorem blk1_0_apply (c : Dev nD) (t : Fin cfg1.N) (p : Fin 1000) (k : Fin 256) :
    blk1 (F := Ideal) V c 0 t (ix2 p k)
      = V c main_v41 (ix2 (⟨t.val * 1000 + p.val, by have := t.isLt; have ht : t.val < 10 := this; omega⟩ : Fin 10000) k) := by
  obtain ⟨e0, e1, -⟩ := idx_facts1 t
  show V c main_v41 (((cfg1.win 0).blk t).view.emb (ix2 p k)) = _
  refine congrArg (V c main_v41) ?_
  funext a; apply Fin.ext
  match a with
  | ⟨0, _⟩ => show win1_0.index t (0 : Fin 2) * 1000 + 1 * p.val = t.val * 1000 + p.val; omega
  | ⟨1, _⟩ => show win1_0.index t (1 : Fin 2) * 256 + 1 * k.val = k.val; omega

/-- Every point's block of w is the whole of it. -/
theorem blk1_1_apply (c : Dev nD) (t : Fin cfg1.N) (k : Fin 256) (q : Fin 256) :
    blk1 (F := Ideal) V c 1 t (ix2 k q) = V c main_v42 (ix2 k q) := by
  obtain ⟨-, -, e0, e1, -⟩ := idx_facts1 t
  show V c main_v42 (((cfg1.win 1).blk t).view.emb (ix2 k q)) = _
  refine congrArg (V c main_v42) ?_
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- Every point's block of b is the whole of it. -/
theorem blk1_2_apply (c : Dev nD) (t : Fin cfg1.N) (q : Fin 256) :
    blk1 (F := Ideal) V c 2 t (ix1 q) = V c main_v43 (ix1 q) := by
  obtain ⟨-, -, -, -, e0, -⟩ := idx_facts1 t
  show V c main_v43 (((cfg1.win 2).blk t).view.emb (ix1 q)) = _
  refine congrArg (V c main_v43) ?_
  funext a; apply Fin.ext
  match a with
  | ⟨0, _⟩ => show win1_2.index t (0 : Fin 1) * 256 + 1 * q.val = q.val; omega

/-- WHAT POINT t WRITES BACK is block t of G1 of the operand arrays as the region finds them. -/
theorem flushed1_eq (c : Dev nD) (t : Fin cfg1.N) :
    (dat1 (F := Ideal) V c).flushed 3 t
      = ((cfg1.win 3).blk t).view.read (Elt Ideal) (G1 (V c main_v41) (V c main_v42) (V c main_v43)) := by
  show (cfg1.win 3).cut (grid1.coords t) ((dat1 V c).after 3 t) = _
  rw [dat1_after3]
  funext j
  obtain ⟨p, q, rfl⟩ : ∃ (p : Fin 1000) (q : Fin 256), j = ix2 p q := ⟨j 0, j 1, eq_ix2 j⟩
  obtain ⟨-, -, -, -, -, e0, e1⟩ := idx_facts1 t
  have ht : t.val < 10 := t.isLt
  -- the entry's place in the array: row 1000 t + p, column q
  have hR : ((cfg1.win 3).blk t).view.read (Elt Ideal) (G1 (V c main_v41) (V c main_v42) (V c main_v43)) (ix2 p q)
      = G1 (V c main_v41) (V c main_v42) (V c main_v43) (ix2 (⟨t.val * 1000 + p.val, by omega⟩ : Fin 10000) q) := by
    show G1 (V c main_v41) (V c main_v42) (V c main_v43) (((cfg1.win 3).blk t).view.emb (ix2 p q)) = _
    refine congrArg (G1 (V c main_v41) (V c main_v42) (V c main_v43)) ?_
    funext a; apply Fin.ext
    match a with
    | ⟨0, _⟩ => show win1_3.index t (0 : Fin 2) * 1000 + 1 * p.val = t.val * 1000 + p.val; omega
    | ⟨1, _⟩ => show win1_3.index t (1 : Fin 2) * 256 + 1 * q.val = q.val; omega
  refine Eq.trans ?_ hR.symm
  refine (denseBias1_apply (blk1 V c 0 t) (blk1 V c 1 t) (blk1 V c 2 t) p q).trans ?_
  rw [G1_apply, blk1_2_apply]
  refine congrArg (· + V c main_v43 (ix1 q)) (Finset.sum_congr rfl fun k _ => ?_)
  rw [blk1_0_apply, blk1_1_apply]

/-- An index of the array is in point t's block iff each coordinate is in the block's range on its axis. -/
private theorem mem_blk1 (t : Fin cfg1.N) (i : S10000x256.Idx) :
    i ∈ ((cfg1.win 3).blk t).view.set ↔ ∀ a : Fin 2, win1_3.index t a * S1000x256.size a ≤ (i a).val
      ∧ (i a).val < win1_3.index t a * S1000x256.size a + S1000x256.size a := by
  show i ∈ ((View.whole main_v44).slice (win1_3.rect t)).set ↔ _
  rw [View.set_slice_whole, Rect.mem_set_unit]
  exact Iff.rfl

/-- Row r is in the block of point r / 1000: the ten row blocks cover the array. -/
private theorem cover1_arr (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hlt : (i 0).val / 1000 < 10 := by omega
  obtain ⟨-, -, -, -, -, e0, e1⟩ := idx_facts1 ⟨(i 0).val / 1000, hlt⟩
  have e0' : win1_3.index ⟨(i 0).val / 1000, hlt⟩ (0 : Fin 2) = (i 0).val / 1000 := e0
  refine ⟨⟨(i 0).val / 1000, hlt⟩, flush1_3 _, ?_⟩
  rw [mem_blk1]
  intro a
  match a with
  | ⟨0, _⟩ =>
    show win1_3.index ⟨(i 0).val / 1000, hlt⟩ (0 : Fin 2) * 1000 ≤ (i 0).val
      ∧ (i 0).val < win1_3.index ⟨(i 0).val / 1000, hlt⟩ (0 : Fin 2) * 1000 + 1000
    omega
  | ⟨1, _⟩ =>
    show win1_3.index ⟨(i 0).val / 1000, hlt⟩ (1 : Fin 2) * 256 ≤ (i 1).val
      ∧ (i 1).val < win1_3.index ⟨(i 0).val / 1000, hlt⟩ (1 : Fin 2) * 256 + 256
    omega

/-- THE ARRAY after the run: G1 of the three operand arrays as the region was entered. -/
theorem arr1_eq (c : Dev nD) :
    (dat1 (F := Ideal) V c).arrAt 3 cfg1.N = G1 (V c main_v41) (V c main_v42) (V c main_v43) :=
  (dat1 (F := Ideal) V c).arrAt_eq_of_cover 3 _ (fun t _ => flushed1_eq V c t) cover1_arr

end Cert.KernelIdeal.Hand

end
-- ==== Proof.V.Final1Ref.lean ====
/-
  A head's projection a · w + b, as the reference's host operations compute it, read at one entry: the plain
  10000 x 256 by 256 x 128 product at (r, j) is the sum over the 256 contracted positions k of a (r, k) · w (k, j), and
  the bias, laid out as one row and repeated down the rows, contributes b j.
-/
import proofs.«140900_j10024453669132_1_alg».proof.Proof.V.Spec
import proofs.«140900_j10024453669132_1_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.Proof.Spec

open Cert.ReferenceIdeal Cert.ReferenceIdeal.Gen
open Idealize.ShloMosaic Idealize.ShloMosaic.ValueIdx

/-- The host's plain product of an M x K array by a K x N array, at the extended reals, at entry (p, q):
    Σ k, left (p, k) · right (k, q). -/
theorem dotGeneral_plain_apply {M K N : ℕ} {φ₁ φ₂ : FTy} (prec : Option ContractPrecision)
    (l : FVec Ideal ⟨2, ![M, K]⟩ φ₁) (r : FVec Ideal ⟨2, ![K, N]⟩ φ₂) (p : Fin M) (q : Fin N) :
    Host.dotGeneral (F := Ideal) (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact MatmulPlain.lhs_row _ _
      | ⟨1, _⟩ => exact (MatmulPlain.lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (MatmulPlain.rhs_row _ _).trans hk
      | ⟨1, _⟩ => exact MatmulPlain.rhs_col _ _)
  rw [el, er]

/-- The bias as the reference lays it out: the 128-vector placed as a 1 x 128 row, that row repeated over the 10000
    rows, reads at (r, j) the bias at j. -/
theorem headBias_apply (b : (⟨S128, .f32⟩ : BufTy).Contents (Elt Ideal)) (r : Fin 10000) (j : Fin 128) :
    broadcastInDim S10000x128 ![0, 1] bcast_S1x128_S10000x128_0_1 (broadcastInDim S1x128 ![1] bcast_S128_S1x128_1 b)
        (ix2 r j) = b (ix1 j) := by
  refine (broadcastInDim_apply _ bcast_S1x128_S10000x128_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (128 : Nat) = 1 then 0 else j.val; rw [if_neg (by decide)]
  · refine broadcastInDim_apply _ bcast_S128_S1x128_1 b (ix2 (0 : Fin 1) j) (ix1 j) (fun a => ?_)
    match a with
    | ⟨0, _⟩ => show j.val = if (128 : Nat) = 1 then 0 else j.val; rw [if_neg (by decide)]

/-- Entry (r, j) of a head's projection: Σ k, a (r, k) · w (k, j) + b j. -/
theorem head_apply (a : (⟨S10000x256, .f32⟩ : BufTy).Contents (Elt Ideal)) (w : (⟨S256x128, .f32⟩ : BufTy).Contents (Elt Ideal))
    (b : (⟨S128, .f32⟩ : BufTy).Contents (Elt Ideal)) (r : Fin 10000) (j : Fin 128) :
    head (F := Ideal) a w b (ix2 r j) = (∑ k : Fin 256, a (ix2 r k) * w (ix2 k j)) + b (ix1 j) := by
  unfold head
  refine (addf_apply _ _ _).trans ?_
  rw [headBias_apply b r j]
  refine congrArg (· + b (ix1 j)) ?_
  exact dotGeneral_plain_apply (M := 10000) (K := 256) (N := 128) none a w r j

end Cert.Proof.Spec

end
-- ==== Proof.V.Final1.lean ====
/-
  The second dense region's result array after the run, at the extended reals. The region multiplies by the two
  heads' weights side by side (256 x 256 = [w2 | w3]) and adds the two biases end to end; its ten row blocks piece
  together a · [w2 | w3] + [b2 ; b3], whose left 128 columns are a · w2 + b2 and whose right 128 are a · w3 + b3:
  each entry's sum over the 256 contracted positions reads columns of w2, or of w3, alone.
-/
import proofs.«140900_j10024453669132_1_alg».proof.Proof.KI.DenseSecond
import proofs.«140900_j10024453669132_1_alg».proof.Proof.V.Spec
import proofs.«140900_j10024453669132_1_alg».proof.Proof.V.Final1Arr
import proofs.«140900_j10024453669132_1_alg».proof.Proof.V.Final1Ref
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- With the weight the two heads' weights side by side and the bias the two biases end to end, a column of the
    result in the left half (column j' = j < 128) reads the first head's weight and bias alone: each of the 256 terms
    of the entry's sum takes column j of w2, and the bias term is b2 j. -/
theorem G1_left (a : S10000x256.Idx → Elt Ideal .f32) (w2 w3 : (⟨S256x128, .f32⟩ : BufTy).Contents (Elt Ideal))
    (b2 b3 : (⟨S128, .f32⟩ : BufTy).Contents (Elt Ideal)) (r : Fin 10000) (j : Fin 128) (j' : Fin 256) (hj : j'.val = j.val) :
    G1 a (concatenate S256x256 1 [⟨S256x128, w2⟩, ⟨S256x128, w3⟩] concatenates_S256x128_S256x128_S256x256_d1)
        (concatenate S256 0 [⟨S128, b2⟩, ⟨S128, b3⟩] concatenates_S128_S128_S256_d0) (ix2 r j')
      = (∑ k : Fin 256, a (ix2 r k) * w2 (ix2 k j)) + b2 (ix1 j) := by
  rw [G1_apply]
  have hW : ∀ k : Fin 256, concatenate S256x256 1 [⟨S256x128, w2⟩, ⟨S256x128, w3⟩]
      concatenates_S256x128_S256x128_S256x256_d1 (ix2 k j') = w2 (ix2 k j) := fun k =>
    concatenate_pair_apply_left (1 : Fin 2) w2 w3 concatenates_S256x128_S256x128_S256x256_d1 (ix2 k j') rfl (ix2 k j)
      (fun b => by
        match b with
        | ⟨0, _⟩ => rfl
        | ⟨1, _⟩ => exact hj.symm)
  have hB : concatenate S256 0 [⟨S128, b2⟩, ⟨S128, b3⟩] concatenates_S128_S128_S256_d0 (ix1 j') = b2 (ix1 j) :=
    concatenate_pair_apply_left (0 : Fin 1) b2 b3 concatenates_S128_S128_S256_d0 (ix1 j') rfl (ix1 j)
      (fun b => by
        match b with
        | ⟨0, _⟩ => exact hj.symm)
  rw [hB]
  exact congrArg (· + b2 (ix1 j)) (Finset.sum_congr rfl fun k _ => by rw [hW k])

/-- A column in the right half (column j' = 128 + j) reads the second head's weight and bias alone. -/
theorem G1_right (a : S10000x256.Idx → Elt Ideal .f32) (w2 w3 : (⟨S256x128, .f32⟩ : BufTy).Contents (Elt Ideal))
    (b2 b3 : (⟨S128, .f32⟩ : BufTy).Contents (Elt Ideal)) (r : Fin 10000) (j : Fin 128) (j' : Fin 256)
    (hj : j'.val = 128 + j.val) :
    G1 a (concatenate S256x256 1 [⟨S256x128, w2⟩, ⟨S256x128, w3⟩] concatenates_S256x128_S256x128_S256x256_d1)
        (concatenate S256 0 [⟨S128, b2⟩, ⟨S128, b3⟩] concatenates_S128_S128_S256_d0) (ix2 r j')
      = (∑ k : Fin 256, a (ix2 r k) * w3 (ix2 k j)) + b3 (ix1 j) := by
  rw [G1_apply]
  have hW : ∀ k : Fin 256, concatenate S256x256 1 [⟨S256x128, w2⟩, ⟨S256x128, w3⟩]
      concatenates_S256x128_S256x128_S256x256_d1 (ix2 k j') = w3 (ix2 k j) := fun k =>
    concatenate_pair_apply_right (1 : Fin 2) w2 w3 concatenates_S256x128_S256x128_S256x256_d1 (ix2 k j') rfl rfl (ix2 k j)
      (fun b hb => by
        match b with
        | ⟨0, _⟩ => rfl
        | ⟨1, _⟩ => exact absurd rfl hb)
      (by show j.val + 128 = j'.val; omega)
  have hB : concatenate S256 0 [⟨S128, b2⟩, ⟨S128, b3⟩] concatenates_S128_S128_S256_d0 (ix1 j') = b3 (ix1 j) :=
    concatenate_pair_apply_right (0 : Fin 1) b2 b3 concatenates_S128_S128_S256_d0 (ix1 j') rfl rfl (ix1 j)
      (fun b hb => by
        match b with
        | ⟨0, _⟩ => exact absurd rfl hb)
      (by show j.val + 128 = j'.val; omega)
  rw [hB]
  exact congrArg (· + b3 (ix1 j)) (Finset.sum_congr rfl fun k _ => by rw [hW k])

variable (V : (c : Dev nD) → (b : Ref sig .tc) → Buf (Elt Ideal) ((c : Thread nD τ).loc b))

/-- With the region's weight operand the two heads' weights side by side and its bias operand the two biases end
    to end, the left half of its result array is the first head's projection of its first operand's array (main_v41)
    and the right half the second's. -/
theorem final1 (c : Dev nD) (w2 w3 : (⟨S256x128, .f32⟩ : BufTy).Contents (Elt Ideal)) (b2 b3 : (⟨S128, .f32⟩ : BufTy).Contents (Elt Ideal))
    (hw : V c main_v42 = concatenate S256x256 1 [⟨S256x128, w2⟩, ⟨S256x128, w3⟩] concatenates_S256x128_S256x128_S256x256_d1)
    (hb : V c main_v43 = concatenate S256 0 [⟨S128, b2⟩, ⟨S128, b3⟩] concatenates_S128_S128_S256_d0) :
    extractStridedSlice S10000x128 ![0, 0] ((dat1 (F := Ideal) V c).arrAt 3 cfg1.N) slices_S10000x256_S10000x128_0_0
        = Cert.Proof.Spec.head (F := Ideal) (V c main_v41) w2 b2
    ∧ extractStridedSlice S10000x128 ![0, 128] ((dat1 (F := Ideal) V c).arrAt 3 cfg1.N) slices_S10000x256_S10000x128_0_128
        = Cert.Proof.Spec.head (F := Ideal) (V c main_v41) w3 b3 := by
  rw [arr1_eq V c, hw, hb]
  refine ⟨funext fun i => ?_, funext fun i => ?_⟩
  · obtain ⟨r, j, rfl⟩ : ∃ (r : Fin 10000) (j : Fin 128), i = ix2 r j := ⟨i 0, i 1, eq_ix2 i⟩
    refine (slice2_axis1_eq 0 _ slices_S10000x256_S10000x128_0_0 r j).trans ?_
    rw [Cert.Proof.Spec.head_apply]
    exact G1_left (V c main_v41) w2 w3 b2 b3 r j _ (Nat.zero_add _)
  · obtain ⟨r, j, rfl⟩ : ∃ (r : Fin 10000) (j : Fin 128), i = ix2 r j := ⟨i 0, i 1, eq_ix2 i⟩
    refine (slice2_axis1_eq 128 _ slices_S10000x256_S10000x128_0_128 r j).trans ?_
    rw [Cert.Proof.Spec.head_apply]
    exact G1_right (V c main_v41) w2 w3 b2 b3 r j _ rfl

end Cert.KernelIdeal.Hand

end
-- ==== Proof.V.Final2.lean ====
/-
  The decoder's result array after the run, at the extended reals: the 79 row blocks the region writes back — the
  last cut at the array's end — piece together 1 / (1 + exp (−(z · zᵀ))) of the array z the region was entered with:
  entry (i, j) of block t is logistic of the sum over the 128 positions of z (128 t + i, k) · z (j, k), the logistic
  IS that quotient at the extended reals, and the blocks' rows inside the array cover the 10000 rows.
-/
import proofs.«140900_j10024453669132_1_alg».proof.Proof.KI.DecodeExact
import proofs.«140900_j10024453669132_1_alg».proof.Proof.V.Spec
import Idealize.ShloMosaic.Lib.IdealHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The kernel's contraction: both operands along their second axis -/

/-- The left operand is read at the entry's row … -/
theorem blkdot_lhs_row (y : S128x10000.Idx) (q : dot_S128x128_S10000x128_S128x10000_1_1_0_0_n_n.contr.Idx) :
    (dot_S128x128_S10000x128_S128x10000_1_1_0_0_n_n.lhsIdx y q 0).val = (y 0).val := by
  unfold DotDims.lhsIdx
  rw [dif_neg (show ¬(0 : Fin S128x128.rank) ∈ dot_S128x128_S10000x128_S128x10000_1_1_0_0_n_n.lhsBatch by decide),
    dif_pos (show (0 : Fin S128x128.rank) ∈ dot_S128x128_S10000x128_S128x10000_1_1_0_0_n_n.lhsNonContracting by decide)]
  rfl

/-- … and the contracted position; -/
theorem blkdot_lhs_pos (y : S128x10000.Idx) (q : dot_S128x128_S10000x128_S128x10000_1_1_0_0_n_n.contr.Idx) :
    (dot_S128x128_S10000x128_S128x10000_1_1_0_0_n_n.lhsIdx y q 1).val = (q ⟨0, by decide⟩).val :=
  dot_S128x128_S10000x128_S128x10000_1_1_0_0_n_n.lhsIdx_val_of_single rfl y q

/-- the right operand at the entry's COLUMN as its row … -/
theorem blkdot_rhs_row (y : S128x10000.Idx) (q : dot_S128x128_S10000x128_S128x10000_1_1_0_0_n_n.contr.Idx) :
    (dot_S128x128_S10000x128_S128x10000_1_1_0_0_n_n.rhsIdx y q 0).val = (y 1).val := by
  unfold DotDims.rhsIdx
  rw [dif_neg (show ¬(0 : Fin S10000x128.rank) ∈ dot_S128x128_S10000x128_S128x10000_1_1_0_0_n_n.rhsBatch by decide),
    dif_pos (show (0 : Fin S10000x128.rank) ∈ dot_S128x128_S10000x128_S128x10000_1_1_0_0_n_n.rhsNonContracting by decide)]
  rfl

/-- … and the contracted position. -/
theorem blkdot_rhs_pos (y : S128x10000.Idx) (q : dot_S128x128_S10000x128_S128x10000_1_1_0_0_n_n.contr.Idx) :
    (dot_S128x128_S10000x128_S128x10000_1_1_0_0_n_n.rhsIdx y q 1).val = (q ⟨0, by decide⟩).val :=
  dot_S128x128_S10000x128_S128x10000_1_1_0_0_n_n.rhsIdx_val_of_single rfl y q

/-- The zero offsets of a whole rank-2 access, as the constant function. -/
theorem whole_offsets2 : (![0, 0] : Fin 2 → Nat) = fun _ => 0 := funext fun a => by fin_cases a <;> rfl

/-- Entry (p, j) of the block the body leaves: the logistic of ∑ k, zr (p, k) · zc (j, k). The whole accesses read
    and leave whole blocks, the same-shape casts and the narrowing change no value at the extended reals, and the
    product accumulates into the zero block. -/
theorem decodeBlk_entry (zr : Vec Ideal S128x128 .f32) (zc : Vec Ideal S10000x128 .f32) (p : Fin 128) (j : Fin 10000) :
    decodeBlk (F := Ideal) zr zc (ix2 p j) = Ideal.logistic (∑ k : Fin 128, zr (ix2 p k) * zc (ix2 j k)) := by
  unfold decodeBlk
  rw [View.canon_unit_zero (S := S128x10000) whole_offsets2, View.ld_unit_zero (S := S128x128) whole_offsets2,
    View.ld_unit_zero (S := S10000x128) whole_offsets2]
  unfold k2_pay1
  simp only [shapeCast_self]
  show Ideal.logistic ((FloatOps.matmul (F := Ideal) dot_S128x128_S10000x128_S128x10000_1_1_0_0_n_n none zr zc
    (constant S128x10000 .f32 0x00000000#32) : FVec Ideal S128x10000 .f32) (ix2 p j)) = _
  rw [Ideal.matmul_constant_zero_apply,
    ← Equiv.sum_comp (ValueIdx.contrEquiv1 dot_S128x128_S10000x128_S128x10000_1_1_0_0_n_n 128 rfl rfl).symm]
  refine congrArg Ideal.logistic (Finset.sum_congr rfl fun k _ => ?_)
  have hk := ValueIdx.contrEquiv1_symm_val dot_S128x128_S10000x128_S128x10000_1_1_0_0_n_n 128 rfl rfl k
  have el : dot_S128x128_S10000x128_S128x10000_1_1_0_0_n_n.lhsIdx (ix2 p j)
      ((ValueIdx.contrEquiv1 dot_S128x128_S10000x128_S128x10000_1_1_0_0_n_n 128 rfl rfl).symm k) = ix2 p k :=
    funext fun a => Fin.ext (by
      match a with
      | ⟨0, _⟩ => exact blkdot_lhs_row _ _
      | ⟨1, _⟩ => exact (blkdot_lhs_pos _ _).trans hk)
  have er : dot_S128x128_S10000x128_S128x10000_1_1_0_0_n_n.rhsIdx (ix2 p j)
      ((ValueIdx.contrEquiv1 dot_S128x128_S10000x128_S128x10000_1_1_0_0_n_n 128 rfl rfl).symm k) = ix2 j k :=
    funext fun a => Fin.ext (by
      match a with
      | ⟨0, _⟩ => exact blkdot_rhs_row _ _
      | ⟨1, _⟩ => exact (blkdot_rhs_pos _ _).trans hk)
  rw [el, er]

/-- The same at any index of the block, its coordinates named. -/
theorem decodeBlk_at (zr : Vec Ideal S128x128 .f32) (zc : Vec Ideal S10000x128 .f32) (Y : S128x10000.Idx) :
    decodeBlk (F := Ideal) zr zc Y
      = Ideal.logistic (∑ k : Fin 128, zr (ix2 (n0 := 128) (n1 := 128) ⟨(Y 0).val, (Y 0).isLt⟩ k)
          * zc (ix2 (n0 := 10000) (n1 := 128) ⟨(Y 1).val, (Y 1).isLt⟩ k)) := by
  obtain ⟨p, q, rfl⟩ : ∃ (p : Fin 128) (q : Fin 10000), Y = ix2 p q := ⟨Y 0, Y 1, eq_ix2 Y⟩
  exact decodeBlk_entry zr zc p q

/-! ## The reference's contraction: z against its transpose -/

open Cert.ReferenceIdeal in
/-- The left operand is read at the entry's row … -/
theorem refdot_lhs_row (i : Cert.ReferenceIdeal.S10000x10000.Idx) (q : dot_S10000x128_S128x10000_S10000x10000_1_0_0_1_n_n.contr.Idx) :
    (dot_S10000x128_S128x10000_S10000x10000_1_0_0_1_n_n.lhsIdx i q 0).val = (i 0).val := by
  unfold DotDims.lhsIdx
  rw [dif_neg (show ¬(0 : Fin Cert.ReferenceIdeal.S10000x128.rank) ∈ dot_S10000x128_S128x10000_S10000x10000_1_0_0_1_n_n.lhsBatch by decide),
    dif_pos (show (0 : Fin Cert.ReferenceIdeal.S10000x128.rank) ∈ dot_S10000x128_S128x10000_S10000x10000_1_0_0_1_n_n.lhsNonContracting by decide)]
  rfl

open Cert.ReferenceIdeal in
/-- … and the contracted position; -/
theorem refdot_lhs_pos (i : Cert.ReferenceIdeal.S10000x10000.Idx) (q : dot_S10000x128_S128x10000_S10000x10000_1_0_0_1_n_n.contr.Idx) :
    (dot_S10000x128_S128x10000_S10000x10000_1_0_0_1_n_n.lhsIdx i q 1).val = (q ⟨0, by decide⟩).val :=
  dot_S10000x128_S128x10000_S10000x10000_1_0_0_1_n_n.lhsIdx_val_of_single rfl i q

open Cert.ReferenceIdeal in
/-- the transposed operand at the contracted position as its row … -/
theorem refdot_rhs_pos (i : Cert.ReferenceIdeal.S10000x10000.Idx) (q : dot_S10000x128_S128x10000_S10000x10000_1_0_0_1_n_n.contr.Idx) :
    (dot_S10000x128_S128x10000_S10000x10000_1_0_0_1_n_n.rhsIdx i q 0).val = (q ⟨0, by decide⟩).val :=
  dot_S10000x128_S128x10000_S10000x10000_1_0_0_1_n_n.rhsIdx_val_of_single rfl i q

open Cert.ReferenceIdeal in
/-- … and the entry's column. -/
theorem refdot_rhs_col (i : Cert.ReferenceIdeal.S10000x10000.Idx) (q : dot_S10000x128_S128x10000_S10000x10000_1_0_0_1_n_n.contr.Idx) :
    (dot_S10000x128_S128x10000_S10000x10000_1_0_0_1_n_n.rhsIdx i q 1).val = (i 1).val := by
  unfold DotDims.rhsIdx
  rw [dif_neg (show ¬(1 : Fin Cert.ReferenceIdeal.S128x10000.rank) ∈ dot_S10000x128_S128x10000_S10000x10000_1_0_0_1_n_n.rhsBatch by decide),
    dif_pos (show (1 : Fin Cert.ReferenceIdeal.S128x10000.rank) ∈ dot_S10000x128_S128x10000_S10000x10000_1_0_0_1_n_n.rhsNonContracting by decide)]
  rfl

open Cert.ReferenceIdeal Cert.ReferenceIdeal.Gen in
/-- The transpose of z read at (k, j) is z at (j, k). -/
theorem zT_entry (z : FVec Ideal Cert.ReferenceIdeal.S10000x128 .f32) (k : Fin 128) (j : Fin 10000) :
    transpose Cert.ReferenceIdeal.S128x10000 [1, 0] z transposes_S10000x128_S128x10000_1_0 (ix2 k j) = z (ix2 j k) :=
  transpose_apply [1, 0] z transposes_S10000x128_S128x10000_1_0 (ix2 k j) (ix2 j k) (fun b => match b with
    | ⟨0, _⟩ => rfl
    | ⟨1, _⟩ => rfl)

open Cert.ReferenceIdeal Cert.ReferenceIdeal.Gen in
/-- Entry (i, j) of z · zᵀ on the host: ∑ k, z (i, k) · z (j, k). -/
theorem zzT_entry (z : FVec Ideal Cert.ReferenceIdeal.S10000x128 .f32) (i j : Fin 10000) :
    Host.dotGeneral (F := Ideal) dot_S10000x128_S128x10000_S10000x10000_1_0_0_1_n_n none z
        (transpose Cert.ReferenceIdeal.S128x10000 [1, 0] z transposes_S10000x128_S128x10000_1_0) (ix2 i j)
      = ∑ k : Fin 128, z (ix2 i k) * z (ix2 j k) := by
  generalize hzt : transpose Cert.ReferenceIdeal.S128x10000 [1, 0] z transposes_S10000x128_S128x10000_1_0 = zt
  have hzt' : ∀ (k : Fin 128), zt (ix2 k j) = z (ix2 j k) := fun k => by rw [← hzt]; exact zT_entry z k j
  simp only [Host.dotGeneral]
  rw [Ideal.dotGeneral_apply,
    ← Equiv.sum_comp (ValueIdx.contrEquiv1 dot_S10000x128_S128x10000_S10000x10000_1_0_0_1_n_n 128 rfl rfl).symm]
  refine Finset.sum_congr rfl fun k _ => ?_
  have hk := ValueIdx.contrEquiv1_symm_val dot_S10000x128_S128x10000_S10000x10000_1_0_0_1_n_n 128 rfl rfl k
  have el : dot_S10000x128_S128x10000_S10000x10000_1_0_0_1_n_n.lhsIdx (ix2 i j)
      ((ValueIdx.contrEquiv1 dot_S10000x128_S128x10000_S10000x10000_1_0_0_1_n_n 128 rfl rfl).symm k) = ix2 i k :=
    funext fun a => Fin.ext (by
      match a with
      | ⟨0, _⟩ => exact refdot_lhs_row _ _
      | ⟨1, _⟩ => exact (refdot_lhs_pos _ _).trans hk)
  have er : dot_S10000x128_S128x10000_S10000x10000_1_0_0_1_n_n.rhsIdx (ix2 i j)
      ((ValueIdx.contrEquiv1 dot_S10000x128_S128x10000_S10000x10000_1_0_0_1_n_n 128 rfl rfl).symm k) = ix2 k j :=
    funext fun a => Fin.ext (by
      match a with
      | ⟨0, _⟩ => exact (refdot_rhs_pos _ _).trans hk
      | ⟨1, _⟩ => exact refdot_rhs_col _ _)
  rw [el, er, hzt']

/-- Entry (i, j) of the reference's decoder: the logistic of ∑ k, z (i, k) · z (j, k). -/
theorem decode_entry (z : FVec Ideal Cert.ReferenceIdeal.S10000x128 .f32) (i j : Fin 10000) :
    Cert.Proof.Spec.decode (F := Ideal) z (ix2 i j) = Ideal.logistic (∑ k : Fin 128, z (ix2 i k) * z (ix2 j k)) := by
  unfold Cert.Proof.Spec.decode
  -- the quotient, the sum, the exponential and the negation are entry by entry; the splat of the word of 1 is 1
  show Ideal.div (broadcastInDim Cert.ReferenceIdeal.S10000x10000 ![] Cert.ReferenceIdeal.Gen.bcast_S_S10000x10000
        (constant (F := Ideal) Cert.ReferenceIdeal.S_ .f32 0x3F800000#32) (ix2 i j))
      (broadcastInDim Cert.ReferenceIdeal.S10000x10000 ![] Cert.ReferenceIdeal.Gen.bcast_S_S10000x10000
          (constant (F := Ideal) Cert.ReferenceIdeal.S_ .f32 0x3F800000#32) (ix2 i j)
        + Ideal.exp (-(Host.dotGeneral (F := Ideal) Cert.ReferenceIdeal.dot_S10000x128_S128x10000_S10000x10000_1_0_0_1_n_n none z
            (transpose Cert.ReferenceIdeal.S128x10000 [1, 0] z Cert.ReferenceIdeal.Gen.transposes_S10000x128_S128x10000_1_0) (ix2 i j)))) = _
  rw [zzT_entry, broadcastInDim_scalar_apply]
  show Ideal.div (Ideal.ofBits .f32 0x3F800000#32) (Ideal.ofBits .f32 0x3F800000#32 + _) = _
  rw [Ideal.ofBits_one_f32]
  rfl

/-- The same at any index of the array, its coordinates named. -/
theorem decode_at (z : FVec Ideal Cert.ReferenceIdeal.S10000x128 .f32) (I : Cert.ReferenceIdeal.S10000x10000.Idx) :
    Cert.Proof.Spec.decode (F := Ideal) z I
      = Ideal.logistic (∑ k : Fin 128, z (ix2 (n0 := 10000) (n1 := 128) ⟨(I 0).val, (I 0).isLt⟩ k)
          * z (ix2 (n0 := 10000) (n1 := 128) ⟨(I 1).val, (I 1).isLt⟩ k)) := by
  obtain ⟨p, q, rfl⟩ : ∃ (p q : Fin 10000), I = ix2 p q := ⟨I 0, I 1, eq_ix2 I⟩
  exact decode_entry z p q

/-! ## The blocks the region writes back, and the array they piece together -/

variable (V : (c : Dev nD) → (b : Ref sig .tc) → Buf (Elt Ideal) ((c : Thread nD τ).loc b))

/-- The printed index maps and the cut, decided over the 79 points: the row-block window and the result window sit
    at block row t, block column 0; the whole-array window at block (0, 0); the result's block keeps 128 rows, but
    16 at the last point, and all its 10000 columns. -/
theorem decode_points : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_2.xsize (grid2.coords t) (0 : Fin 2) = (if t.val = 78 then 16 else 128)
    ∧ win2_2.xsize (grid2.coords t) (1 : Fin 2) = 10000 :=
  (by decide +kernel : ∀ t : Fin grid2.N, _)

/-- The filled row block at a row the transfer moves is z at that row of the array: row 128 t + (the row inside the
    block), the same lane. -/
theorem zrFill_entry (c : Dev nD) (t : Fin cfg2.N) (J : S128x128.Idx) (I : S10000x128.Idx)
    (h0 : (J 0).val < win2_0.xsize (grid2.coords t) (0 : Fin 2))
    (e0 : (I 0).val = win2_0.index t (0 : Fin 2) * 128 + (J 0).val) (e1 : (I 1).val = (J 1).val) :
    zrFill V c t J = V c main_v49 I := by
  have hm : win2_0.moved (grid2.coords t) J = true := by
    rw [Window.moved_iff]
    intro a
    match a with
    | ⟨0, _⟩ => exact h0
    | ⟨1, _⟩ => exact (J 1).isLt
  unfold zrFill Window.fill
  rw [dif_pos hm]
  show V c main_v49 (((cfg2.win 0).blk t).view.emb _) = V c main_v49 I
  refine congrArg (V c main_v49) (funext fun a => Fin.ext ?_)
  obtain ⟨-, q1, -⟩ := decode_points t
  match a with
  | ⟨0, _⟩ =>
    show win2_0.index t (0 : Fin 2) * 128 + 1 * (J 0).val = (I 0).val
    omega
  | ⟨1, _⟩ =>
    show win2_0.index t (1 : Fin 2) * 128 + 1 * (J 1).val = (I 1).val
    omega

/-- The whole-array window's block is z. -/
theorem zc_entry (c : Dev nD) (t : Fin cfg2.N) (J : S10000x128.Idx) : blk2 V c 1 t J = V c main_v49 J := by
  show V c main_v49 (((cfg2.win 1).blk t).view.emb J) = V c main_v49 J
  refine congrArg (V c main_v49) (funext fun a => Fin.ext ?_)
  obtain ⟨-, -, q0, q1, -⟩ := decode_points t
  match a with
  | ⟨0, _⟩ =>
    show win2_1.index t (0 : Fin 2) * 10000 + 1 * (J 0).val = (J 0).val
    omega
  | ⟨1, _⟩ =>
    show win2_1.index t (1 : Fin 2) * 128 + 1 * (J 1).val = (J 1).val
    omega

/-- What point t writes back — the rows of its block inside the array — is those rows of the decoder of z. -/
theorem decode_flushed (c : Dev nD) (t : Fin cfg2.N) :
    (dat2 (F := Ideal) V c).flushed 2 t
      = ((cfg2.win 2).blk t).view.read (Elt Ideal) (Cert.Proof.Spec.decode (F := Ideal) (V c main_v49)) := by
  show (cfg2.win 2).cut (grid2.coords t) ((dat2 V c).after 2 t) = _
  rw [dat2_after2]
  funext y
  show decodeBlk (F := Ideal) (zrFill V c t) (blk2 V c 1 t) (win2_2.xinj (grid2.coords t) y)
    = Cert.Proof.Spec.decode (F := Ideal) (V c main_v49) (((cfg2.win 2).blk t).view.emb y)
  obtain ⟨p0, -, -, -, r0, r1, -, -⟩ := decode_points t
  refine (decodeBlk_at _ _ _).trans
    ((congrArg Ideal.logistic (Finset.sum_congr rfl fun k _ => ?_)).trans (decode_at _ _).symm)
  refine congrArg₂ (· * ·) (zrFill_entry V c t _ _ (y 0).isLt ?_ rfl) ((zc_entry V c t _).trans (congrArg (V c main_v49) ?_))
  · -- the row in the array: block row t of both windows, 128 rows a block
    show win2_2.index t (0 : Fin 2) * 128 + 1 * (y 0).val = win2_0.index t (0 : Fin 2) * 128 + (y 0).val
    omega
  · -- the column of the entry names the row of z: block column 0
    refine funext fun a => Fin.ext ?_
    match a with
    | ⟨0, _⟩ =>
      show (y 1).val = win2_2.index t (1 : Fin 2) * 10000 + 1 * (y 1).val
      omega
    | ⟨1, _⟩ => rfl

/-- An index of the result array is in point t's block iff each coordinate is in the block's range inside the array. -/
theorem decode_mem_blk (t : Fin cfg2.N) (i : S10000x10000.Idx) :
    i ∈ ((cfg2.win 2).blk t).view.set ↔ ∀ a : Fin 2, win2_2.index t a * S128x10000.size a ≤ (i a).val
      ∧ (i a).val < win2_2.index t a * S128x10000.size a + win2_2.xsize (grid2.coords t) a := by
  show i ∈ ((View.whole main_v50).slice (win2_2.rect t)).set ↔ _
  rw [View.set_slice_whole, Rect.mem_set_unit]
  exact Iff.rfl

/-- Every index of the result array is in the block of the point its row names: row r is in block r / 128, whose rows
    inside the array are 128 (r / 128) .. up to the array's end. -/
theorem decode_rows_cover (i : S10000x10000.Idx) :
    ∃ t : Fin cfg2.N, (cfg2.win 2).flush t = true ∧ i ∈ ((cfg2.win 2).blk t).view.set := by
  have hi0 : (i 0).val < 10000 := (i 0).isLt
  have hi1 : (i 1).val < 10000 := (i 1).isLt
  refine ⟨⟨(i 0).val / 128, by show (i 0).val / 128 < 79; omega⟩, flush2_2 _, ?_⟩
  rw [decode_mem_blk]
  obtain ⟨-, -, -, -, r0, r1, x0, x1⟩ := decode_points ⟨(i 0).val / 128, by show (i 0).val / 128 < 79; omega⟩
  intro a
  match a with
  | ⟨0, _⟩ =>
    show win2_2.index _ (0 : Fin 2) * 128 ≤ (i 0).val ∧ (i 0).val < win2_2.index _ (0 : Fin 2) * 128 + win2_2.xsize _ (0 : Fin 2)
    rw [r0, x0]
    show (i 0).val / 128 * 128 ≤ (i 0).val ∧ (i 0).val < (i 0).val / 128 * 128 + (if (i 0).val / 128 = 78 then 16 else 128)
    split <;> omega
  | ⟨1, _⟩ =>
    show win2_2.index _ (1 : Fin 2) * 10000 ≤ (i 1).val ∧ (i 1).val < win2_2.index _ (1 : Fin 2) * 10000 + win2_2.xsize _ (1 : Fin 2)
    rw [r1, x1]
    omega

/-- After the region's last point its result array holds the decoder of z = the array both its input windows read
    (main_v49), as the region was entered. -/
theorem final2 (c : Dev nD) :
    (dat2 (F := Ideal) V c).arrAt 2 cfg2.N = Cert.Proof.Spec.decode (F := Ideal) (V c main_v49) :=
  (dat2 (F := Ideal) V c).arrAt_eq_of_cover 2 _ (fun t _ => decode_flushed V c t) decode_rows_cover

end Cert.KernelIdeal.Hand

end
-- ==== Proof.V.HostThird.lean ====
/-
  After the second dense region: the left and right halves of its result array are the reference's mean and
  log-deviation, the host operations that follow (the two halves cut out, the exponential, the product with the noise,
  the sum) give the decoder's region the reference's latent z, and the decoder's result array is the reference's result.
-/
import proofs.«140900_j10024453669132_1_alg».proof.Proof.V.HostSecond
import proofs.«140900_j10024453669132_1_alg».proof.Proof.V.Final1
import proofs.«140900_j10024453669132_1_alg».proof.Proof.V.Final2
import proofs.«140900_j10024453669132_1_alg».proof.Proof.V.RefStages

set_option maxRecDepth 16384
set_option maxHeartbeats 8000000

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- A reference the host operations between the first two regions do not write holds what it held. -/
theorem B7_keep (c : Dev nD) (r : Ref sig .tc) (h : r ∉ hostOps1_W) : B7 m c (Proc.devRef .tc r) = B6 m c (Proc.devRef .tc r) :=
  StableHlo.after_of_writes_sub hostOps1 _ hostOps1_writes h

/-- A reference the second region does not write holds after it what it held before. -/
theorem B8_keep (c : Dev nD) (r : Ref sig .tc) (hin : ∀ w, Pipeline.arrRef spec1 w = r → (cfg1.win w).isOut = false) :
    B8 m c (Proc.devRef .tc r) = B7 m c (Proc.devRef .tc r) := by
  by_cases hw : ∃ w, Pipeline.arrRef spec1 w = r
  · obtain ⟨w, rfl⟩ := hw
    rw [B8_arr, (dat1 (atTc (B7 m)) c).arrAt_in w (hin w rfl) _, dat1_A]
  · exact B8_of_ne m c r fun w e => hw ⟨w, e⟩

/-- The decoder's region is entered with the reference's latent z. -/
theorem latent_at (c : Dev nD) :
    B9 m c (Proc.devRef .tc main_v49)
      = Cert.ReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨hmean, hlog⟩ := final1 (atTc (B7 m)) c (m ((c : Thread nD τ).loc main_arg6)) (m ((c : Thread nD τ).loc main_arg8)) (m ((c : Thread nD τ).loc main_arg7)) (m ((c : Thread nD τ).loc main_arg9)) (weights_cat m c) (biases_cat m c)
  rw [show atTc (B7 m) c main_v41 = B7 m c (Proc.devRef .tc main_v41) from rfl, agg_hidden m c,
    ← Cert.Proof.RefStages.mean_eq] at hmean
  rw [show atTc (B7 m) c main_v41 = B7 m c (Proc.devRef .tc main_v41) from rfl, agg_hidden m c,
    ← Cert.Proof.RefStages.agg_twice, ← Cert.Proof.RefStages.logstd_eq] at hlog
  have e44 : B8 m c (Proc.devRef .tc main_v44) = (dat1 (atTc (B7 m)) c).arrAt 3 cfg1.N := B8_arr m c 3
  have e3 : B8 m c (Proc.devRef .tc main_arg3) = (m ((c : Thread nD τ).loc main_arg3)) :=
    (B8_keep m c main_arg3 (by decide)).trans <| (B7_keep m c main_arg3 (by decide)).trans <|
      (B6_keep m c main_arg3 (by decide) (by decide)).trans (B5_arg m c main_arg3 (by decide) (by decide) (by decide) (by decide) (by decide))
  show StableHlo.after hostOps2 (B8 m c) (Proc.devRef .tc main_v49) = _
  dsimp only [hostOps2]
  after_results
  rw [e44, e3, hmean, hlog]
  exact Cert.Proof.RefStages.latent_eq _ _ _ _ _ _ _ _ _ _

/-- The kernel program's result array is the reference's result of the same arguments. -/
theorem result_at (c : Dev nD) :
    B10 m c (Proc.devRef .tc main_v50)
      = Cert.ReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := final2 (atTc (B9 m)) c
  rw [show atTc (B9 m) c main_v49 = B9 m c (Proc.devRef .tc main_v49) from rfl, latent_at m c] at h
  exact (B10_out m c).trans (h.trans (Cert.Proof.RefStages.result_eq _ _ _ _ _ _ _ _ _ _).symm)

end Cert.KernelIdeal.Hand

end
-- ==== Proof.lean ====
/-
  The certificate of the variational graph auto-encoder's forward pass: a two-layer graph-convolution encoder —
  degree-normalised aggregation over 320000 edges by gather and scatter-add on the host, each layer's projection
  a · w + b in a kernel region (the first with relu, the second computing the mean's and the log-deviation's heads
  at once over their weights laid side by side) —, the reparameterisation z = mean + noise · exp (log-deviation) on
  the host, and the inner-product decoder sigmoid (z · zᵀ) in a third kernel region over 79 row blocks, the last cut
  at the array's end.

  Frames. The word-level program and its idealization run to the end, fault nowhere and leave their ten arguments
  as launched: @main's ten items — stretches of host operations and the three kernel regions — are composed over
  named contents of every buffer between items (the word-level program's decoder region leaves its result array at
  contents nothing names: at that instance the matrix product of the cut block's unnamed staging rows is not known
  row by row, and the frame does not read it). The reference is a host program: its run gives its frame.

  Equivalence over the extended reals. The idealized kernel program and the reference, from memories that agree on
  the arguments, end with equal results: the aggregations are the same host operations on the same arrays; a kernel
  region's blocks piece together the reference's projection of the region's operand (a format change is the identity,
  the matrix unit's product into a zero accumulator is the finite sum the host's dot_general is); the second region's
  result over [w2 | w3] and [b2 ; b3] has the mean in its left 128 columns and the log-deviation in its right 128 —
  each entry's sum reads columns of one head's weight alone, so no law beyond reindexing of finite sums is used and
  the inputs' finiteness is never opened —; the kernel's logistic is by definition 1 / (1 + exp (−x)), which the
  reference spells out. The idealization rewrote nothing, so it is the program's own text read over the extended reals.
-/
import proofs.«140900_j10024453669132_1_alg».proof.Defs
import proofs.«140900_j10024453669132_1_alg».proof.Proof.Gen.Kernel
import proofs.«140900_j10024453669132_1_alg».proof.Proof.Gen.KernelIdeal
import proofs.«140900_j10024453669132_1_alg».proof.Proof.Gen.ReferenceIdeal
import proofs.«140900_j10024453669132_1_alg».proof.Proof.Gen.Pre_finite_inputs
import proofs.«140900_j10024453669132_1_alg».proof.Proof.Gen.ReferenceIdeal.Run
import proofs.«140900_j10024453669132_1_alg».proof.Proof.Gen.ReferenceIdeal.Read
import proofs.«140900_j10024453669132_1_alg».proof.Proof.K.Run
import proofs.«140900_j10024453669132_1_alg».proof.Proof.KI.Run
import proofs.«140900_j10024453669132_1_alg».proof.Proof.V.HostThird
import Idealize.ShloMosaic.Adequacy
import Idealize.ShloMosaic.Init

set_option maxRecDepth 16384

noncomputable section

namespace Cert.Proof

open Idealize.ShloMosaic Idealize.ShloMosaic.TcCoe Idealize.SL.Sem

/-- The word-level program's frame. -/
theorem frame_k : @Cert.frame_Kernel Cert.Kernel.Gen.facts Cert.Pre_finite_inputs.Gen.facts :=
  fun m ρ _ => Cert.Kernel.Hand.frame_run m ρ

section Ideal

open Cert.KernelIdeal Cert.KernelIdeal.Gen Cert.KernelIdeal.Hand

/-- The idealized kernel program's frame: its run ends with every unscoped buffer at the last named contents, and no
    item writes an argument. -/
theorem frame_ki : @Cert.frame_KernelIdeal Cert.KernelIdeal.Gen.facts Cert.Pre_finite_inputs.Gen.facts := fun m ρ _ =>
  (θ_run (Cert.KernelIdeal.defs (F := Ideal)) _ _).mono
    (fun r h c => ⟨(h c _ (mem_uc main_arg0 (by decide))).trans (B10_kept m c main_arg0 (by decide) (by decide) (by decide) (by decide) (by decide) (by decide) (by decide) (by decide) (by decide) (by decide)),
      (h c _ (mem_uc main_arg1 (by decide))).trans (B10_kept m c main_arg1 (by decide) (by decide) (by decide) (by decide) (by decide) (by decide) (by decide) (by decide) (by decide) (by decide)),
      (h c _ (mem_uc main_arg2 (by decide))).trans (B10_kept m c main_arg2 (by decide) (by decide) (by decide) (by decide) (by decide) (by decide) (by decide) (by decide) (by decide) (by decide)),
      (h c _ (mem_uc main_arg3 (by decide))).trans (B10_kept m c main_arg3 (by decide) (by decide) (by decide) (by decide) (by decide) (by decide) (by decide) (by decide) (by decide) (by decide)),
      (h c _ (mem_uc main_arg4 (by decide))).trans (B10_kept m c main_arg4 (by decide) (by decide) (by decide) (by decide) (by decide) (by decide) (by decide) (by decide) (by decide) (by decide)),
      (h c _ (mem_uc main_arg5 (by decide))).trans (B10_kept m c main_arg5 (by decide) (by decide) (by decide) (by decide) (by decide) (by decide) (by decide) (by decide) (by decide) (by decide)),
      (h c _ (mem_uc main_arg6 (by decide))).trans (B10_kept m c main_arg6 (by decide) (by decide) (by decide) (by decide) (by decide) (by decide) (by decide) (by decide) (by decide) (by decide)),
      (h c _ (mem_uc main_arg7 (by decide))).trans (B10_kept m c main_arg7 (by decide) (by decide) (by decide) (by decide) (by decide) (by decide) (by decide) (by decide) (by decide) (by decide)),
      (h c _ (mem_uc main_arg8 (by decide))).trans (B10_kept m c main_arg8 (by decide) (by decide) (by decide) (by decide) (by decide) (by decide) (by decide) (by decide) (by decide) (by decide)),
      (h c _ (mem_uc main_arg9 (by decide))).trans (B10_kept m c main_arg9 (by decide) (by decide) (by decide) (by decide) (by decide) (by decide) (by decide) (by decide) (by decide) (by decide))⟩)
    (run_all m ρ)

end Ideal

/-- The reference's frame: its run with the result dropped. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Value.run (F := Ideal) m ρ)

section Alg

open Cert.KernelIdeal Cert.KernelIdeal.Gen Cert.KernelIdeal.Hand

/-- From memories that agree on the arguments both idealized programs end with the same result array: the kernel
    program's last named contents of its result buffer, which are the reference's last stage of the same arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => B10 m c (Proc.devRef .tc main_v50), ?_, ?_⟩
  · exact (θ_run (Cert.KernelIdeal.defs (F := Ideal)) _ _).mono
      (fun r h c => ⟨h c _ (mem_uc main_v50 (by decide)),
        (h c _ (mem_uc main_arg0 (by decide))).trans (B10_kept m c main_arg0 (by decide) (by decide) (by decide) (by decide) (by decide) (by decide) (by decide) (by decide) (by decide) (by decide)),
        (h c _ (mem_uc main_arg1 (by decide))).trans (B10_kept m c main_arg1 (by decide) (by decide) (by decide) (by decide) (by decide) (by decide) (by decide) (by decide) (by decide) (by decide)),
        (h c _ (mem_uc main_arg2 (by decide))).trans (B10_kept m c main_arg2 (by decide) (by decide) (by decide) (by decide) (by decide) (by decide) (by decide) (by decide) (by decide) (by decide)),
        (h c _ (mem_uc main_arg3 (by decide))).trans (B10_kept m c main_arg3 (by decide) (by decide) (by decide) (by decide) (by decide) (by decide) (by decide) (by decide) (by decide) (by decide)),
        (h c _ (mem_uc main_arg4 (by decide))).trans (B10_kept m c main_arg4 (by decide) (by decide) (by decide) (by decide) (by decide) (by decide) (by decide) (by decide) (by decide) (by decide)),
        (h c _ (mem_uc main_arg5 (by decide))).trans (B10_kept m c main_arg5 (by decide) (by decide) (by decide) (by decide) (by decide) (by decide) (by decide) (by decide) (by decide) (by decide)),
        (h c _ (mem_uc main_arg6 (by decide))).trans (B10_kept m c main_arg6 (by decide) (by decide) (by decide) (by decide) (by decide) (by decide) (by decide) (by decide) (by decide) (by decide)),
        (h c _ (mem_uc main_arg7 (by decide))).trans (B10_kept m c main_arg7 (by decide) (by decide) (by decide) (by decide) (by decide) (by decide) (by decide) (by decide) (by decide) (by decide)),
        (h c _ (mem_uc main_arg8 (by decide))).trans (B10_kept m c main_arg8 (by decide) (by decide) (by decide) (by decide) (by decide) (by decide) (by decide) (by decide) (by decide) (by decide)),
        (h c _ (mem_uc main_arg9 (by decide))).trans (B10_kept m c main_arg9 (by decide) (by decide) (by decide) (by decide) (by decide) (by decide) (by decide) (by decide) (by decide) (by decide))⟩)
      (run_all m ρ)
  · refine (θ_run (Cert.ReferenceIdeal.defs (F := Ideal)) _ _).mono (fun r h c => ⟨?_, (h c).2⟩)
      (Cert.ReferenceIdeal.Value.run (F := Ideal) m' ρ')
    rw [(h c).1, Cert.ReferenceIdeal.Read.val_main_v104_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (result_at m c).symm

end Alg

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
